-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel

variable [Facts]

def fn {F : FTy → Type} [FloatOps F] (main_arg0 : FVec F S32x2048x1024 .f32) (main_arg1 : FVec F S32x2048x1024 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S32x2048x1024 .f32 := Host.absf main_arg1
  let main_cst_0 : FVec F S_ .f32 := constant S_ .f32 0x7F800000#32
  let main_v5 : FVec F S32x2048x1024 .f32 := broadcastInDim S32x2048x1024 ![] bcast_S_S32x2048x1024 main_cst_0
  let main_v6 : IVec S32x2048x1024 1 := cmpf .olt main_v4 main_v5
  let main_c_1 : IVec S_ 1 := constantI S_ 1 1#1
  let main_v7 : IVec S_ 1 := (fun x v => Host.reduce IntOp.andi x v reducesTo_S32x2048x1024_S_d0_1_2 h_S_) main_v6 main_c_1
  let main_v8 : IVec S_ 1 := andi main_v3 main_v7
  main_v8
-- ==== Kernel.lean ====
abbrev S32x2048x1024 : Shape := ⟨3, ![32, 2048, 1024]⟩
abbrev S32x1x1024 : Shape := ⟨3, ![32, 1, 1024]⟩
abbrev S32x1x2048 : Shape := ⟨3, ![32, 1, 2048]⟩
abbrev S1x1024x1024 : Shape := ⟨3, ![1, 1024, 1024]⟩
abbrev S1x512x1024 : Shape := ⟨3, ![1, 512, 1024]⟩
abbrev S1x1x1024 : Shape := ⟨3, ![1, 1, 1024]⟩
abbrev S1x1x2048 : Shape := ⟨3, ![1, 1, 2048]⟩
abbrev S1024x1 : Shape := ⟨2, ![1024, 1]⟩
abbrev S1024x1024 : Shape := ⟨2, ![1024, 1024]⟩
abbrev S1x2048 : Shape := ⟨2, ![1, 2048]⟩
abbrev S512x1024 : Shape := ⟨2, ![512, 1024]⟩
abbrev S1024x512 : Shape := ⟨2, ![1024, 512]⟩
abbrev S512 : Shape := ⟨1, ![512]⟩
abbrev S1x512 : Shape := ⟨2, ![1, 512]⟩
abbrev S1024 : Shape := ⟨1, ![1024]⟩
abbrev S1x1024 : Shape := ⟨2, ![1, 1024]⟩
abbrev S32x2048 : Shape := ⟨2, ![32, 2048]⟩
abbrev S32x1024 : Shape := ⟨2, ![32, 1024]⟩

abbrev nBuf : Space → Nat
  | .hbm => 6
  | .vmem => 12
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x1x1024, .f32⟩
  | .hbm, ⟨3, _⟩ => ⟨S32x1x2048, .f32⟩
  | .hbm, ⟨4, _⟩ => ⟨S32x2048, .f32⟩
  | .hbm, ⟨5, _⟩ => ⟨S32x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x2048, .f32⟩
  | .local _ .vmem, ⟨7, _⟩ => ⟨S1x1x2048, .f32⟩
  | .local _ .vmem, ⟨8, _⟩ => ⟨S1024x1, .f32⟩
  | .local _ .vmem, ⟨9, _⟩ => ⟨S1024x1, .f32⟩
  | .local _ .vmem, ⟨10, _⟩ => ⟨S1024x1024, .f32⟩
  | .local _ .vmem, ⟨11, _⟩ => ⟨S1x2048, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 2, 4], ![false, false, false]⟩

def k0_mult1 (i : grid0.Coords) : BitVec 32 :=
  let arg2 : BitVec 32 := BitVec.ofNat 32 (i 2).val
  let c512_i32 : BitVec 32 := 512#32
  let v19 : BitVec 32 := Scalar.muli arg2 c512_i32
  v19
def k0_off1 (i : grid0.Coords) : Fin 2 → Nat :=
  let c0_11 : Index := 0#32
  let arg2 : BitVec 32 := BitVec.ofNat 32 (i 2).val
  let c512_i32 : BitVec 32 := 512#32
  let v19 : BitVec 32 := Scalar.muli arg2 c512_i32
  let v20 : BitVec 32 := v19
  let v21 : Index := Scalar.indexCast v20
  ![0, v21.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg2 : BitVec 32 := BitVec.ofNat 32 (i 2).val
  let c3_i32 : BitVec 32 := 3#32
  let v57 : BitVec 1 := Scalar.cmpi .eq arg2 c3_i32
  let v58 : BitVec 32 := Scalar.extui v57
  let c0_i32_28 : BitVec 32 := 0#32
  let v59 : BitVec 1 := Scalar.cmpi .ne v58 c0_i32_28
  v59

def k0_cond4 (i : grid0.Coords) : BitVec 1 :=
  let arg2 : BitVec 32 := BitVec.ofNat 32 (i 2).val
  let c3_i32_29 : BitVec 32 := 3#32
  let v60 : BitVec 1 := Scalar.cmpi .eq arg2 c3_i32_29
  let arg1 : BitVec 32 := BitVec.ofNat 32 (i 1).val
  let c1_i32 : BitVec 32 := 1#32
  let v61 : BitVec 1 := Scalar.cmpi .eq arg1 c1_i32
  let v62 : BitVec 1 := Scalar.andi v60 v61
  let v63 : BitVec 32 := Scalar.extui v62
  let c0_i32_30 : BitVec 32 := 0#32
  let v64 : BitVec 1 := Scalar.cmpi .ne v63 c0_i32_30
  v64

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x1x1024_S1x1x1024_0_0_0 : ∀ a, (![0, 0, 0] : Fin 3 → Nat) a + S1x1x1024.size a ≤ S1x1x1024.size a
  h_S1x1x1024 : 0 < S1x1x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S1024x512_S512 : S1024x512.Reduces [0] S512
  shapeCasts_S512_S1x512 : S512.ShapeCasts S1x512
  h_S1x512 : 0 < S1x512.numel
  shapeCasts_S1x512_S1x512 : S1x512.ShapeCasts S1x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  reduces_S1024x1024_S1024 : S1024x1024.Reduces [0] S1024
  shapeCasts_S1024_S1x1024 : S1024.ShapeCasts S1x1024
  shapeCasts_S1x1x1024_S1x1024 : S1x1x1024.ShapeCasts S1x1024
  shapeCasts_S1x1024_S1x1x1024 : S1x1024.ShapeCasts S1x1x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  shapeCasts_S32x1x2048_S32x2048 : S32x1x2048.ShapeCasts S32x2048
  shapeCasts_S32x1x1024_S32x1024 : S32x1x1024.ShapeCasts S32x1024
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1x512.size a ≤ S1x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x2048x1024.size a
  hwx0_0 : ∀ i : grid0.Coords, EltTy.bits .f32 = 32 ∨ (Rect.block (s := S32x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S32x2048x1024.size a
  hwx0_1 : ∀ i : grid0.Coords, EltTy.bits .f32 = 32 ∨ (Rect.block (s := S32x2048x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S32x1x1024.size a
  hwx0_2 : ∀ i : grid0.Coords, EltTy.bits .f32 = 32 ∨ (Rect.block (s := S32x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S32x1x2048.size a
  hwx0_3 : ∀ i : grid0.Coords, EltTy.bits .f32 = 32 ∨ (Rect.block (s := S32x1x2048) S1x1x2048.size (cc0_transform_3 i) (hinb0_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond1 i == 1#1) && !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S32x2048x1024 : Shape := ⟨3, ![32, 2048, 1024]⟩
abbrev S_ : Shape := ⟨0, ![]⟩
abbrev S32x2048x2048 : Shape := ⟨3, ![32, 2048, 2048]⟩
abbrev S32x2048 : Shape := ⟨2, ![32, 2048]⟩
abbrev S32x2048x1 : Shape := ⟨3, ![32, 2048, 1]⟩
abbrev S32x1024 : Shape := ⟨2, ![32, 1024]⟩

abbrev nBuf : Space → Nat
  | .hbm => 32
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S_, .f32⟩
  | .hbm, ⟨3, _⟩ => ⟨S_, .f32⟩
  | .hbm, ⟨4, _⟩ => ⟨S32x2048x2048, .f32⟩
  | .hbm, ⟨5, _⟩ => ⟨S32x2048x2048, .f32⟩
  | .hbm, ⟨6, _⟩ => ⟨S32x2048x2048, .f32⟩
  | .hbm, ⟨7, _⟩ => ⟨S_, .f32⟩
  | .hbm, ⟨8, _⟩ => ⟨S32x2048, .f32⟩
  | .hbm, ⟨9, _⟩ => ⟨S_, .f32⟩
  | .hbm, ⟨10, _⟩ => ⟨S32x2048, .f32⟩
  | .hbm, ⟨11, _⟩ => ⟨S32x2048, .f32⟩
  | .hbm, ⟨12, _⟩ => ⟨S32x2048x1, .f32⟩
  | .hbm, ⟨13, _⟩ => ⟨S32x2048x2048, .f32⟩
  | .hbm, ⟨14, _⟩ => ⟨S32x2048x2048, .f32⟩
  | .hbm, ⟨15, _⟩ => ⟨S32x2048x2048, .f32⟩
  | .hbm, ⟨16, _⟩ => ⟨S_, .f32⟩
  | .hbm, ⟨17, _⟩ => ⟨S32x2048, .f32⟩
  | .hbm, ⟨18, _⟩ => ⟨S32x2048x1, .f32⟩
  | .hbm, ⟨19, _⟩ => ⟨S32x2048x2048, .f32⟩
  | .hbm, ⟨20, _⟩ => ⟨S32x2048x2048, .f32⟩
  | .hbm, ⟨21, _⟩ => ⟨S_, .f32⟩
  | .hbm, ⟨22, _⟩ => ⟨S32x2048, .f32⟩
  | .hbm, ⟨23, _⟩ => ⟨S_, .f32⟩
  | .hbm, ⟨24, _⟩ => ⟨S32x2048, .f32⟩
  | .hbm, ⟨25, _⟩ => ⟨S32x2048, .f32⟩
  | .hbm, ⟨26, _⟩ => ⟨S32x2048x1024, .f32⟩
  | .hbm, ⟨27, _⟩ => ⟨S_, .f32⟩
  | .hbm, ⟨28, _⟩ => ⟨S32x1024, .f32⟩
  | .hbm, ⟨29, _⟩ => ⟨S_, .f32⟩
  | .hbm, ⟨30, _⟩ => ⟨S32x1024, .f32⟩
  | .hbm, ⟨31, _⟩ => ⟨S32x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  reducesTo_S32x2048x2048_S32x2048_d1 : S32x2048x2048.ReducesTo [1] S32x2048
  reducesTo_S32x2048x1024_S32x1024_d1 : S32x2048x1024.ReducesTo [1] S32x1024
  bcast_S_S32x1024 : S_.BroadcastsInDim S32x1024 (![] : Fin 0 → Fin S32x1024.rank)
  dot_S32x2048x1024_S32x2048x1024_S32x2048x2048_2_2_1_1_0_0_wf : DotDims.WF S32x2048x1024 S32x2048x1024 S32x2048x2048 [2] [2] [1] [1] [0] [0]
  dot_S32x2048x2048_S32x2048x1024_S32x2048x1024_2_1_1_2_0_0_wf : DotDims.WF S32x2048x2048 S32x2048x1024 S32x2048x1024 [2] [1] [1] [2] [0] [0]

variable [Facts₀]

def dot_S32x2048x1024_S32x2048x1024_S32x2048x2048_2_2_1_1_0_0 : DotDims S32x2048x1024 S32x2048x1024 S32x2048x2048 where
  lhsContracting := [2]
  rhsContracting := [2]
  lhsNonContracting := [1]
  rhsNonContracting := [1]
  lhsBatch := [0]
  rhsBatch := [0]
  wf := dot_S32x2048x1024_S32x2048x1024_S32x2048x2048_2_2_1_1_0_0_wf
def dot_S32x2048x2048_S32x2048x1024_S32x2048x1024_2_1_1_2_0_0 : DotDims S32x2048x2048 S32x2048x1024 S32x2048x1024 where
  lhsContracting := [2]
  rhsContracting := [1]
  lhsNonContracting := [1]
  rhsNonContracting := [2]
  lhsBatch := [0]
  rhsBatch := [0]
  wf := dot_S32x2048x2048_S32x2048x1024_S32x2048x1024_2_1_1_2_0_0_wf

class Facts : Prop extends Facts₀ where

variable [Facts]
-- ==== Proof.KBState.lean ====
/-
  The contents the attention kernel carries from one grid point to the next, as pure values.

  The grid is (batch b, query tile yt, key tile xt) with xt innermost. Six buffers live across points: the two
  output blocks (the running mean of the attention output, one row of 1024; the scaled column sums, one row of 2048)
  and four scratch buffers — the running row maximum m, the running normaliser l, the running weighted sum acc
  (1024 query rows each) and the running column sums of the scores (2048 key columns). One point's effect on them
  is `step`: resets at the first key tile (and, for the output row and the column sums, at the first point of a
  batch), the streamed-softmax update of (m, l, acc) with this point's score tile, the column sums' slice for this
  key tile, and at the last key tile the contribution to the output row (and at the batch's last point the scaled
  column sums). `stAt n` is the state after point `n` from any blocks fed to the points.
-/
import proofs.«406335_j42030549959205_3_alg».proof.Proof.Gen.Kernel.Skeleton
import Idealize.ShloMosaic.Lib.Pipeline.FrameBody

noncomputable section

namespace Cert.Kernel.Attn

open Idealize.ShloMosaic Idealize.SL.Sem Cert.Kernel Cert.Kernel.Gen

variable {F : FTy → Type} [FloatOps F]

/-- What the six carried buffers hold. -/
structure St (F : FTy → Type) [FloatOps F] where
  o : Vec F S1x1x1024 .f32
  vo : Vec F S1x1x2048 .f32
  m : Vec F S1024x1 .f32
  l : Vec F S1024x1 .f32
  acc : Vec F S1024x1024 .f32
  vis : Vec F S1x2048 .f32

/-- The 512 columns of the running column sums that the point at coordinates `i` adds to: columns
    `512 * xt … 512 * xt + 511`. -/
abbrev visRect (i : grid0.Coords) : Rect S1x2048 := Rect.unit (s := S1x2048) (k0_off1 i) S1x512.size (k0_off1_inb i)

/-- "This is the first key tile": the condition under which (m, l, acc) are reset. -/
abbrev firstKey (i : grid0.Coords) : Prop :=
  (Scalar.cmpi .ne (Scalar.extui (Scalar.cmpi .eq (BitVec.ofNat 32 (i 2).val) 0#32)) 0#32) = 1#1

/-- One grid point: the query block `q` (1024 rows), the key block `x` (512 rows), the state before → after. -/
def step (i : grid0.Coords) (q : Vec F S1x1024x1024 .f32) (x : Vec F S1x512x1024 .f32) (s : St F) : St F :=
  let o0 : Vec F S1x1x1024 .f32 := if k0_cond1 i = 1#1 then k0_pay8 else s.o
  let vis0 : Vec F S1x2048 .f32 := if k0_cond1 i = 1#1 then k0_pay9 else s.vis
  let m0 : Vec F S1024x1 .f32 := if firstKey i then k0_pay10 else s.m
  let l0 : Vec F S1024x1 .f32 := if firstKey i then k0_pay11 else s.l
  let acc0 : Vec F S1024x1024 .f32 := if firstKey i then k0_pay12 else s.acc
  let vis1 : Vec F S1x2048 .f32 := (visRect i).overlay vis0 (k0_pay15 q x (View.ld vis0 (visRect i)))
  let m1 : Vec F S1024x1 .f32 := k0_pay16 q x m0
  let sub : FVec F S1024x512 .f32 := k0_pay17 q x m0
  let l1 : Vec F S1024x1 .f32 := k0_pay3 m0 m1 sub l0
  let acc1 : Vec F S1024x1024 .f32 := k0_pay4 (k0_pay13 x) m0 m1 sub acc0
  let o1 : Vec F S1x1x1024 .f32 := if k0_cond3 i = 1#1 then k0_pay6 l1 acc1 o0 else o0
  let vo1 : Vec F S1x1x2048 .f32 := if k0_cond4 i = 1#1 then k0_pay7 vis1 else s.vo
  ⟨o1, vo1, k0_pay5 m1, l1, acc1, vis1⟩

/-- A state to start from; the first point resets or overwrites every component before reading it, so which one
    is chosen does not matter: this one holds the reset values. -/
def St.junk : St F := ⟨k0_pay8, k0_pay7 k0_pay9, k0_pay10, k0_pay11, k0_pay12, k0_pay9⟩

/-- The state after point `n`, the points fed the blocks `Q n`, `X n` at coordinates `I n`. -/
def stAt (I : ℕ → grid0.Coords) (Q : ℕ → Vec F S1x1024x1024 .f32) (X : ℕ → Vec F S1x512x1024 .f32) : ℕ → St F
  | 0 => step (I 0) (Q 0) (X 0) St.junk
  | n + 1 => step (I (n + 1)) (Q (n + 1)) (X (n + 1)) (stAt I Q X n)

theorem stAt_zero (I : ℕ → grid0.Coords) (Q : ℕ → Vec F S1x1024x1024 .f32) (X : ℕ → Vec F S1x512x1024 .f32) :
    stAt I Q X 0 = step (I 0) (Q 0) (X 0) St.junk := rfl
theorem stAt_succ (I : ℕ → grid0.Coords) (Q : ℕ → Vec F S1x1024x1024 .f32) (X : ℕ → Vec F S1x512x1024 .f32) (n : ℕ) :
    stAt I Q X (n + 1) = step (I (n + 1)) (Q (n + 1)) (X (n + 1)) (stAt I Q X n) := rfl

end Cert.Kernel.Attn

end
-- ==== Proof.KBShared.lean ====
/-
  What the five control cases of the attention kernel's body share: its four branch conditions in closed form over
  the linear grid position (the grid is 32 × 2 × 4, so a position t has key tile t % 4 and query tile (t / 4) % 2),
  the staging and scratch buffers the body is called on, and the region's invariant with the four scratch buffers
  made explicit.
-/
import proofs.«406335_j42030549959205_3_alg».proof.Proof.Gen.Kernel.Frame
import proofs.«406335_j42030549959205_3_alg».proof.Proof.Gen.Kernel.Skeleton
import proofs.«406335_j42030549959205_3_alg».proof.Proof.KBState

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions, decided over the grid -/

/-- "First point of a batch" (query tile 0 and key tile 0): the output row and the column sums are zeroed. -/
abbrev cond0_0 (i : grid0.Coords) : Prop := k0_cond1 i = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "First key tile": the running maximum, normaliser and weighted sum are reset. -/
abbrev cond0_1 (i : grid0.Coords) : Prop := firstKey i
theorem hcond0_1 : ∀ t : Fin cfg0.N, cond0_1 (grid0.coords t) ↔ t.val % 4 = 0 :=
  (by decide +kernel : ∀ t : Fin grid0.N, cond0_1 (grid0.coords t) ↔ t.val % 4 = 0)

/-- "Last key tile": the query tile's rows are normalised and added to the output row. -/
abbrev cond0_2 (i : grid0.Coords) : Prop := k0_cond3 i = 1#1
theorem hcond0_2 : ∀ t : Fin cfg0.N, cond0_2 (grid0.coords t) ↔ t.val % 4 = 3 :=
  (by decide +kernel : ∀ t : Fin grid0.N, cond0_2 (grid0.coords t) ↔ t.val % 4 = 3)

/-- "Last point of a batch": the column sums are scaled into the second output. -/
abbrev cond0_3 (i : grid0.Coords) : Prop := k0_cond4 i = 1#1
theorem hcond0_3 : ∀ t : Fin cfg0.N, cond0_3 (grid0.coords t) ↔ t.val % 8 = 7 :=
  (by decide +kernel : ∀ t : Fin grid0.N, cond0_3 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- The output row's block is stored into exactly at the first point of a batch and at the last key tiles. -/
theorem idle0_2 : ∀ t : Fin cfg0.N, cfg0.idle 2 (grid0.coords t) = !(decide (t.val % 8 = 0) || decide (t.val % 4 = 3)) := by decide +kernel
/-- The column sums' output block is stored into exactly at the last point of a batch. -/
theorem idle0_3 : ∀ t : Fin cfg0.N, cfg0.idle 3 (grid0.coords t) = !(decide (t.val % 8 = 7)) := by decide +kernel

/-! ## The buffers the body is called on -/

abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1024 .f32 := Memref.whole cc0_scratch2
abbrev scM0_3 : Memref sig .tc .vmem S1x2048 .f32 := Memref.whole cc0_scratch3

/-- The region's invariant with the four scratch buffers as whole memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Attn

end
-- ==== Proof.KBData.lean ====
/-
  The attention kernel's proof data: the state carried after each grid point (through `KBState`'s recursion fed the
  points' query and key blocks), the region's invariant holding the four scratch buffers at that state, and what
  every staging buffer holds after the body at each point.
-/
import proofs.«406335_j42030549959205_3_alg».proof.Proof.KBShared

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The state after each point -/

/-- Point `n` of the grid (modulo its 256 points) and its coordinates. -/
def ptG (n : ℕ) : Fin cfg0.N := ⟨n % 256, Nat.mod_lt _ (by decide)⟩
def ptI (n : ℕ) : grid0.Coords := grid0.coords (ptG n)
theorem ptG_val (t : Fin cfg0.N) : ptG t.val = t :=
  Fin.ext (Nat.mod_eq_of_lt (lt_of_lt_of_eq t.isLt (show cfg0.N = 256 from N_0)))

/-- The query block and the key block point `n` is fed. -/
def Qb (c : Dev nD) (n : ℕ) : Vec F S1x1024x1024 .f32 := iblk m c 0 (ptG n)
def Xb (c : Dev nD) (n : ℕ) : Vec F S1x512x1024 .f32 := iblk m c 1 (ptG n)

/-- The carried state after point `n`. -/
def sAt (c : Dev nD) (n : ℕ) : St F := stAt ptI (Qb m c) (Xb m c) n

theorem sAt_zero (c : Dev nD) : sAt m c 0 = step (ptI 0) (Qb m c 0) (Xb m c 0) St.junk := rfl
theorem sAt_succ (c : Dev nD) (n : ℕ) : sAt m c (n + 1) = step (ptI (n + 1)) (Qb m c (n + 1)) (Xb m c (n + 1)) (sAt m c n) := rfl

/-! ## The proof data -/

/-- The region's invariant before position `n`: at first the four scratch buffers at anything; afterwards at the
    carried state's components. -/
def PhiS (c : Dev nD) : (n : ℕ) → n ≤ cfg0.N → sProp 𝕄
  | 0, _ => Pipeline.ΦA spec0 c
  | n + 1, hn => iprop(iprop(owns (c : Thread nD τ) scM0_0 fullShare (sAt m c n).m ∗ owns (c : Thread nD τ) scM0_1 fullShare (sAt m c n).l ∗ owns (c : Thread nD τ) scM0_2 fullShare (sAt m c n).acc ∗ owns (c : Thread nD τ) scM0_3 fullShare (sAt m c n).vis) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (sAt m c n).m ∗ owns (c : Thread nD τ) scM0_1 fullShare (sAt m c n).l ∗ owns (c : Thread nD τ) scM0_2 fullShare (sAt m c n).acc ∗ owns (c : Thread nD τ) scM0_3 fullShare (sAt m c n).vis) ∗ (∃ r, prngReg c r)) := rfl
theorem PhiS_pos (c : Dev nD) (n : ℕ) (h : n ≤ cfg0.N) (hz : n ≠ 0) :
    PhiS m c n h = iprop(iprop(owns (c : Thread nD τ) scM0_0 fullShare (sAt m c (n - 1)).m ∗ owns (c : Thread nD τ) scM0_1 fullShare (sAt m c (n - 1)).l ∗ owns (c : Thread nD τ) scM0_2 fullShare (sAt m c (n - 1)).acc ∗ owns (c : Thread nD τ) scM0_3 fullShare (sAt m c (n - 1)).vis) ∗ (∃ r, prngReg c r)) := by
  cases n with
  | zero => exact absurd rfl hz
  | succ n => rfl

/-- The proof data on core `c`: the arrays as the region finds them; after the body at point `t` each input's buffer
    at its block, the two outputs' buffers at the carried state's output components; the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (sAt m c t.val).o
    | ⟨3, _⟩ => (sAt m c t.val).vo
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (sAt m c t.val).o := by dsimp only [dats]
theorem after0_3 (c : Dev nD) (t : Fin cfg0.N) : (dats m 0 c).after 3 t = (sAt m c t.val).vo := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

end Cert.Kernel.Attn

end
-- ==== Proof.KBBefore.lean ====
/-
  What the body finds in the output row's staging buffer. The row is written at a batch's first point (zeroed) and at
  the last key tile of each query tile (a contribution added), and written back only at the batch's last point; at
  the points between, the body leaves the buffer alone. So at every point but a batch's first the buffer holds the
  carried state's output row as the point before left it.
-/
import proofs.«406335_j42030549959205_3_alg».proof.Proof.KBData

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The output row's window is uncut, so what the body leaves in its buffer at a point is all of the state's row there. -/
theorem kept0_2 (c : Dev nD) (t : Fin cfg0.N) (d) : (dats m 0 c).kept 2 t d = (sAt m c t.val).o := by
  unfold Dat.kept
  rw [Pipeline.fill_of_clip_none 2 _ (fun a => rfl) d ((dats m 0 c).after 2 t), Window.fill_cut, after0_2]

/-- At a point that stores into the output row (a batch's first point, or a last key tile) the buffer is left at the
    state's row. -/
theorem left0_2_live (c : Dev nD) (t : Fin cfg0.N) (h : t.val % 8 = 0 ∨ t.val % 4 = 3) (d) :
    (dats m 0 c).left 2 t d = (sAt m c t.val).o := by
  have hi : cfg0.idle 2 (grid0.coords t) = false := by
    rw [idle0_2]; rcases h with h | h <;> simp [h]
  unfold Dat.left; rw [hi]; exact kept0_2 m c t d

/-- At every other point the buffer is left as it was found. -/
theorem left0_2_idle (c : Dev nD) (t : Fin cfg0.N) (h8 : t.val % 8 ≠ 0) (h4 : t.val % 4 ≠ 3) (d) :
    (dats m 0 c).left 2 t d = (dats m 0 c).before 2 t d := by
  have hi : cfg0.idle 2 (grid0.coords t) = true := by
    rw [idle0_2]; simp [h8, h4]
  unfold Dat.left; rw [hi]

/-- The output row is never fetched: after the first point its buffer holds nothing new if the point before wrote the
    row back, and otherwise what that point left. -/
theorem before0_2_succ (c : Dev nD) (k : ℕ) (hn : k + 1 < cfg0.N) (d) :
    (dats m 0 c).before 2 ⟨k + 1, hn⟩ d
      = if (cfg0.win 2).flush ⟨k, Nat.lt_of_succ_lt hn⟩ then d else (dats m 0 c).left 2 ⟨k, Nat.lt_of_succ_lt hn⟩ d :=
  (dats m 0 c).before_of_pos 2 ⟨k + 1, hn⟩ (Nat.succ_ne_zero k) ((cfg0.win 2).fetch_out rfl _) d

/-- A point that is neither a batch's first nor a last key tile leaves the state's output row alone. -/
theorem sAt_o_idle (c : Dev nD) (k : ℕ) (hk : k + 1 < cfg0.N) (h8 : (k + 1) % 8 ≠ 0) (h4 : (k + 1) % 4 ≠ 3) :
    (sAt m c (k + 1)).o = (sAt m c k).o := by
  have hp : ptI (k + 1) = grid0.coords ⟨k + 1, hk⟩ := congrArg grid0.coords (ptG_val ⟨k + 1, hk⟩)
  have h1 : ¬ (k0_cond1 (ptI (k + 1)) = 1#1) := by
    rw [hp]; exact fun h => h8 ((hcond0_0 ⟨k + 1, hk⟩).1 h)
  have h3 : ¬ (k0_cond3 (ptI (k + 1)) = 1#1) := by
    rw [hp]; exact fun h => h4 ((hcond0_2 ⟨k + 1, hk⟩).1 h)
  rw [sAt_succ]
  simp only [step, if_neg h1, if_neg h3]

/-- At a point that is not the first of its batch the output row's buffer holds the state's row after the point before. -/
theorem before0_2 (c : Dev nD) (n : ℕ) (hn : n < cfg0.N) (h8 : n % 8 ≠ 0) (d) :
    (dats m 0 c).before 2 ⟨n, hn⟩ d = (sAt m c (n - 1)).o := by
  induction n with
  | zero => exact absurd (Nat.zero_mod 8) h8
  | succ k ih =>
    have hk : k < cfg0.N := Nat.lt_of_succ_lt hn
    have hfl : (cfg0.win 2).flush ⟨k, hk⟩ = false := by
      rw [Bool.eq_false_iff]; intro hf
      have h7 : k % 8 = 7 := (flush0_2 ⟨k, hk⟩).1 hf
      omega
    rw [before0_2_succ m c k hn d, hfl, if_neg Bool.false_ne_true]
    show _ = (sAt m c k).o
    by_cases hlive : k % 8 = 0 ∨ k % 4 = 3
    · exact left0_2_live m c ⟨k, hk⟩ hlive d
    · have h8' : k % 8 ≠ 0 := fun h => hlive (.inl h)
      have h4' : k % 4 ≠ 3 := fun h => hlive (.inr h)
      rw [left0_2_idle m c ⟨k, hk⟩ h8' h4' d, ih hk h8']
      cases k with
      | zero => exact absurd (Nat.zero_mod 8) h8'
      | succ j => exact (sAt_o_idle m c j hk h8' h4').symm

end Cert.Kernel.Attn

end
-- ==== Proof.KBObl.lean ====
/-
  The body's obligation stated point by point: what the body is handed at a grid point (the region's invariant, each
  window's current staging buffer at what it then holds) and what it hands back; the carried state after a point as
  one step from the state before it; and two facts about a step — at a batch's first point the state does not depend
  on the state before, and at its last point the scaled column sums do not depend on what their buffer held.
-/
import proofs.«406335_j42030549959205_3_alg».proof.Proof.KBBefore

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- The state after a point that is not the first is one step from the state before it, on the point's blocks. -/
theorem sAt_pos (c : Dev nD) (t : Fin cfg0.N) (hz : t.val ≠ 0) :
    sAt m c t.val = step (grid0.coords t) (iblk m c 0 t) (iblk m c 1 t) (sAt m c (t.val - 1)) := by
  obtain ⟨k, hk⟩ := Nat.exists_eq_succ_of_ne_zero hz
  have hk' : t.val - 1 = k := by omega
  rw [hk', show t.val = k + 1 from hk, sAt_succ]
  unfold ptI Qb Xb; rw [show k + 1 = t.val from hk.symm, ptG_val]
/-- The state after the first point. -/
theorem sAt_first (c : Dev nD) (t : Fin cfg0.N) (hz : t.val = 0) :
    sAt m c t.val = step (grid0.coords t) (iblk m c 0 t) (iblk m c 1 t) St.junk := by
  rw [hz, sAt_zero]; unfold ptI Qb Xb; rw [← hz, ptG_val]

/-- At a batch's first point everything carried but the scaled column sums is reset before it is read, so the state
    after the point does not depend on the state before it. -/
theorem step_first (i : grid0.Coords) (q : Vec F S1x1024x1024 .f32) (x : Vec F S1x512x1024 .f32)
    (hc0 : cond0_0 i) (hc1 : cond0_1 i) (hc2 : ¬cond0_2 i) (s s' : St F) :
    (step i q x s).o = (step i q x s').o ∧ (step i q x s).m = (step i q x s').m ∧ (step i q x s).l = (step i q x s').l
      ∧ (step i q x s).acc = (step i q x s').acc ∧ (step i q x s).vis = (step i q x s').vis := by
  refine ⟨?_, ?_, ?_, ?_, ?_⟩ <;> simp only [step, if_pos hc0, if_pos hc1, if_neg hc2]

/-- At a batch's last point the scaled column sums are written whole, so they do not depend on what the second output
    block held before. -/
theorem step_vo_of_last (i : grid0.Coords) (q : Vec F S1x1024x1024 .f32) (x : Vec F S1x512x1024 .f32)
    (hc3 : cond0_3 i) (s : St F) (y3 : Vec F S1x1x2048 .f32) :
    (step i q x ⟨s.o, y3, s.m, s.l, s.acc, s.vis⟩).vo = (step i q x s).vo := by
  simp only [step, if_pos hc3]

end Cert.Kernel.Attn

end
-- ==== Proof.KBRunA.lean ====
/-
  The attention kernel's body run once in control case A — the first point of a batch (first query tile, first key tile): everything carried is reset, then the point's update is applied. From the eight buffers at named
  contents the body runs to the same buffers with its stores applied; the lists of stored pieces (last store first)
  are what the run finds.
-/
import proofs.«406335_j42030549959205_3_alg».proof.Proof.KBShared

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x1x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1x2048 .f32) (harg10 : arg10.IsWhole) (hc0 : cond0_0 i) (hc1 : cond0_1 i) (hc2 : ¬cond0_2 i) (hc3 : ¬cond0_3 i)
    (x0 : Vec F S1x1024x1024 .f32) (x1 : Vec F S1x512x1024 .f32) (y2 : Vec F S1x1x1024 .f32) (y3 : Vec F S1x1x2048 .f32) (xs0 : Vec F S1024x1 .f32) (xs1 : Vec F S1024x1 .f32) (xs2 : Vec F S1024x1024 .f32) (xs3 : Vec F S1x2048 .f32) :
    Σ' (L2 : List (View.Piece (Elt F) S1x1x1024 .f32)), Σ' (LS0 : List (View.Piece (Elt F) S1024x1 .f32)), Σ' (LS1 : List (View.Piece (Elt F) S1024x1 .f32)), Σ' (LS2 : List (View.Piece (Elt F) S1024x1024 .f32)), { LS3 : List (View.Piece (Elt F) S1x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare y2 ∗ owns (c : Thread nD τ) arg6 fullShare y3 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (arg6.view.loc (c : Thread nD τ) ↦[arg6.view.set]{fullShare} harg6.unread y3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__attn_mean_kernel i arg3 harg3 arg4 harg4 arg5 harg5 arg6 harg6 arg7 harg7 arg8 harg8 arg9 harg9 arg10 harg10) K } := by
  refine ⟨?_, ?_, ?_, ?_, ?_, fun E K => ?run⟩
  case run =>
    simp only [cc0__attn_mean_kernel_eq_skeleton]; unfold cc0__attn_mean_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexact H3
    isplitl [HS0]; · iexists _; iexact HS0
    isplitl [HS1]; · iexists _; iexact HS1
    isplitl [HS2]; · iexists _; iexact HS2
    iexists _; iexact HS3

end Cert.Kernel.Attn

end
-- ==== Proof.KBRunB.lean ====
/-
  The attention kernel's body run once in control case B — a middle key tile: only the streamed update. From the eight buffers at named
  contents the body runs to the same buffers with its stores applied; the lists of stored pieces (last store first)
  are what the run finds.
-/
import proofs.«406335_j42030549959205_3_alg».proof.Proof.KBRunA

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x1x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1x2048 .f32) (harg10 : arg10.IsWhole) (hc0 : ¬cond0_0 i) (hc1 : ¬cond0_1 i) (hc2 : ¬cond0_2 i) (hc3 : ¬cond0_3 i)
    (x0 : Vec F S1x1024x1024 .f32) (x1 : Vec F S1x512x1024 .f32) (y2 : Vec F S1x1x1024 .f32) (y3 : Vec F S1x1x2048 .f32) (xs0 : Vec F S1024x1 .f32) (xs1 : Vec F S1024x1 .f32) (xs2 : Vec F S1024x1024 .f32) (xs3 : Vec F S1x2048 .f32) :
    Σ' (LS0 : List (View.Piece (Elt F) S1024x1 .f32)), Σ' (LS1 : List (View.Piece (Elt F) S1024x1 .f32)), Σ' (LS2 : List (View.Piece (Elt F) S1024x1024 .f32)), { LS3 : List (View.Piece (Elt F) S1x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare y2 ∗ owns (c : Thread nD τ) arg6 fullShare y3 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg3 fullShare x0 ∗ owns (c : Thread nD τ) arg4 fullShare x1 ∗ (arg5.view.loc (c : Thread nD τ) ↦[arg5.view.set]{fullShare} harg5.unread y2) ∗ (arg6.view.loc (c : Thread nD τ) ↦[arg6.view.set]{fullShare} harg6.unread y3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (arg10.view.loc (c : Thread nD τ) ↦[arg10.view.set]{fullShare} arg10.view.writes (Elt F) (harg10.unread xs3) LS3)) -∗ K ⟨⟩))
          ⊢ wp frame (wpE (defs₀ (F := F)) Variants.none c none) E (cc0__attn_mean_kernel i arg3 harg3 arg4 harg4 arg5 harg5 arg6 harg6 arg7 harg7 arg8 harg8 arg9 harg9 arg10 harg10) K } := by
  refine ⟨?_, ?_, ?_, ?_, fun E K => ?run⟩
  case run =>
    simp only [cc0__attn_mean_kernel_eq_skeleton]; unfold cc0__attn_mean_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexact H2
    isplitl [H3]; · iexact H3
    isplitl [HS0]; · iexists _; iexact HS0
    isplitl [HS1]; · iexists _; iexact HS1
    isplitl [HS2]; · iexists _; iexact HS2
    iexact HS3

end Cert.Kernel.Attn

end
-- ==== Proof.KBRunC.lean ====
/-
  The attention kernel's body run once in control case C — the last key tile of the first query tile: the streamed update, then the tile's normalised rows are added to the output row. From the eight buffers at named
  contents the body runs to the same buffers with its stores applied; the lists of stored pieces (last store first)
  are what the run finds.
-/
import proofs.«406335_j42030549959205_3_alg».proof.Proof.KBRunB

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_C (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x1x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1x2048 .f32) (harg10 : arg10.IsWhole) (hc0 : ¬cond0_0 i) (hc1 : ¬cond0_1 i) (hc2 : cond0_2 i) (hc3 : ¬cond0_3 i)
    (x0 : Vec F S1x1024x1024 .f32) (x1 : Vec F S1x512x1024 .f32) (y2 : Vec F S1x1x1024 .f32) (y3 : Vec F S1x1x2048 .f32) (xs0 : Vec F S1024x1 .f32) (xs1 : Vec F S1024x1 .f32) (xs2 : Vec F S1024x1024 .f32) (xs3 : Vec F S1x2048 .f32) :
    Σ' (L2 : List (View.Piece (Elt F) S1x1x1024 .f32)), Σ' (LS0 : List (View.Piece (Elt F) S1024x1 .f32)), Σ' (LS1 : List (View.Piece (Elt F) S1024x1 .f32)), Σ' (LS2 : List (View.Piece (Elt F) S1024x1024 .f32)), { LS3 : List (View.Piece (Elt F) S1x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare y2 ∗ owns (c : Thread nD τ) arg6 fullShare y3 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (arg6.view.loc (c : Thread nD τ) ↦[arg6.view.set]{fullShare} harg6.unread y3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (arg10.view.loc (c : Thread nD τ) ↦[arg10.view.set]{fullShare} arg10.view.writes (Elt F) (harg10.unread xs3) LS3)) -∗ K ⟨⟩))
          ⊢ wp frame (wpE (defs₀ (F := F)) Variants.none c none) E (cc0__attn_mean_kernel i arg3 harg3 arg4 harg4 arg5 harg5 arg6 harg6 arg7 harg7 arg8 harg8 arg9 harg9 arg10 harg10) K } := by
  refine ⟨?_, ?_, ?_, ?_, ?_, fun E K => ?run⟩
  case run =>
    simp only [cc0__attn_mean_kernel_eq_skeleton]; unfold cc0__attn_mean_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexact H3
    isplitl [HS0]; · iexists _; iexact HS0
    isplitl [HS1]; · iexists _; iexact HS1
    isplitl [HS2]; · iexists _; iexact HS2
    iexact HS3

end Cert.Kernel.Attn

end
-- ==== Proof.KBRunD.lean ====
/-
  The attention kernel's body run once in control case D — the first key tile of the second query tile: maximum, normaliser and weighted sum are reset, then the streamed update. From the eight buffers at named
  contents the body runs to the same buffers with its stores applied; the lists of stored pieces (last store first)
  are what the run finds.
-/
import proofs.«406335_j42030549959205_3_alg».proof.Proof.KBRunC

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_D (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x1x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1x2048 .f32) (harg10 : arg10.IsWhole) (hc0 : ¬cond0_0 i) (hc1 : cond0_1 i) (hc2 : ¬cond0_2 i) (hc3 : ¬cond0_3 i)
    (x0 : Vec F S1x1024x1024 .f32) (x1 : Vec F S1x512x1024 .f32) (y2 : Vec F S1x1x1024 .f32) (y3 : Vec F S1x1x2048 .f32) (xs0 : Vec F S1024x1 .f32) (xs1 : Vec F S1024x1 .f32) (xs2 : Vec F S1024x1024 .f32) (xs3 : Vec F S1x2048 .f32) :
    Σ' (LS0 : List (View.Piece (Elt F) S1024x1 .f32)), Σ' (LS1 : List (View.Piece (Elt F) S1024x1 .f32)), Σ' (LS2 : List (View.Piece (Elt F) S1024x1024 .f32)), { LS3 : List (View.Piece (Elt F) S1x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare y2 ∗ owns (c : Thread nD τ) arg6 fullShare y3 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg3 fullShare x0 ∗ owns (c : Thread nD τ) arg4 fullShare x1 ∗ (arg5.view.loc (c : Thread nD τ) ↦[arg5.view.set]{fullShare} harg5.unread y2) ∗ (arg6.view.loc (c : Thread nD τ) ↦[arg6.view.set]{fullShare} harg6.unread y3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (arg10.view.loc (c : Thread nD τ) ↦[arg10.view.set]{fullShare} arg10.view.writes (Elt F) (harg10.unread xs3) LS3)) -∗ K ⟨⟩))
          ⊢ wp frame (wpE (defs₀ (F := F)) Variants.none c none) E (cc0__attn_mean_kernel i arg3 harg3 arg4 harg4 arg5 harg5 arg6 harg6 arg7 harg7 arg8 harg8 arg9 harg9 arg10 harg10) K } := by
  refine ⟨?_, ?_, ?_, ?_, fun E K => ?run⟩
  case run =>
    simp only [cc0__attn_mean_kernel_eq_skeleton]; unfold cc0__attn_mean_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexact H2
    isplitl [H3]; · iexact H3
    isplitl [HS0]; · iexists _; iexact HS0
    isplitl [HS1]; · iexists _; iexact HS1
    isplitl [HS2]; · iexists _; iexact HS2
    iexact HS3

end Cert.Kernel.Attn

end
-- ==== Proof.KBRunE.lean ====
/-
  The attention kernel's body run once in control case E — the last point of a batch: the streamed update, the output row's last contribution, and the scaled column sums. From the eight buffers at named
  contents the body runs to the same buffers with its stores applied; the lists of stored pieces (last store first)
  are what the run finds.
-/
import proofs.«406335_j42030549959205_3_alg».proof.Proof.KBRunD

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_E (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x1x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1x2048 .f32) (harg10 : arg10.IsWhole) (hc0 : ¬cond0_0 i) (hc1 : ¬cond0_1 i) (hc2 : cond0_2 i) (hc3 : cond0_3 i)
    (x0 : Vec F S1x1024x1024 .f32) (x1 : Vec F S1x512x1024 .f32) (y2 : Vec F S1x1x1024 .f32) (y3 : Vec F S1x1x2048 .f32) (xs0 : Vec F S1024x1 .f32) (xs1 : Vec F S1024x1 .f32) (xs2 : Vec F S1024x1024 .f32) (xs3 : Vec F S1x2048 .f32) :
    Σ' (L2 : List (View.Piece (Elt F) S1x1x1024 .f32)), Σ' (L3 : List (View.Piece (Elt F) S1x1x2048 .f32)), Σ' (LS0 : List (View.Piece (Elt F) S1024x1 .f32)), Σ' (LS1 : List (View.Piece (Elt F) S1024x1 .f32)), Σ' (LS2 : List (View.Piece (Elt F) S1024x1024 .f32)), { LS3 : List (View.Piece (Elt F) S1x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare y2 ∗ owns (c : Thread nD τ) arg6 fullShare y3 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (arg10.view.loc (c : Thread nD τ) ↦[arg10.view.set]{fullShare} arg10.view.writes (Elt F) (harg10.unread xs3) LS3)) -∗ K ⟨⟩))
          ⊢ wp frame (wpE (defs₀ (F := F)) Variants.none c none) E (cc0__attn_mean_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__attn_mean_kernel_eq_skeleton]; unfold cc0__attn_mean_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [HS0]; · iexists _; iexact HS0
    isplitl [HS1]; · iexists _; iexact HS1
    isplitl [HS2]; · iexists _; iexact HS2
    iexact HS3

end Cert.Kernel.Attn

end
-- ==== Proof.KBReadBack.lean ====
/-
  Reading a buffer's stores back: a store through the whole shape leaves its payload, whatever was there; a load through
  the whole shape of a whole buffer's contents reads them; and a store through a rectangle lays its payload over what
  the earlier stores left.
-/
import proofs.«406335_j42030549959205_3_alg».proof.Proof.KBShared
import Idealize.ShloMosaic.Lib.Pipeline.Value

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A store through the whole shape, last, leaves its payload whatever was there and whatever was stored before. -/
theorem read_writes_whole {κ : Kind} {sp : Space} {S : Shape} {e : EltTy} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  subst hz; funext y
  have e := View.read_writes_cons_emb v f (Rect.whole S) w L y
  rw [Rect.emb_whole_apply] at e
  exact e

/-- A load through the whole shape of a whole buffer's contents reads them. -/
theorem readAt_unread_whole {κ : Kind} {sp : Space} {S : Shape} {e : EltTy} (mr : Memref sig κ sp S e) (h : mr.IsWhole)
    {off : Fin S.rank → Nat} (hz : off = fun _ => 0) (inb : ∀ a, off a + S.size a ≤ S.size a) (xs : S.Idx → Elt F e) :
    View.readAt (Elt F) mr.view (Rect.unit off S.size inb).toLoadRect (h.unread xs) = xs := by
  rw [View.readAt_eq_ld, h.read_unread, View.ld_unit_zero hz inb]

/-- The last store through a rectangle lays its payload over what the earlier stores left. -/
theorem read_writes_cons_overlay {κ : Kind} {sp : Space} {S : Shape} {e : EltTy} (v : View sig κ sp S e) (f : v.ty.Contents (Elt F))
    (r : Rect S) (w : r.shape.Idx → Elt F e) (L : List (View.Piece (Elt F) S e)) :
    v.read (Elt F) (v.writes (Elt F) f (⟨r, w⟩ :: L)) = r.overlay (v.read (Elt F) (v.writes (Elt F) f L)) w := by
  funext y
  by_cases hy : y ∈ r.set
  · obtain ⟨x, rfl⟩ := r.exists_idx_of_mem hy
    exact (View.read_writes_cons_emb v f r w L x).trans (Rect.overlay_emb r _ w x).symm
  · rw [View.writes_cons, View.read_slice_write_of_not_mem r _ _ _ (by rwa [Rect.map_emb_univ]), Rect.overlay_of_not_mem _ _ _ hy]

theorem hz2 : (![0, 0] : Fin 2 → ℕ) = fun _ => 0 := by funext a; fin_cases a <;> rfl
theorem hz3 : (![0, 0, 0] : Fin 3 → ℕ) = fun _ => 0 := by funext a; fin_cases a <;> rfl

end Cert.Kernel.Attn

end
-- ==== Proof.KBPieces.lean ====
/-
  What the body's stores leave, case by case: the lists of stored pieces each control case's run finds, read through the
  buffers' views, are the components of the carried state's next value (`step`).
-/
import proofs.«406335_j42030549959205_3_alg».proof.Proof.KBRunE
import proofs.«406335_j42030549959205_3_alg».proof.Proof.KBReadBack

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What case A's stores leave in each buffer is the carried state's next value. -/
theorem pieces_A (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x1x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1x2048 .f32) (harg10 : arg10.IsWhole) (hc0 : cond0_0 i) (hc1 : cond0_1 i) (hc2 : ¬cond0_2 i) (hc3 : ¬cond0_3 i) (x0 : Vec F S1x1024x1024 .f32) (x1 : Vec F S1x512x1024 .f32) (y2 : Vec F S1x1x1024 .f32) (y3 : Vec F S1x1x2048 .f32) (xs0 : Vec F S1024x1 .f32) (xs1 : Vec F S1024x1 .f32) (xs2 : Vec F S1024x1024 .f32) (xs3 : Vec F S1x2048 .f32) :
    (∀ f, arg5.view.read (Elt F) (arg5.view.writes (Elt F) f (kernelRun0_A c i arg3 harg3 arg4 harg4 arg5 harg5 arg6 harg6 arg7 harg7 arg8 harg8 arg9 harg9 arg10 harg10 hc0 hc1 hc2 hc3 x0 x1 y2 y3 xs0 xs1 xs2 xs3).1) = (step i x0 x1 ⟨y2, y3, xs0, xs1, xs2, xs3⟩).o)
    ∧ (∀ f, arg7.view.read (Elt F) (arg7.view.writes (Elt F) f (kernelRun0_A c i arg3 harg3 arg4 harg4 arg5 harg5 arg6 harg6 arg7 harg7 arg8 harg8 arg9 harg9 arg10 harg10 hc0 hc1 hc2 hc3 x0 x1 y2 y3 xs0 xs1 xs2 xs3).2.1) = (step i x0 x1 ⟨y2, y3, xs0, xs1, xs2, xs3⟩).m)
    ∧ (∀ f, arg8.view.read (Elt F) (arg8.view.writes (Elt F) f (kernelRun0_A c i arg3 harg3 arg4 harg4 arg5 harg5 arg6 harg6 arg7 harg7 arg8 harg8 arg9 harg9 arg10 harg10 hc0 hc1 hc2 hc3 x0 x1 y2 y3 xs0 xs1 xs2 xs3).2.2.1) = (step i x0 x1 ⟨y2, y3, xs0, xs1, xs2, xs3⟩).l)
    ∧ (∀ f, arg9.view.read (Elt F) (arg9.view.writes (Elt F) f (kernelRun0_A c i arg3 harg3 arg4 harg4 arg5 harg5 arg6 harg6 arg7 harg7 arg8 harg8 arg9 harg9 arg10 harg10 hc0 hc1 hc2 hc3 x0 x1 y2 y3 xs0 xs1 xs2 xs3).2.2.2.1) = (step i x0 x1 ⟨y2, y3, xs0, xs1, xs2, xs3⟩).acc)
    ∧ (∀ f, arg10.view.read (Elt F) (arg10.view.writes (Elt F) f (kernelRun0_A c i arg3 harg3 arg4 harg4 arg5 harg5 arg6 harg6 arg7 harg7 arg8 harg8 arg9 harg9 arg10 harg10 hc0 hc1 hc2 hc3 x0 x1 y2 y3 xs0 xs1 xs2 xs3).2.2.2.2.1) = (step i x0 x1 ⟨y2, y3, xs0, xs1, xs2, xs3⟩).vis)
    ∧ (step i x0 x1 ⟨y2, y3, xs0, xs1, xs2, xs3⟩).vo = y3 := by
  unfold kernelRun0_A; dsimp only; sl_unfold_run_names
  simp only [step, if_pos hc0, if_pos hc1, if_neg hc2, if_neg hc3]
  refine ⟨fun f => ?_, fun f => ?_, fun f => ?_, fun f => ?_, fun f => ?_, ?_⟩
  · rw [read_writes_whole (S := S1x1x1024) _ _ hz3]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1024) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_cons_overlay, read_writes_whole (S := S1x2048) _ _ hz2]
    try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · trivial

/-- What case B's stores leave in each buffer is the carried state's next value. -/
theorem pieces_B (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x1x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1x2048 .f32) (harg10 : arg10.IsWhole) (hc0 : ¬cond0_0 i) (hc1 : ¬cond0_1 i) (hc2 : ¬cond0_2 i) (hc3 : ¬cond0_3 i) (x0 : Vec F S1x1024x1024 .f32) (x1 : Vec F S1x512x1024 .f32) (y2 : Vec F S1x1x1024 .f32) (y3 : Vec F S1x1x2048 .f32) (xs0 : Vec F S1024x1 .f32) (xs1 : Vec F S1024x1 .f32) (xs2 : Vec F S1024x1024 .f32) (xs3 : Vec F S1x2048 .f32) :
    (∀ f, arg7.view.read (Elt F) (arg7.view.writes (Elt F) f (kernelRun0_B c i arg3 harg3 arg4 harg4 arg5 harg5 arg6 harg6 arg7 harg7 arg8 harg8 arg9 harg9 arg10 harg10 hc0 hc1 hc2 hc3 x0 x1 y2 y3 xs0 xs1 xs2 xs3).1) = (step i x0 x1 ⟨y2, y3, xs0, xs1, xs2, xs3⟩).m)
    ∧ (∀ f, arg8.view.read (Elt F) (arg8.view.writes (Elt F) f (kernelRun0_B c i arg3 harg3 arg4 harg4 arg5 harg5 arg6 harg6 arg7 harg7 arg8 harg8 arg9 harg9 arg10 harg10 hc0 hc1 hc2 hc3 x0 x1 y2 y3 xs0 xs1 xs2 xs3).2.1) = (step i x0 x1 ⟨y2, y3, xs0, xs1, xs2, xs3⟩).l)
    ∧ (∀ f, arg9.view.read (Elt F) (arg9.view.writes (Elt F) f (kernelRun0_B c i arg3 harg3 arg4 harg4 arg5 harg5 arg6 harg6 arg7 harg7 arg8 harg8 arg9 harg9 arg10 harg10 hc0 hc1 hc2 hc3 x0 x1 y2 y3 xs0 xs1 xs2 xs3).2.2.1) = (step i x0 x1 ⟨y2, y3, xs0, xs1, xs2, xs3⟩).acc)
    ∧ (arg10.view.read (Elt F) (arg10.view.writes (Elt F) (harg10.unread xs3) (kernelRun0_B c i arg3 harg3 arg4 harg4 arg5 harg5 arg6 harg6 arg7 harg7 arg8 harg8 arg9 harg9 arg10 harg10 hc0 hc1 hc2 hc3 x0 x1 y2 y3 xs0 xs1 xs2 xs3).2.2.2.1) = (step i x0 x1 ⟨y2, y3, xs0, xs1, xs2, xs3⟩).vis)
    ∧ (step i x0 x1 ⟨y2, y3, xs0, xs1, xs2, xs3⟩).o = y2
    ∧ (step i x0 x1 ⟨y2, y3, xs0, xs1, xs2, xs3⟩).vo = y3 := by
  unfold kernelRun0_B; dsimp only; sl_unfold_run_names
  simp only [step, if_neg hc0, if_neg hc1, if_neg hc2, if_neg hc3]
  refine ⟨fun f => ?_, fun f => ?_, fun f => ?_, ?_, ?_, ?_⟩
  · rw [read_writes_whole (S := S1024x1) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1024) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_cons_overlay, View.writes_nil, harg10.read_unread]
    try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · trivial
  · trivial

/-- What case C's stores leave in each buffer is the carried state's next value. -/
theorem pieces_C (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x1x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1x2048 .f32) (harg10 : arg10.IsWhole) (hc0 : ¬cond0_0 i) (hc1 : ¬cond0_1 i) (hc2 : cond0_2 i) (hc3 : ¬cond0_3 i) (x0 : Vec F S1x1024x1024 .f32) (x1 : Vec F S1x512x1024 .f32) (y2 : Vec F S1x1x1024 .f32) (y3 : Vec F S1x1x2048 .f32) (xs0 : Vec F S1024x1 .f32) (xs1 : Vec F S1024x1 .f32) (xs2 : Vec F S1024x1024 .f32) (xs3 : Vec F S1x2048 .f32) :
    (∀ f, arg5.view.read (Elt F) (arg5.view.writes (Elt F) f (kernelRun0_C c i arg3 harg3 arg4 harg4 arg5 harg5 arg6 harg6 arg7 harg7 arg8 harg8 arg9 harg9 arg10 harg10 hc0 hc1 hc2 hc3 x0 x1 y2 y3 xs0 xs1 xs2 xs3).1) = (step i x0 x1 ⟨y2, y3, xs0, xs1, xs2, xs3⟩).o)
    ∧ (∀ f, arg7.view.read (Elt F) (arg7.view.writes (Elt F) f (kernelRun0_C c i arg3 harg3 arg4 harg4 arg5 harg5 arg6 harg6 arg7 harg7 arg8 harg8 arg9 harg9 arg10 harg10 hc0 hc1 hc2 hc3 x0 x1 y2 y3 xs0 xs1 xs2 xs3).2.1) = (step i x0 x1 ⟨y2, y3, xs0, xs1, xs2, xs3⟩).m)
    ∧ (∀ f, arg8.view.read (Elt F) (arg8.view.writes (Elt F) f (kernelRun0_C c i arg3 harg3 arg4 harg4 arg5 harg5 arg6 harg6 arg7 harg7 arg8 harg8 arg9 harg9 arg10 harg10 hc0 hc1 hc2 hc3 x0 x1 y2 y3 xs0 xs1 xs2 xs3).2.2.1) = (step i x0 x1 ⟨y2, y3, xs0, xs1, xs2, xs3⟩).l)
    ∧ (∀ f, arg9.view.read (Elt F) (arg9.view.writes (Elt F) f (kernelRun0_C c i arg3 harg3 arg4 harg4 arg5 harg5 arg6 harg6 arg7 harg7 arg8 harg8 arg9 harg9 arg10 harg10 hc0 hc1 hc2 hc3 x0 x1 y2 y3 xs0 xs1 xs2 xs3).2.2.2.1) = (step i x0 x1 ⟨y2, y3, xs0, xs1, xs2, xs3⟩).acc)
    ∧ (arg10.view.read (Elt F) (arg10.view.writes (Elt F) (harg10.unread xs3) (kernelRun0_C c i arg3 harg3 arg4 harg4 arg5 harg5 arg6 harg6 arg7 harg7 arg8 harg8 arg9 harg9 arg10 harg10 hc0 hc1 hc2 hc3 x0 x1 y2 y3 xs0 xs1 xs2 xs3).2.2.2.2.1) = (step i x0 x1 ⟨y2, y3, xs0, xs1, xs2, xs3⟩).vis)
    ∧ (step i x0 x1 ⟨y2, y3, xs0, xs1, xs2, xs3⟩).vo = y3 := by
  unfold kernelRun0_C; dsimp only; sl_unfold_run_names
  simp only [step, if_neg hc0, if_neg hc1, if_pos hc2, if_neg hc3]
  refine ⟨fun f => ?_, fun f => ?_, fun f => ?_, fun f => ?_, ?_, ?_⟩
  · rw [read_writes_whole (S := S1x1x1024) _ _ hz3]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1024) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_cons_overlay, View.writes_nil, harg10.read_unread]
    try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · trivial

/-- What case D's stores leave in each buffer is the carried state's next value. -/
theorem pieces_D (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x1x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1x2048 .f32) (harg10 : arg10.IsWhole) (hc0 : ¬cond0_0 i) (hc1 : cond0_1 i) (hc2 : ¬cond0_2 i) (hc3 : ¬cond0_3 i) (x0 : Vec F S1x1024x1024 .f32) (x1 : Vec F S1x512x1024 .f32) (y2 : Vec F S1x1x1024 .f32) (y3 : Vec F S1x1x2048 .f32) (xs0 : Vec F S1024x1 .f32) (xs1 : Vec F S1024x1 .f32) (xs2 : Vec F S1024x1024 .f32) (xs3 : Vec F S1x2048 .f32) :
    (∀ f, arg7.view.read (Elt F) (arg7.view.writes (Elt F) f (kernelRun0_D c i arg3 harg3 arg4 harg4 arg5 harg5 arg6 harg6 arg7 harg7 arg8 harg8 arg9 harg9 arg10 harg10 hc0 hc1 hc2 hc3 x0 x1 y2 y3 xs0 xs1 xs2 xs3).1) = (step i x0 x1 ⟨y2, y3, xs0, xs1, xs2, xs3⟩).m)
    ∧ (∀ f, arg8.view.read (Elt F) (arg8.view.writes (Elt F) f (kernelRun0_D c i arg3 harg3 arg4 harg4 arg5 harg5 arg6 harg6 arg7 harg7 arg8 harg8 arg9 harg9 arg10 harg10 hc0 hc1 hc2 hc3 x0 x1 y2 y3 xs0 xs1 xs2 xs3).2.1) = (step i x0 x1 ⟨y2, y3, xs0, xs1, xs2, xs3⟩).l)
    ∧ (∀ f, arg9.view.read (Elt F) (arg9.view.writes (Elt F) f (kernelRun0_D c i arg3 harg3 arg4 harg4 arg5 harg5 arg6 harg6 arg7 harg7 arg8 harg8 arg9 harg9 arg10 harg10 hc0 hc1 hc2 hc3 x0 x1 y2 y3 xs0 xs1 xs2 xs3).2.2.1) = (step i x0 x1 ⟨y2, y3, xs0, xs1, xs2, xs3⟩).acc)
    ∧ (arg10.view.read (Elt F) (arg10.view.writes (Elt F) (harg10.unread xs3) (kernelRun0_D c i arg3 harg3 arg4 harg4 arg5 harg5 arg6 harg6 arg7 harg7 arg8 harg8 arg9 harg9 arg10 harg10 hc0 hc1 hc2 hc3 x0 x1 y2 y3 xs0 xs1 xs2 xs3).2.2.2.1) = (step i x0 x1 ⟨y2, y3, xs0, xs1, xs2, xs3⟩).vis)
    ∧ (step i x0 x1 ⟨y2, y3, xs0, xs1, xs2, xs3⟩).o = y2
    ∧ (step i x0 x1 ⟨y2, y3, xs0, xs1, xs2, xs3⟩).vo = y3 := by
  unfold kernelRun0_D; dsimp only; sl_unfold_run_names
  simp only [step, if_neg hc0, if_pos hc1, if_neg hc2, if_neg hc3]
  refine ⟨fun f => ?_, fun f => ?_, fun f => ?_, ?_, ?_, ?_⟩
  · rw [read_writes_whole (S := S1024x1) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1024) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_cons_overlay, View.writes_nil, harg10.read_unread]
    try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · trivial
  · trivial

/-- What case E's stores leave in each buffer is the carried state's next value. -/
theorem pieces_E (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x1x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1x2048 .f32) (harg10 : arg10.IsWhole) (hc0 : ¬cond0_0 i) (hc1 : ¬cond0_1 i) (hc2 : cond0_2 i) (hc3 : cond0_3 i) (x0 : Vec F S1x1024x1024 .f32) (x1 : Vec F S1x512x1024 .f32) (y2 : Vec F S1x1x1024 .f32) (y3 : Vec F S1x1x2048 .f32) (xs0 : Vec F S1024x1 .f32) (xs1 : Vec F S1024x1 .f32) (xs2 : Vec F S1024x1024 .f32) (xs3 : Vec F S1x2048 .f32) :
    (∀ f, arg5.view.read (Elt F) (arg5.view.writes (Elt F) f (kernelRun0_E c i arg3 harg3 arg4 harg4 arg5 harg5 arg6 harg6 arg7 harg7 arg8 harg8 arg9 harg9 arg10 harg10 hc0 hc1 hc2 hc3 x0 x1 y2 y3 xs0 xs1 xs2 xs3).1) = (step i x0 x1 ⟨y2, y3, xs0, xs1, xs2, xs3⟩).o)
    ∧ (∀ f, arg6.view.read (Elt F) (arg6.view.writes (Elt F) f (kernelRun0_E c i arg3 harg3 arg4 harg4 arg5 harg5 arg6 harg6 arg7 harg7 arg8 harg8 arg9 harg9 arg10 harg10 hc0 hc1 hc2 hc3 x0 x1 y2 y3 xs0 xs1 xs2 xs3).2.1) = (step i x0 x1 ⟨y2, y3, xs0, xs1, xs2, xs3⟩).vo)
    ∧ (∀ f, arg7.view.read (Elt F) (arg7.view.writes (Elt F) f (kernelRun0_E c i arg3 harg3 arg4 harg4 arg5 harg5 arg6 harg6 arg7 harg7 arg8 harg8 arg9 harg9 arg10 harg10 hc0 hc1 hc2 hc3 x0 x1 y2 y3 xs0 xs1 xs2 xs3).2.2.1) = (step i x0 x1 ⟨y2, y3, xs0, xs1, xs2, xs3⟩).m)
    ∧ (∀ f, arg8.view.read (Elt F) (arg8.view.writes (Elt F) f (kernelRun0_E c i arg3 harg3 arg4 harg4 arg5 harg5 arg6 harg6 arg7 harg7 arg8 harg8 arg9 harg9 arg10 harg10 hc0 hc1 hc2 hc3 x0 x1 y2 y3 xs0 xs1 xs2 xs3).2.2.2.1) = (step i x0 x1 ⟨y2, y3, xs0, xs1, xs2, xs3⟩).l)
    ∧ (∀ f, arg9.view.read (Elt F) (arg9.view.writes (Elt F) f (kernelRun0_E c i arg3 harg3 arg4 harg4 arg5 harg5 arg6 harg6 arg7 harg7 arg8 harg8 arg9 harg9 arg10 harg10 hc0 hc1 hc2 hc3 x0 x1 y2 y3 xs0 xs1 xs2 xs3).2.2.2.2.1) = (step i x0 x1 ⟨y2, y3, xs0, xs1, xs2, xs3⟩).acc)
    ∧ (arg10.view.read (Elt F) (arg10.view.writes (Elt F) (harg10.unread xs3) (kernelRun0_E c i arg3 harg3 arg4 harg4 arg5 harg5 arg6 harg6 arg7 harg7 arg8 harg8 arg9 harg9 arg10 harg10 hc0 hc1 hc2 hc3 x0 x1 y2 y3 xs0 xs1 xs2 xs3).2.2.2.2.2.1) = (step i x0 x1 ⟨y2, y3, xs0, xs1, xs2, xs3⟩).vis) := by
  unfold kernelRun0_E; dsimp only; sl_unfold_run_names
  simp only [step, if_neg hc0, if_neg hc1, if_pos hc2, if_pos hc3]
  refine ⟨fun f => ?_, fun f => ?_, fun f => ?_, fun f => ?_, fun f => ?_, ?_⟩
  · rw [read_writes_whole (S := S1x1x1024) _ _ hz3]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1x1x2048) _ _ hz3]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1024) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_cons_overlay, View.writes_nil, harg10.read_unread]
    try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]

end Cert.Kernel.Attn

end
-- ==== Proof.KBSound.lean ====
/-
  The body's obligation in each of the five control cases: the case's run applies to what the point is handed (the two
  input blocks, the two output buffers, the four scratch buffers at the carried state), and what it hands back, read
  through the case's stored pieces, is the carried state after the point.
-/
import proofs.«406335_j42030549959205_3_alg».proof.Proof.KBObl
import proofs.«406335_j42030549959205_3_alg».proof.Proof.KBPieces

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The body's obligation at a point of case A. -/
theorem sound_A (c : Dev nD) (t : Fin cfg0.N) (h0 : t.val % 8 = 0) (h1 : t.val % 4 = 0) (h2 : ¬t.val % 4 = 3) (h3 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [idle0_2 t]; simp only [h0, h2, decide_true, decide_false, Bool.or_true, Bool.true_or, Bool.or_false, Bool.not_true], after0_2]
  rw [Dat.leavesExact_idle (dats m 0 c) 3 t (by rw [idle0_3 t]; simp only [h3, decide_false, Bool.not_false])
    (by cases hf : (cfg0.win 3).flush t with | false => rfl | true => exact absurd ((flush0_3 t).mp hf) h3)]
  by_cases hz : t.val = 0
  · rw [sAt_first m c t hz, PhiS_castSucc m c t, PhiS_zero m c _ _ hz, PhiA0_eq]
    iintro ⟨⟨⟨⟨%xs0, HS0⟩, ⟨%xs1, HS1⟩, ⟨%xs2, HS2⟩, ⟨%xs3, HS3⟩⟩, Hg⟩, Ho, ⟨%d0, H0⟩, ⟨%d1, H1⟩, ⟨%d2, H2⟩, ⟨%d3, H3⟩⟩
    have hirr := fun (S0 : St F) => step_first (grid0.coords t) (iblk m c 0 t) (iblk m c 1 t) ((hcond0_0 t).mpr h0) ((hcond0_1 t).mpr h1) (fun h => h2 ((hcond0_2 t).mp h)) ⟨((dats m 0 c).before 2 t d2), ((dats m 0 c).before 3 t d3), xs0, xs1, xs2, xs3⟩ S0
    obtain ⟨p2, p7, p8, p9, p10, -⟩ := pieces_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) ((dats m 0 c).before 2 t d2) ((dats m 0 c).before 3 t d3) xs0 xs1 xs2 xs3
    iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) ((dats m 0 c).before 2 t d2) ((dats m 0 c).before 3 t d3) xs0 xs1 xs2 xs3).2.2.2.2.2 Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, ⟨%ef2, H2⟩, H3, ⟨%efs0, HS0⟩, ⟨%efs1, HS1⟩, ⟨%efs2, HS2⟩, ⟨%efs3, HS3⟩⟩
    isplitl [HS0 HS1 HS2 HS3 Hg]
    · isplitl [HS0 HS1 HS2 HS3]
      · isplitl [HS0]
        · unfold owns; iexists _; isplitr
          swap; · iexact HS0
          ipureintro; exact (p7 _).trans (hirr St.junk).2.1
        isplitl [HS1]
        · unfold owns; iexists _; isplitr
          swap; · iexact HS1
          ipureintro; exact (p8 _).trans (hirr St.junk).2.2.1
        isplitl [HS2]
        · unfold owns; iexists _; isplitr
          swap; · iexact HS2
          ipureintro; exact (p9 _).trans (hirr St.junk).2.2.2.1
        unfold owns; iexists _; isplitr
        swap; · iexact HS3
        ipureintro; exact (p10 _).trans (hirr St.junk).2.2.2.2
      iexact Hg
    isplitl [Ho]; · iexact Ho
    isplitl [H0]; · iexact H0
    isplitl [H1]; · iexact H1
    isplitl [H2]
    · unfold owns; iexists _; isplitr
      swap; · iexact H2
      ipureintro; exact (p2 _).trans (hirr St.junk).1
    iexists d3
    unfold owns; iexists _; isplitr
    swap; · iexact H3
    ipureintro; exact (hs0_3 t).read_unread _
  · rw [sAt_pos m c t hz, PhiS_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩⟩
    have hirr := fun (S0 : St F) => step_first (grid0.coords t) (iblk m c 0 t) (iblk m c 1 t) ((hcond0_0 t).mpr h0) ((hcond0_1 t).mpr h1) (fun h => h2 ((hcond0_2 t).mp h)) ⟨((dats m 0 c).before 2 t d2), ((dats m 0 c).before 3 t d3), (sAt m c (t.val - 1)).m, (sAt m c (t.val - 1)).l, (sAt m c (t.val - 1)).acc, (sAt m c (t.val - 1)).vis⟩ S0
    obtain ⟨p2, p7, p8, p9, p10, -⟩ := pieces_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) ((dats m 0 c).before 2 t d2) ((dats m 0 c).before 3 t d3) (sAt m c (t.val - 1)).m (sAt m c (t.val - 1)).l (sAt m c (t.val - 1)).acc (sAt m c (t.val - 1)).vis
    iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) ((dats m 0 c).before 2 t d2) ((dats m 0 c).before 3 t d3) (sAt m c (t.val - 1)).m (sAt m c (t.val - 1)).l (sAt m c (t.val - 1)).acc (sAt m c (t.val - 1)).vis).2.2.2.2.2 Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, ⟨%ef2, H2⟩, H3, ⟨%efs0, HS0⟩, ⟨%efs1, HS1⟩, ⟨%efs2, HS2⟩, ⟨%efs3, HS3⟩⟩
    isplitl [HS0 HS1 HS2 HS3 Hg]
    · isplitl [HS0 HS1 HS2 HS3]
      · isplitl [HS0]
        · unfold owns; iexists _; isplitr
          swap; · iexact HS0
          ipureintro; exact (p7 _).trans (hirr (sAt m c (t.val - 1))).2.1
        isplitl [HS1]
        · unfold owns; iexists _; isplitr
          swap; · iexact HS1
          ipureintro; exact (p8 _).trans (hirr (sAt m c (t.val - 1))).2.2.1
        isplitl [HS2]
        · unfold owns; iexists _; isplitr
          swap; · iexact HS2
          ipureintro; exact (p9 _).trans (hirr (sAt m c (t.val - 1))).2.2.2.1
        unfold owns; iexists _; isplitr
        swap; · iexact HS3
        ipureintro; exact (p10 _).trans (hirr (sAt m c (t.val - 1))).2.2.2.2
      iexact Hg
    isplitl [Ho]; · iexact Ho
    isplitl [H0]; · iexact H0
    isplitl [H1]; · iexact H1
    isplitl [H2]
    · unfold owns; iexists _; isplitr
      swap; · iexact H2
      ipureintro; exact (p2 _).trans (hirr (sAt m c (t.val - 1))).1
    iexists d3
    unfold owns; iexists _; isplitr
    swap; · iexact H3
    ipureintro; exact (hs0_3 t).read_unread _

set_option maxHeartbeats 4000000 in
/-- The body's obligation at a point of case B. -/
theorem sound_B (c : Dev nD) (t : Fin cfg0.N) (h0 : ¬t.val % 8 = 0) (h1 : ¬t.val % 4 = 0) (h2 : ¬t.val % 4 = 3) (h3 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [Dat.leavesExact_idle (dats m 0 c) 2 t (by rw [idle0_2 t]; simp only [h0, h2, decide_false, Bool.or_false, Bool.not_false])
    (by cases hf : (cfg0.win 2).flush t with | false => rfl | true => exact absurd ((flush0_2 t).mp hf) h3)]
  rw [Dat.leavesExact_idle (dats m 0 c) 3 t (by rw [idle0_3 t]; simp only [h3, decide_false, Bool.not_false])
    (by cases hf : (cfg0.win 3).flush t with | false => rfl | true => exact absurd ((flush0_3 t).mp hf) h3)]
  have hz : t.val ≠ 0 := by omega
  rw [sAt_pos m c t hz, PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩⟩
  obtain ⟨p7, p8, p9, p10, -, -⟩ := pieces_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) ((dats m 0 c).before 2 t d2) ((dats m 0 c).before 3 t d3) (sAt m c (t.val - 1)).m (sAt m c (t.val - 1)).l (sAt m c (t.val - 1)).acc (sAt m c (t.val - 1)).vis
  iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) ((dats m 0 c).before 2 t d2) ((dats m 0 c).before 3 t d3) (sAt m c (t.val - 1)).m (sAt m c (t.val - 1)).l (sAt m c (t.val - 1)).acc (sAt m c (t.val - 1)).vis).2.2.2.2 Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, H3, ⟨%efs0, HS0⟩, ⟨%efs1, HS1⟩, ⟨%efs2, HS2⟩, HS3⟩
  isplitl [HS0 HS1 HS2 HS3 Hg]
  · isplitl [HS0 HS1 HS2 HS3]
    · isplitl [HS0]
      · unfold owns; iexists _; isplitr
        swap; · iexact HS0
        ipureintro; exact p7 _
      isplitl [HS1]
      · unfold owns; iexists _; isplitr
        swap; · iexact HS1
        ipureintro; exact p8 _
      isplitl [HS2]
      · unfold owns; iexists _; isplitr
        swap; · iexact HS2
        ipureintro; exact p9 _
      unfold owns; iexists _; isplitr
      swap; · iexact HS3
      ipureintro; exact p10
    iexact Hg
  isplitl [Ho]; · iexact Ho
  isplitl [H0]; · iexact H0
  isplitl [H1]; · iexact H1
  isplitl [H2]
  · iexists d2
    unfold owns; iexists _; isplitr
    swap; · iexact H2
    ipureintro; exact (hs0_2 t).read_unread _
  iexists d3
  unfold owns; iexists _; isplitr
  swap; · iexact H3
  ipureintro; exact (hs0_3 t).read_unread _

set_option maxHeartbeats 4000000 in
/-- The body's obligation at a point of case C. -/
theorem sound_C (c : Dev nD) (t : Fin cfg0.N) (h0 : ¬t.val % 8 = 0) (h1 : ¬t.val % 4 = 0) (h2 : t.val % 4 = 3) (h3 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [idle0_2 t]; simp only [h0, h2, decide_true, decide_false, Bool.or_true, Bool.true_or, Bool.or_false, Bool.not_true], after0_2]
  rw [Dat.leavesExact_idle (dats m 0 c) 3 t (by rw [idle0_3 t]; simp only [h3, decide_false, Bool.not_false])
    (by cases hf : (cfg0.win 3).flush t with | false => rfl | true => exact absurd ((flush0_3 t).mp hf) h3)]
  simp only [before0_2 m c t.val t.isLt h0]
  have hz : t.val ≠ 0 := by omega
  rw [sAt_pos m c t hz, PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩⟩
  obtain ⟨p2, p7, p8, p9, p10, -⟩ := pieces_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (sAt m c (t.val - 1)).o ((dats m 0 c).before 3 t d3) (sAt m c (t.val - 1)).m (sAt m c (t.val - 1)).l (sAt m c (t.val - 1)).acc (sAt m c (t.val - 1)).vis
  iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (sAt m c (t.val - 1)).o ((dats m 0 c).before 3 t d3) (sAt m c (t.val - 1)).m (sAt m c (t.val - 1)).l (sAt m c (t.val - 1)).acc (sAt m c (t.val - 1)).vis).2.2.2.2.2 Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, ⟨%ef2, H2⟩, H3, ⟨%efs0, HS0⟩, ⟨%efs1, HS1⟩, ⟨%efs2, HS2⟩, HS3⟩
  isplitl [HS0 HS1 HS2 HS3 Hg]
  · isplitl [HS0 HS1 HS2 HS3]
    · isplitl [HS0]
      · unfold owns; iexists _; isplitr
        swap; · iexact HS0
        ipureintro; exact p7 _
      isplitl [HS1]
      · unfold owns; iexists _; isplitr
        swap; · iexact HS1
        ipureintro; exact p8 _
      isplitl [HS2]
      · unfold owns; iexists _; isplitr
        swap; · iexact HS2
        ipureintro; exact p9 _
      unfold owns; iexists _; isplitr
      swap; · iexact HS3
      ipureintro; exact p10
    iexact Hg
  isplitl [Ho]; · iexact Ho
  isplitl [H0]; · iexact H0
  isplitl [H1]; · iexact H1
  isplitl [H2]
  · unfold owns; iexists _; isplitr
    swap; · iexact H2
    ipureintro; exact p2 _
  iexists d3
  unfold owns; iexists _; isplitr
  swap; · iexact H3
  ipureintro; exact (hs0_3 t).read_unread _

set_option maxHeartbeats 4000000 in
/-- The body's obligation at a point of case D. -/
theorem sound_D (c : Dev nD) (t : Fin cfg0.N) (h0 : ¬t.val % 8 = 0) (h1 : t.val % 4 = 0) (h2 : ¬t.val % 4 = 3) (h3 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [Dat.leavesExact_idle (dats m 0 c) 2 t (by rw [idle0_2 t]; simp only [h0, h2, decide_false, Bool.or_false, Bool.not_false])
    (by cases hf : (cfg0.win 2).flush t with | false => rfl | true => exact absurd ((flush0_2 t).mp hf) h3)]
  rw [Dat.leavesExact_idle (dats m 0 c) 3 t (by rw [idle0_3 t]; simp only [h3, decide_false, Bool.not_false])
    (by cases hf : (cfg0.win 3).flush t with | false => rfl | true => exact absurd ((flush0_3 t).mp hf) h3)]
  have hz : t.val ≠ 0 := by omega
  rw [sAt_pos m c t hz, PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩⟩
  obtain ⟨p7, p8, p9, p10, -, -⟩ := pieces_D c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) ((dats m 0 c).before 2 t d2) ((dats m 0 c).before 3 t d3) (sAt m c (t.val - 1)).m (sAt m c (t.val - 1)).l (sAt m c (t.val - 1)).acc (sAt m c (t.val - 1)).vis
  iapply ((kernelRun0_D c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) ((dats m 0 c).before 2 t d2) ((dats m 0 c).before 3 t d3) (sAt m c (t.val - 1)).m (sAt m c (t.val - 1)).l (sAt m c (t.val - 1)).acc (sAt m c (t.val - 1)).vis).2.2.2.2 Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, H3, ⟨%efs0, HS0⟩, ⟨%efs1, HS1⟩, ⟨%efs2, HS2⟩, HS3⟩
  isplitl [HS0 HS1 HS2 HS3 Hg]
  · isplitl [HS0 HS1 HS2 HS3]
    · isplitl [HS0]
      · unfold owns; iexists _; isplitr
        swap; · iexact HS0
        ipureintro; exact p7 _
      isplitl [HS1]
      · unfold owns; iexists _; isplitr
        swap; · iexact HS1
        ipureintro; exact p8 _
      isplitl [HS2]
      · unfold owns; iexists _; isplitr
        swap; · iexact HS2
        ipureintro; exact p9 _
      unfold owns; iexists _; isplitr
      swap; · iexact HS3
      ipureintro; exact p10
    iexact Hg
  isplitl [Ho]; · iexact Ho
  isplitl [H0]; · iexact H0
  isplitl [H1]; · iexact H1
  isplitl [H2]
  · iexists d2
    unfold owns; iexists _; isplitr
    swap; · iexact H2
    ipureintro; exact (hs0_2 t).read_unread _
  iexists d3
  unfold owns; iexists _; isplitr
  swap; · iexact H3
  ipureintro; exact (hs0_3 t).read_unread _

set_option maxHeartbeats 4000000 in
/-- The body's obligation at a point of case E. -/
theorem sound_E (c : Dev nD) (t : Fin cfg0.N) (h0 : ¬t.val % 8 = 0) (h1 : ¬t.val % 4 = 0) (h2 : t.val % 4 = 3) (h3 : t.val % 8 = 7) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [idle0_2 t]; simp only [h0, h2, decide_true, decide_false, Bool.or_true, Bool.true_or, Bool.or_false, Bool.not_true], after0_2]
  rw [show (dats m 0 c).leavesExact 3 t = owns (c : Thread nD τ) (ms0_3 t) fullShare ((dats m 0 c).after 3 t) from by
    unfold Dat.leavesExact; rw [idle0_3 t]; simp only [h3, decide_true, Bool.not_true], after0_3]
  simp only [before0_2 m c t.val t.isLt h0]
  have hz : t.val ≠ 0 := by omega
  rw [sAt_pos m c t hz, PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩⟩
  obtain ⟨p2, p3, p7, p8, p9, p10⟩ := pieces_E c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (sAt m c (t.val - 1)).o ((dats m 0 c).before 3 t d3) (sAt m c (t.val - 1)).m (sAt m c (t.val - 1)).l (sAt m c (t.val - 1)).acc (sAt m c (t.val - 1)).vis
  iapply ((kernelRun0_E c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (sAt m c (t.val - 1)).o ((dats m 0 c).before 3 t d3) (sAt m c (t.val - 1)).m (sAt m c (t.val - 1)).l (sAt m c (t.val - 1)).acc (sAt m c (t.val - 1)).vis).2.2.2.2.2.2 Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, ⟨%ef2, H2⟩, ⟨%ef3, H3⟩, ⟨%efs0, HS0⟩, ⟨%efs1, HS1⟩, ⟨%efs2, HS2⟩, HS3⟩
  isplitl [HS0 HS1 HS2 HS3 Hg]
  · isplitl [HS0 HS1 HS2 HS3]
    · isplitl [HS0]
      · unfold owns; iexists _; isplitr
        swap; · iexact HS0
        ipureintro; exact p7 _
      isplitl [HS1]
      · unfold owns; iexists _; isplitr
        swap; · iexact HS1
        ipureintro; exact p8 _
      isplitl [HS2]
      · unfold owns; iexists _; isplitr
        swap; · iexact HS2
        ipureintro; exact p9 _
      unfold owns; iexists _; isplitr
      swap; · iexact HS3
      ipureintro; exact p10
    iexact Hg
  isplitl [Ho]; · iexact Ho
  isplitl [H0]; · iexact H0
  isplitl [H1]; · iexact H1
  isplitl [H2]
  · unfold owns; iexists _; isplitr
    swap; · iexact H2
    ipureintro; exact p2 _
  unfold owns; iexists _; isplitr
  swap; · iexact H3
  ipureintro; exact (p3 _).trans (step_vo_of_last (grid0.coords t) (iblk m c 0 t) (iblk m c 1 t) ((hcond0_3 t).mpr h3) (sAt m c (t.val - 1)) _)

end Cert.Kernel.Attn

end
-- ==== Proof.KBBody.lean ====
/-
  The attention kernel's launch: the body's obligation at every grid point — one of five control cases, each the
  case's run with its found stores read back as the carried state's next value —, and the run of the whole program:
  every execution terminates, the two output arrays hold the blocks written back at each batch's last point, and the
  two reshapes after the region read them.
-/
import proofs.«406335_j42030549959205_3_alg».proof.Proof.KBSound

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

set_option maxHeartbeats 1000000 in
/-- The body's obligation at any point: the closed forms of the four conditions say which of the five cases it is. -/
theorem sound_body (c : Dev nD) (t : Fin cfg0.N) :
    bodyPre m c t ⊢ wp frame (wpE (defs₀ (F := F)) Variants.none c none) Set.univ (bodyAt0 t) (fun _ => bodyPost m c t) := by
  have hN : t.val < 256 := lt_of_lt_of_eq t.isLt (show cfg0.N = 256 from N_0)
  by_cases h0 : t.val % 8 = 0
  · exact sound_A m c t h0 (by omega) (by omega) (by omega)
  · by_cases h1 : t.val % 4 = 0
    · exact sound_D m c t h0 h1 (by omega) (by omega)
    · by_cases h2 : t.val % 4 = 3
      · by_cases h3 : t.val % 8 = 7
        · exact sound_E m c t h0 h1 h2 h3
        · exact sound_C m c t h0 h1 h2 h3
      · exact sound_B m c t h0 h1 h2 (by omega)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
set_option maxHeartbeats 4000000 in
/-- Every weakly fair execution of the program terminates, with every array of the pipeline at what the proof data
    say and every other buffer as the two reshapes after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Attn

end
-- ==== Proof.KIState.lean ====
/-
  The contents the attention kernel carries from one grid point to the next, as pure values.

  The grid is (batch b, query tile yt, key tile xt) with xt innermost. Six buffers live across points: the two
  output blocks (the running mean of the attention output, one row of 1024; the scaled column sums, one row of 2048)
  and four scratch buffers — the running row maximum m, the running normaliser l, the running weighted sum acc
  (1024 query rows each) and the running column sums of the scores (2048 key columns). One point's effect on them
  is `step`: resets at the first key tile (and, for the output row and the column sums, at the first point of a
  batch), the streamed-softmax update of (m, l, acc) with this point's score tile, the column sums' slice for this
  key tile, and at the last key tile the contribution to the output row (and at the batch's last point the scaled
  column sums). `stAt n` is the state after point `n` from any blocks fed to the points.
-/
import proofs.«406335_j42030549959205_3_alg».proof.Proof.Gen.KernelIdeal.Skeleton
import Idealize.ShloMosaic.Lib.Pipeline.FrameBody

noncomputable section

namespace Cert.KernelIdeal.Attn

open Idealize.ShloMosaic Idealize.SL.Sem Cert.KernelIdeal Cert.KernelIdeal.Gen

variable {F : FTy → Type} [FloatOps F]

/-- What the six carried buffers hold. -/
structure St (F : FTy → Type) [FloatOps F] where
  o : Vec F S1x1x1024 .f32
  vo : Vec F S1x1x2048 .f32
  m : Vec F S1024x1 .f32
  l : Vec F S1024x1 .f32
  acc : Vec F S1024x1024 .f32
  vis : Vec F S1x2048 .f32

/-- The 512 columns of the running column sums that the point at coordinates `i` adds to: columns
    `512 * xt … 512 * xt + 511`. -/
abbrev visRect (i : grid0.Coords) : Rect S1x2048 := Rect.unit (s := S1x2048) (k0_off1 i) S1x512.size (k0_off1_inb i)

/-- "This is the first key tile": the condition under which (m, l, acc) are reset. -/
abbrev firstKey (i : grid0.Coords) : Prop :=
  (Scalar.cmpi .ne (Scalar.extui (Scalar.cmpi .eq (BitVec.ofNat 32 (i 2).val) 0#32)) 0#32) = 1#1

/-- One grid point: the query block `q` (1024 rows), the key block `x` (512 rows), the state before → after. -/
def step (i : grid0.Coords) (q : Vec F S1x1024x1024 .f32) (x : Vec F S1x512x1024 .f32) (s : St F) : St F :=
  let o0 : Vec F S1x1x1024 .f32 := if k0_cond1 i = 1#1 then k0_pay8 else s.o
  let vis0 : Vec F S1x2048 .f32 := if k0_cond1 i = 1#1 then k0_pay9 else s.vis
  let m0 : Vec F S1024x1 .f32 := if firstKey i then k0_pay10 else s.m
  let l0 : Vec F S1024x1 .f32 := if firstKey i then k0_pay11 else s.l
  let acc0 : Vec F S1024x1024 .f32 := if firstKey i then k0_pay12 else s.acc
  let vis1 : Vec F S1x2048 .f32 := (visRect i).overlay vis0 (k0_pay15 q x (View.ld vis0 (visRect i)))
  let m1 : Vec F S1024x1 .f32 := k0_pay16 q x m0
  let sub : FVec F S1024x512 .f32 := k0_pay17 q x m0
  let l1 : Vec F S1024x1 .f32 := k0_pay3 m0 m1 sub l0
  let acc1 : Vec F S1024x1024 .f32 := k0_pay4 (k0_pay13 x) m0 m1 sub acc0
  let o1 : Vec F S1x1x1024 .f32 := if k0_cond3 i = 1#1 then k0_pay6 l1 acc1 o0 else o0
  let vo1 : Vec F S1x1x2048 .f32 := if k0_cond4 i = 1#1 then k0_pay7 vis1 else s.vo
  ⟨o1, vo1, k0_pay5 m1, l1, acc1, vis1⟩

/-- A state to start from; the first point resets or overwrites every component before reading it, so which one
    is chosen does not matter: this one holds the reset values. -/
def St.junk : St F := ⟨k0_pay8, k0_pay7 k0_pay9, k0_pay10, k0_pay11, k0_pay12, k0_pay9⟩

/-- The state after point `n`, the points fed the blocks `Q n`, `X n` at coordinates `I n`. -/
def stAt (I : ℕ → grid0.Coords) (Q : ℕ → Vec F S1x1024x1024 .f32) (X : ℕ → Vec F S1x512x1024 .f32) : ℕ → St F
  | 0 => step (I 0) (Q 0) (X 0) St.junk
  | n + 1 => step (I (n + 1)) (Q (n + 1)) (X (n + 1)) (stAt I Q X n)

theorem stAt_zero (I : ℕ → grid0.Coords) (Q : ℕ → Vec F S1x1024x1024 .f32) (X : ℕ → Vec F S1x512x1024 .f32) :
    stAt I Q X 0 = step (I 0) (Q 0) (X 0) St.junk := rfl
theorem stAt_succ (I : ℕ → grid0.Coords) (Q : ℕ → Vec F S1x1024x1024 .f32) (X : ℕ → Vec F S1x512x1024 .f32) (n : ℕ) :
    stAt I Q X (n + 1) = step (I (n + 1)) (Q (n + 1)) (X (n + 1)) (stAt I Q X n) := rfl

end Cert.KernelIdeal.Attn

end
-- ==== Proof.KIShared.lean ====
/-
  What the five control cases of the attention kernel's body share: its four branch conditions in closed form over
  the linear grid position (the grid is 32 × 2 × 4, so a position t has key tile t % 4 and query tile (t / 4) % 2),
  the staging and scratch buffers the body is called on, and the region's invariant with the four scratch buffers
  made explicit.
-/
import proofs.«406335_j42030549959205_3_alg».proof.Proof.Gen.KernelIdeal.Frame
import proofs.«406335_j42030549959205_3_alg».proof.Proof.Gen.KernelIdeal.Skeleton
import proofs.«406335_j42030549959205_3_alg».proof.Proof.KIState

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions, decided over the grid -/

/-- "First point of a batch" (query tile 0 and key tile 0): the output row and the column sums are zeroed. -/
abbrev cond0_0 (i : grid0.Coords) : Prop := k0_cond1 i = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "First key tile": the running maximum, normaliser and weighted sum are reset. -/
abbrev cond0_1 (i : grid0.Coords) : Prop := firstKey i
theorem hcond0_1 : ∀ t : Fin cfg0.N, cond0_1 (grid0.coords t) ↔ t.val % 4 = 0 :=
  (by decide +kernel : ∀ t : Fin grid0.N, cond0_1 (grid0.coords t) ↔ t.val % 4 = 0)

/-- "Last key tile": the query tile's rows are normalised and added to the output row. -/
abbrev cond0_2 (i : grid0.Coords) : Prop := k0_cond3 i = 1#1
theorem hcond0_2 : ∀ t : Fin cfg0.N, cond0_2 (grid0.coords t) ↔ t.val % 4 = 3 :=
  (by decide +kernel : ∀ t : Fin grid0.N, cond0_2 (grid0.coords t) ↔ t.val % 4 = 3)

/-- "Last point of a batch": the column sums are scaled into the second output. -/
abbrev cond0_3 (i : grid0.Coords) : Prop := k0_cond4 i = 1#1
theorem hcond0_3 : ∀ t : Fin cfg0.N, cond0_3 (grid0.coords t) ↔ t.val % 8 = 7 :=
  (by decide +kernel : ∀ t : Fin grid0.N, cond0_3 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- The output row's block is stored into exactly at the first point of a batch and at the last key tiles. -/
theorem idle0_2 : ∀ t : Fin cfg0.N, cfg0.idle 2 (grid0.coords t) = !(decide (t.val % 8 = 0) || decide (t.val % 4 = 3)) := by decide +kernel
/-- The column sums' output block is stored into exactly at the last point of a batch. -/
theorem idle0_3 : ∀ t : Fin cfg0.N, cfg0.idle 3 (grid0.coords t) = !(decide (t.val % 8 = 7)) := by decide +kernel

/-! ## The buffers the body is called on -/

abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1024 .f32 := Memref.whole cc0_scratch2
abbrev scM0_3 : Memref sig .tc .vmem S1x2048 .f32 := Memref.whole cc0_scratch3

/-- The region's invariant with the four scratch buffers as whole memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Attn

end
-- ==== Proof.KIData.lean ====
/-
  The attention kernel's proof data: the state carried after each grid point (through `KIState`'s recursion fed the
  points' query and key blocks), the region's invariant holding the four scratch buffers at that state, and what
  every staging buffer holds after the body at each point.
-/
import proofs.«406335_j42030549959205_3_alg».proof.Proof.KIShared

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The state after each point -/

/-- Point `n` of the grid (modulo its 256 points) and its coordinates. -/
def ptG (n : ℕ) : Fin cfg0.N := ⟨n % 256, Nat.mod_lt _ (by decide)⟩
def ptI (n : ℕ) : grid0.Coords := grid0.coords (ptG n)
theorem ptG_val (t : Fin cfg0.N) : ptG t.val = t :=
  Fin.ext (Nat.mod_eq_of_lt (lt_of_lt_of_eq t.isLt (show cfg0.N = 256 from N_0)))

/-- The query block and the key block point `n` is fed. -/
def Qb (c : Dev nD) (n : ℕ) : Vec F S1x1024x1024 .f32 := iblk m c 0 (ptG n)
def Xb (c : Dev nD) (n : ℕ) : Vec F S1x512x1024 .f32 := iblk m c 1 (ptG n)

/-- The carried state after point `n`. -/
def sAt (c : Dev nD) (n : ℕ) : St F := stAt ptI (Qb m c) (Xb m c) n

theorem sAt_zero (c : Dev nD) : sAt m c 0 = step (ptI 0) (Qb m c 0) (Xb m c 0) St.junk := rfl
theorem sAt_succ (c : Dev nD) (n : ℕ) : sAt m c (n + 1) = step (ptI (n + 1)) (Qb m c (n + 1)) (Xb m c (n + 1)) (sAt m c n) := rfl

/-! ## The proof data -/

/-- The region's invariant before position `n`: at first the four scratch buffers at anything; afterwards at the
    carried state's components. -/
def PhiS (c : Dev nD) : (n : ℕ) → n ≤ cfg0.N → sProp 𝕄
  | 0, _ => Pipeline.ΦA spec0 c
  | n + 1, hn => iprop(iprop(owns (c : Thread nD τ) scM0_0 fullShare (sAt m c n).m ∗ owns (c : Thread nD τ) scM0_1 fullShare (sAt m c n).l ∗ owns (c : Thread nD τ) scM0_2 fullShare (sAt m c n).acc ∗ owns (c : Thread nD τ) scM0_3 fullShare (sAt m c n).vis) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (sAt m c n).m ∗ owns (c : Thread nD τ) scM0_1 fullShare (sAt m c n).l ∗ owns (c : Thread nD τ) scM0_2 fullShare (sAt m c n).acc ∗ owns (c : Thread nD τ) scM0_3 fullShare (sAt m c n).vis) ∗ (∃ r, prngReg c r)) := rfl
theorem PhiS_pos (c : Dev nD) (n : ℕ) (h : n ≤ cfg0.N) (hz : n ≠ 0) :
    PhiS m c n h = iprop(iprop(owns (c : Thread nD τ) scM0_0 fullShare (sAt m c (n - 1)).m ∗ owns (c : Thread nD τ) scM0_1 fullShare (sAt m c (n - 1)).l ∗ owns (c : Thread nD τ) scM0_2 fullShare (sAt m c (n - 1)).acc ∗ owns (c : Thread nD τ) scM0_3 fullShare (sAt m c (n - 1)).vis) ∗ (∃ r, prngReg c r)) := by
  cases n with
  | zero => exact absurd rfl hz
  | succ n => rfl

/-- The proof data on core `c`: the arrays as the region finds them; after the body at point `t` each input's buffer
    at its block, the two outputs' buffers at the carried state's output components; the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (sAt m c t.val).o
    | ⟨3, _⟩ => (sAt m c t.val).vo
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (sAt m c t.val).o := by dsimp only [dats]
theorem after0_3 (c : Dev nD) (t : Fin cfg0.N) : (dats m 0 c).after 3 t = (sAt m c t.val).vo := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

end Cert.KernelIdeal.Attn

end
-- ==== Proof.KIBefore.lean ====
/-
  What the body finds in the output row's staging buffer. The row is written at a batch's first point (zeroed) and at
  the last key tile of each query tile (a contribution added), and written back only at the batch's last point; at
  the points between, the body leaves the buffer alone. So at every point but a batch's first the buffer holds the
  carried state's output row as the point before left it.
-/
import proofs.«406335_j42030549959205_3_alg».proof.Proof.KIData

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The output row's window is uncut, so what the body leaves in its buffer at a point is all of the state's row there. -/
theorem kept0_2 (c : Dev nD) (t : Fin cfg0.N) (d) : (dats m 0 c).kept 2 t d = (sAt m c t.val).o := by
  unfold Dat.kept
  rw [Pipeline.fill_of_clip_none 2 _ (fun a => rfl) d ((dats m 0 c).after 2 t), Window.fill_cut, after0_2]

/-- At a point that stores into the output row (a batch's first point, or a last key tile) the buffer is left at the
    state's row. -/
theorem left0_2_live (c : Dev nD) (t : Fin cfg0.N) (h : t.val % 8 = 0 ∨ t.val % 4 = 3) (d) :
    (dats m 0 c).left 2 t d = (sAt m c t.val).o := by
  have hi : cfg0.idle 2 (grid0.coords t) = false := by
    rw [idle0_2]; rcases h with h | h <;> simp [h]
  unfold Dat.left; rw [hi]; exact kept0_2 m c t d

/-- At every other point the buffer is left as it was found. -/
theorem left0_2_idle (c : Dev nD) (t : Fin cfg0.N) (h8 : t.val % 8 ≠ 0) (h4 : t.val % 4 ≠ 3) (d) :
    (dats m 0 c).left 2 t d = (dats m 0 c).before 2 t d := by
  have hi : cfg0.idle 2 (grid0.coords t) = true := by
    rw [idle0_2]; simp [h8, h4]
  unfold Dat.left; rw [hi]

/-- The output row is never fetched: after the first point its buffer holds nothing new if the point before wrote the
    row back, and otherwise what that point left. -/
theorem before0_2_succ (c : Dev nD) (k : ℕ) (hn : k + 1 < cfg0.N) (d) :
    (dats m 0 c).before 2 ⟨k + 1, hn⟩ d
      = if (cfg0.win 2).flush ⟨k, Nat.lt_of_succ_lt hn⟩ then d else (dats m 0 c).left 2 ⟨k, Nat.lt_of_succ_lt hn⟩ d :=
  (dats m 0 c).before_of_pos 2 ⟨k + 1, hn⟩ (Nat.succ_ne_zero k) ((cfg0.win 2).fetch_out rfl _) d

/-- A point that is neither a batch's first nor a last key tile leaves the state's output row alone. -/
theorem sAt_o_idle (c : Dev nD) (k : ℕ) (hk : k + 1 < cfg0.N) (h8 : (k + 1) % 8 ≠ 0) (h4 : (k + 1) % 4 ≠ 3) :
    (sAt m c (k + 1)).o = (sAt m c k).o := by
  have hp : ptI (k + 1) = grid0.coords ⟨k + 1, hk⟩ := congrArg grid0.coords (ptG_val ⟨k + 1, hk⟩)
  have h1 : ¬ (k0_cond1 (ptI (k + 1)) = 1#1) := by
    rw [hp]; exact fun h => h8 ((hcond0_0 ⟨k + 1, hk⟩).1 h)
  have h3 : ¬ (k0_cond3 (ptI (k + 1)) = 1#1) := by
    rw [hp]; exact fun h => h4 ((hcond0_2 ⟨k + 1, hk⟩).1 h)
  rw [sAt_succ]
  simp only [step, if_neg h1, if_neg h3]

/-- At a point that is not the first of its batch the output row's buffer holds the state's row after the point before. -/
theorem before0_2 (c : Dev nD) (n : ℕ) (hn : n < cfg0.N) (h8 : n % 8 ≠ 0) (d) :
    (dats m 0 c).before 2 ⟨n, hn⟩ d = (sAt m c (n - 1)).o := by
  induction n with
  | zero => exact absurd (Nat.zero_mod 8) h8
  | succ k ih =>
    have hk : k < cfg0.N := Nat.lt_of_succ_lt hn
    have hfl : (cfg0.win 2).flush ⟨k, hk⟩ = false := by
      rw [Bool.eq_false_iff]; intro hf
      have h7 : k % 8 = 7 := (flush0_2 ⟨k, hk⟩).1 hf
      omega
    rw [before0_2_succ m c k hn d, hfl, if_neg Bool.false_ne_true]
    show _ = (sAt m c k).o
    by_cases hlive : k % 8 = 0 ∨ k % 4 = 3
    · exact left0_2_live m c ⟨k, hk⟩ hlive d
    · have h8' : k % 8 ≠ 0 := fun h => hlive (.inl h)
      have h4' : k % 4 ≠ 3 := fun h => hlive (.inr h)
      rw [left0_2_idle m c ⟨k, hk⟩ h8' h4' d, ih hk h8']
      cases k with
      | zero => exact absurd (Nat.zero_mod 8) h8'
      | succ j => exact (sAt_o_idle m c j hk h8' h4').symm

end Cert.KernelIdeal.Attn

end
-- ==== Proof.KIObl.lean ====
/-
  The body's obligation stated point by point: what the body is handed at a grid point (the region's invariant, each
  window's current staging buffer at what it then holds) and what it hands back; the carried state after a point as
  one step from the state before it; and two facts about a step — at a batch's first point the state does not depend
  on the state before, and at its last point the scaled column sums do not depend on what their buffer held.
-/
import proofs.«406335_j42030549959205_3_alg».proof.Proof.KIBefore

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- The state after a point that is not the first is one step from the state before it, on the point's blocks. -/
theorem sAt_pos (c : Dev nD) (t : Fin cfg0.N) (hz : t.val ≠ 0) :
    sAt m c t.val = step (grid0.coords t) (iblk m c 0 t) (iblk m c 1 t) (sAt m c (t.val - 1)) := by
  obtain ⟨k, hk⟩ := Nat.exists_eq_succ_of_ne_zero hz
  have hk' : t.val - 1 = k := by omega
  rw [hk', show t.val = k + 1 from hk, sAt_succ]
  unfold ptI Qb Xb; rw [show k + 1 = t.val from hk.symm, ptG_val]
/-- The state after the first point. -/
theorem sAt_first (c : Dev nD) (t : Fin cfg0.N) (hz : t.val = 0) :
    sAt m c t.val = step (grid0.coords t) (iblk m c 0 t) (iblk m c 1 t) St.junk := by
  rw [hz, sAt_zero]; unfold ptI Qb Xb; rw [← hz, ptG_val]

/-- At a batch's first point everything carried but the scaled column sums is reset before it is read, so the state
    after the point does not depend on the state before it. -/
theorem step_first (i : grid0.Coords) (q : Vec F S1x1024x1024 .f32) (x : Vec F S1x512x1024 .f32)
    (hc0 : cond0_0 i) (hc1 : cond0_1 i) (hc2 : ¬cond0_2 i) (s s' : St F) :
    (step i q x s).o = (step i q x s').o ∧ (step i q x s).m = (step i q x s').m ∧ (step i q x s).l = (step i q x s').l
      ∧ (step i q x s).acc = (step i q x s').acc ∧ (step i q x s).vis = (step i q x s').vis := by
  refine ⟨?_, ?_, ?_, ?_, ?_⟩ <;> simp only [step, if_pos hc0, if_pos hc1, if_neg hc2]

/-- At a batch's last point the scaled column sums are written whole, so they do not depend on what the second output
    block held before. -/
theorem step_vo_of_last (i : grid0.Coords) (q : Vec F S1x1024x1024 .f32) (x : Vec F S1x512x1024 .f32)
    (hc3 : cond0_3 i) (s : St F) (y3 : Vec F S1x1x2048 .f32) :
    (step i q x ⟨s.o, y3, s.m, s.l, s.acc, s.vis⟩).vo = (step i q x s).vo := by
  simp only [step, if_pos hc3]

end Cert.KernelIdeal.Attn

end
-- ==== Proof.KIRunA.lean ====
/-
  The attention kernel's body run once in control case A — the first point of a batch (first query tile, first key tile): everything carried is reset, then the point's update is applied. From the eight buffers at named
  contents the body runs to the same buffers with its stores applied; the lists of stored pieces (last store first)
  are what the run finds.
-/
import proofs.«406335_j42030549959205_3_alg».proof.Proof.KIShared

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x1x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1x2048 .f32) (harg10 : arg10.IsWhole) (hc0 : cond0_0 i) (hc1 : cond0_1 i) (hc2 : ¬cond0_2 i) (hc3 : ¬cond0_3 i)
    (x0 : Vec F S1x1024x1024 .f32) (x1 : Vec F S1x512x1024 .f32) (y2 : Vec F S1x1x1024 .f32) (y3 : Vec F S1x1x2048 .f32) (xs0 : Vec F S1024x1 .f32) (xs1 : Vec F S1024x1 .f32) (xs2 : Vec F S1024x1024 .f32) (xs3 : Vec F S1x2048 .f32) :
    Σ' (L2 : List (View.Piece (Elt F) S1x1x1024 .f32)), Σ' (LS0 : List (View.Piece (Elt F) S1024x1 .f32)), Σ' (LS1 : List (View.Piece (Elt F) S1024x1 .f32)), Σ' (LS2 : List (View.Piece (Elt F) S1024x1024 .f32)), { LS3 : List (View.Piece (Elt F) S1x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare y2 ∗ owns (c : Thread nD τ) arg6 fullShare y3 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (arg6.view.loc (c : Thread nD τ) ↦[arg6.view.set]{fullShare} harg6.unread y3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__attn_mean_kernel i arg3 harg3 arg4 harg4 arg5 harg5 arg6 harg6 arg7 harg7 arg8 harg8 arg9 harg9 arg10 harg10) K } := by
  refine ⟨?_, ?_, ?_, ?_, ?_, fun E K => ?run⟩
  case run =>
    simp only [cc0__attn_mean_kernel_eq_skeleton]; unfold cc0__attn_mean_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexact H3
    isplitl [HS0]; · iexists _; iexact HS0
    isplitl [HS1]; · iexists _; iexact HS1
    isplitl [HS2]; · iexists _; iexact HS2
    iexists _; iexact HS3

end Cert.KernelIdeal.Attn

end
-- ==== Proof.KIRunB.lean ====
/-
  The attention kernel's body run once in control case B — a middle key tile: only the streamed update. From the eight buffers at named
  contents the body runs to the same buffers with its stores applied; the lists of stored pieces (last store first)
  are what the run finds.
-/
import proofs.«406335_j42030549959205_3_alg».proof.Proof.KIRunA

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x1x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1x2048 .f32) (harg10 : arg10.IsWhole) (hc0 : ¬cond0_0 i) (hc1 : ¬cond0_1 i) (hc2 : ¬cond0_2 i) (hc3 : ¬cond0_3 i)
    (x0 : Vec F S1x1024x1024 .f32) (x1 : Vec F S1x512x1024 .f32) (y2 : Vec F S1x1x1024 .f32) (y3 : Vec F S1x1x2048 .f32) (xs0 : Vec F S1024x1 .f32) (xs1 : Vec F S1024x1 .f32) (xs2 : Vec F S1024x1024 .f32) (xs3 : Vec F S1x2048 .f32) :
    Σ' (LS0 : List (View.Piece (Elt F) S1024x1 .f32)), Σ' (LS1 : List (View.Piece (Elt F) S1024x1 .f32)), Σ' (LS2 : List (View.Piece (Elt F) S1024x1024 .f32)), { LS3 : List (View.Piece (Elt F) S1x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare y2 ∗ owns (c : Thread nD τ) arg6 fullShare y3 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg3 fullShare x0 ∗ owns (c : Thread nD τ) arg4 fullShare x1 ∗ (arg5.view.loc (c : Thread nD τ) ↦[arg5.view.set]{fullShare} harg5.unread y2) ∗ (arg6.view.loc (c : Thread nD τ) ↦[arg6.view.set]{fullShare} harg6.unread y3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (arg10.view.loc (c : Thread nD τ) ↦[arg10.view.set]{fullShare} arg10.view.writes (Elt F) (harg10.unread xs3) LS3)) -∗ K ⟨⟩))
          ⊢ wp frame (wpE (defs₀ (F := F)) Variants.none c none) E (cc0__attn_mean_kernel i arg3 harg3 arg4 harg4 arg5 harg5 arg6 harg6 arg7 harg7 arg8 harg8 arg9 harg9 arg10 harg10) K } := by
  refine ⟨?_, ?_, ?_, ?_, fun E K => ?run⟩
  case run =>
    simp only [cc0__attn_mean_kernel_eq_skeleton]; unfold cc0__attn_mean_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexact H2
    isplitl [H3]; · iexact H3
    isplitl [HS0]; · iexists _; iexact HS0
    isplitl [HS1]; · iexists _; iexact HS1
    isplitl [HS2]; · iexists _; iexact HS2
    iexact HS3

end Cert.KernelIdeal.Attn

end
-- ==== Proof.KIRunC.lean ====
/-
  The attention kernel's body run once in control case C — the last key tile of the first query tile: the streamed update, then the tile's normalised rows are added to the output row. From the eight buffers at named
  contents the body runs to the same buffers with its stores applied; the lists of stored pieces (last store first)
  are what the run finds.
-/
import proofs.«406335_j42030549959205_3_alg».proof.Proof.KIRunB

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_C (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x1x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1x2048 .f32) (harg10 : arg10.IsWhole) (hc0 : ¬cond0_0 i) (hc1 : ¬cond0_1 i) (hc2 : cond0_2 i) (hc3 : ¬cond0_3 i)
    (x0 : Vec F S1x1024x1024 .f32) (x1 : Vec F S1x512x1024 .f32) (y2 : Vec F S1x1x1024 .f32) (y3 : Vec F S1x1x2048 .f32) (xs0 : Vec F S1024x1 .f32) (xs1 : Vec F S1024x1 .f32) (xs2 : Vec F S1024x1024 .f32) (xs3 : Vec F S1x2048 .f32) :
    Σ' (L2 : List (View.Piece (Elt F) S1x1x1024 .f32)), Σ' (LS0 : List (View.Piece (Elt F) S1024x1 .f32)), Σ' (LS1 : List (View.Piece (Elt F) S1024x1 .f32)), Σ' (LS2 : List (View.Piece (Elt F) S1024x1024 .f32)), { LS3 : List (View.Piece (Elt F) S1x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare y2 ∗ owns (c : Thread nD τ) arg6 fullShare y3 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (arg6.view.loc (c : Thread nD τ) ↦[arg6.view.set]{fullShare} harg6.unread y3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (arg10.view.loc (c : Thread nD τ) ↦[arg10.view.set]{fullShare} arg10.view.writes (Elt F) (harg10.unread xs3) LS3)) -∗ K ⟨⟩))
          ⊢ wp frame (wpE (defs₀ (F := F)) Variants.none c none) E (cc0__attn_mean_kernel i arg3 harg3 arg4 harg4 arg5 harg5 arg6 harg6 arg7 harg7 arg8 harg8 arg9 harg9 arg10 harg10) K } := by
  refine ⟨?_, ?_, ?_, ?_, ?_, fun E K => ?run⟩
  case run =>
    simp only [cc0__attn_mean_kernel_eq_skeleton]; unfold cc0__attn_mean_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexact H3
    isplitl [HS0]; · iexists _; iexact HS0
    isplitl [HS1]; · iexists _; iexact HS1
    isplitl [HS2]; · iexists _; iexact HS2
    iexact HS3

end Cert.KernelIdeal.Attn

end
-- ==== Proof.KIRunD.lean ====
/-
  The attention kernel's body run once in control case D — the first key tile of the second query tile: maximum, normaliser and weighted sum are reset, then the streamed update. From the eight buffers at named
  contents the body runs to the same buffers with its stores applied; the lists of stored pieces (last store first)
  are what the run finds.
-/
import proofs.«406335_j42030549959205_3_alg».proof.Proof.KIRunC

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_D (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x1x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1x2048 .f32) (harg10 : arg10.IsWhole) (hc0 : ¬cond0_0 i) (hc1 : cond0_1 i) (hc2 : ¬cond0_2 i) (hc3 : ¬cond0_3 i)
    (x0 : Vec F S1x1024x1024 .f32) (x1 : Vec F S1x512x1024 .f32) (y2 : Vec F S1x1x1024 .f32) (y3 : Vec F S1x1x2048 .f32) (xs0 : Vec F S1024x1 .f32) (xs1 : Vec F S1024x1 .f32) (xs2 : Vec F S1024x1024 .f32) (xs3 : Vec F S1x2048 .f32) :
    Σ' (LS0 : List (View.Piece (Elt F) S1024x1 .f32)), Σ' (LS1 : List (View.Piece (Elt F) S1024x1 .f32)), Σ' (LS2 : List (View.Piece (Elt F) S1024x1024 .f32)), { LS3 : List (View.Piece (Elt F) S1x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare y2 ∗ owns (c : Thread nD τ) arg6 fullShare y3 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg3 fullShare x0 ∗ owns (c : Thread nD τ) arg4 fullShare x1 ∗ (arg5.view.loc (c : Thread nD τ) ↦[arg5.view.set]{fullShare} harg5.unread y2) ∗ (arg6.view.loc (c : Thread nD τ) ↦[arg6.view.set]{fullShare} harg6.unread y3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (arg10.view.loc (c : Thread nD τ) ↦[arg10.view.set]{fullShare} arg10.view.writes (Elt F) (harg10.unread xs3) LS3)) -∗ K ⟨⟩))
          ⊢ wp frame (wpE (defs₀ (F := F)) Variants.none c none) E (cc0__attn_mean_kernel i arg3 harg3 arg4 harg4 arg5 harg5 arg6 harg6 arg7 harg7 arg8 harg8 arg9 harg9 arg10 harg10) K } := by
  refine ⟨?_, ?_, ?_, ?_, fun E K => ?run⟩
  case run =>
    simp only [cc0__attn_mean_kernel_eq_skeleton]; unfold cc0__attn_mean_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexact H2
    isplitl [H3]; · iexact H3
    isplitl [HS0]; · iexists _; iexact HS0
    isplitl [HS1]; · iexists _; iexact HS1
    isplitl [HS2]; · iexists _; iexact HS2
    iexact HS3

end Cert.KernelIdeal.Attn

end
-- ==== Proof.KIRunE.lean ====
/-
  The attention kernel's body run once in control case E — the last point of a batch: the streamed update, the output row's last contribution, and the scaled column sums. From the eight buffers at named
  contents the body runs to the same buffers with its stores applied; the lists of stored pieces (last store first)
  are what the run finds.
-/
import proofs.«406335_j42030549959205_3_alg».proof.Proof.KIRunD

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_E (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x1x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1x2048 .f32) (harg10 : arg10.IsWhole) (hc0 : ¬cond0_0 i) (hc1 : ¬cond0_1 i) (hc2 : cond0_2 i) (hc3 : cond0_3 i)
    (x0 : Vec F S1x1024x1024 .f32) (x1 : Vec F S1x512x1024 .f32) (y2 : Vec F S1x1x1024 .f32) (y3 : Vec F S1x1x2048 .f32) (xs0 : Vec F S1024x1 .f32) (xs1 : Vec F S1024x1 .f32) (xs2 : Vec F S1024x1024 .f32) (xs3 : Vec F S1x2048 .f32) :
    Σ' (L2 : List (View.Piece (Elt F) S1x1x1024 .f32)), Σ' (L3 : List (View.Piece (Elt F) S1x1x2048 .f32)), Σ' (LS0 : List (View.Piece (Elt F) S1024x1 .f32)), Σ' (LS1 : List (View.Piece (Elt F) S1024x1 .f32)), Σ' (LS2 : List (View.Piece (Elt F) S1024x1024 .f32)), { LS3 : List (View.Piece (Elt F) S1x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare y2 ∗ owns (c : Thread nD τ) arg6 fullShare y3 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (arg10.view.loc (c : Thread nD τ) ↦[arg10.view.set]{fullShare} arg10.view.writes (Elt F) (harg10.unread xs3) LS3)) -∗ K ⟨⟩))
          ⊢ wp frame (wpE (defs₀ (F := F)) Variants.none c none) E (cc0__attn_mean_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__attn_mean_kernel_eq_skeleton]; unfold cc0__attn_mean_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [HS0]; · iexists _; iexact HS0
    isplitl [HS1]; · iexists _; iexact HS1
    isplitl [HS2]; · iexists _; iexact HS2
    iexact HS3

end Cert.KernelIdeal.Attn

end
-- ==== Proof.KIReadBack.lean ====
/-
  Reading a buffer's stores back: a store through the whole shape leaves its payload, whatever was there; a load through
  the whole shape of a whole buffer's contents reads them; and a store through a rectangle lays its payload over what
  the earlier stores left.
-/
import proofs.«406335_j42030549959205_3_alg».proof.Proof.KIShared
import Idealize.ShloMosaic.Lib.Pipeline.Value

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A store through the whole shape, last, leaves its payload whatever was there and whatever was stored before. -/
theorem read_writes_whole {κ : Kind} {sp : Space} {S : Shape} {e : EltTy} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  subst hz; funext y
  have e := View.read_writes_cons_emb v f (Rect.whole S) w L y
  rw [Rect.emb_whole_apply] at e
  exact e

/-- A load through the whole shape of a whole buffer's contents reads them. -/
theorem readAt_unread_whole {κ : Kind} {sp : Space} {S : Shape} {e : EltTy} (mr : Memref sig κ sp S e) (h : mr.IsWhole)
    {off : Fin S.rank → Nat} (hz : off = fun _ => 0) (inb : ∀ a, off a + S.size a ≤ S.size a) (xs : S.Idx → Elt F e) :
    View.readAt (Elt F) mr.view (Rect.unit off S.size inb).toLoadRect (h.unread xs) = xs := by
  rw [View.readAt_eq_ld, h.read_unread, View.ld_unit_zero hz inb]

/-- The last store through a rectangle lays its payload over what the earlier stores left. -/
theorem read_writes_cons_overlay {κ : Kind} {sp : Space} {S : Shape} {e : EltTy} (v : View sig κ sp S e) (f : v.ty.Contents (Elt F))
    (r : Rect S) (w : r.shape.Idx → Elt F e) (L : List (View.Piece (Elt F) S e)) :
    v.read (Elt F) (v.writes (Elt F) f (⟨r, w⟩ :: L)) = r.overlay (v.read (Elt F) (v.writes (Elt F) f L)) w := by
  funext y
  by_cases hy : y ∈ r.set
  · obtain ⟨x, rfl⟩ := r.exists_idx_of_mem hy
    exact (View.read_writes_cons_emb v f r w L x).trans (Rect.overlay_emb r _ w x).symm
  · rw [View.writes_cons, View.read_slice_write_of_not_mem r _ _ _ (by rwa [Rect.map_emb_univ]), Rect.overlay_of_not_mem _ _ _ hy]

theorem hz2 : (![0, 0] : Fin 2 → ℕ) = fun _ => 0 := by funext a; fin_cases a <;> rfl
theorem hz3 : (![0, 0, 0] : Fin 3 → ℕ) = fun _ => 0 := by funext a; fin_cases a <;> rfl

end Cert.KernelIdeal.Attn

end
-- ==== Proof.KIPieces.lean ====
/-
  What the body's stores leave, case by case: the lists of stored pieces each control case's run finds, read through the
  buffers' views, are the components of the carried state's next value (`step`).
-/
import proofs.«406335_j42030549959205_3_alg».proof.Proof.KIRunE
import proofs.«406335_j42030549959205_3_alg».proof.Proof.KIReadBack

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What case A's stores leave in each buffer is the carried state's next value. -/
theorem pieces_A (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x1x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1x2048 .f32) (harg10 : arg10.IsWhole) (hc0 : cond0_0 i) (hc1 : cond0_1 i) (hc2 : ¬cond0_2 i) (hc3 : ¬cond0_3 i) (x0 : Vec F S1x1024x1024 .f32) (x1 : Vec F S1x512x1024 .f32) (y2 : Vec F S1x1x1024 .f32) (y3 : Vec F S1x1x2048 .f32) (xs0 : Vec F S1024x1 .f32) (xs1 : Vec F S1024x1 .f32) (xs2 : Vec F S1024x1024 .f32) (xs3 : Vec F S1x2048 .f32) :
    (∀ f, arg5.view.read (Elt F) (arg5.view.writes (Elt F) f (kernelRun0_A c i arg3 harg3 arg4 harg4 arg5 harg5 arg6 harg6 arg7 harg7 arg8 harg8 arg9 harg9 arg10 harg10 hc0 hc1 hc2 hc3 x0 x1 y2 y3 xs0 xs1 xs2 xs3).1) = (step i x0 x1 ⟨y2, y3, xs0, xs1, xs2, xs3⟩).o)
    ∧ (∀ f, arg7.view.read (Elt F) (arg7.view.writes (Elt F) f (kernelRun0_A c i arg3 harg3 arg4 harg4 arg5 harg5 arg6 harg6 arg7 harg7 arg8 harg8 arg9 harg9 arg10 harg10 hc0 hc1 hc2 hc3 x0 x1 y2 y3 xs0 xs1 xs2 xs3).2.1) = (step i x0 x1 ⟨y2, y3, xs0, xs1, xs2, xs3⟩).m)
    ∧ (∀ f, arg8.view.read (Elt F) (arg8.view.writes (Elt F) f (kernelRun0_A c i arg3 harg3 arg4 harg4 arg5 harg5 arg6 harg6 arg7 harg7 arg8 harg8 arg9 harg9 arg10 harg10 hc0 hc1 hc2 hc3 x0 x1 y2 y3 xs0 xs1 xs2 xs3).2.2.1) = (step i x0 x1 ⟨y2, y3, xs0, xs1, xs2, xs3⟩).l)
    ∧ (∀ f, arg9.view.read (Elt F) (arg9.view.writes (Elt F) f (kernelRun0_A c i arg3 harg3 arg4 harg4 arg5 harg5 arg6 harg6 arg7 harg7 arg8 harg8 arg9 harg9 arg10 harg10 hc0 hc1 hc2 hc3 x0 x1 y2 y3 xs0 xs1 xs2 xs3).2.2.2.1) = (step i x0 x1 ⟨y2, y3, xs0, xs1, xs2, xs3⟩).acc)
    ∧ (∀ f, arg10.view.read (Elt F) (arg10.view.writes (Elt F) f (kernelRun0_A c i arg3 harg3 arg4 harg4 arg5 harg5 arg6 harg6 arg7 harg7 arg8 harg8 arg9 harg9 arg10 harg10 hc0 hc1 hc2 hc3 x0 x1 y2 y3 xs0 xs1 xs2 xs3).2.2.2.2.1) = (step i x0 x1 ⟨y2, y3, xs0, xs1, xs2, xs3⟩).vis)
    ∧ (step i x0 x1 ⟨y2, y3, xs0, xs1, xs2, xs3⟩).vo = y3 := by
  unfold kernelRun0_A; dsimp only; sl_unfold_run_names
  simp only [step, if_pos hc0, if_pos hc1, if_neg hc2, if_neg hc3]
  refine ⟨fun f => ?_, fun f => ?_, fun f => ?_, fun f => ?_, fun f => ?_, ?_⟩
  · rw [read_writes_whole (S := S1x1x1024) _ _ hz3]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1024) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_cons_overlay, read_writes_whole (S := S1x2048) _ _ hz2]
    try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · trivial

/-- What case B's stores leave in each buffer is the carried state's next value. -/
theorem pieces_B (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x1x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1x2048 .f32) (harg10 : arg10.IsWhole) (hc0 : ¬cond0_0 i) (hc1 : ¬cond0_1 i) (hc2 : ¬cond0_2 i) (hc3 : ¬cond0_3 i) (x0 : Vec F S1x1024x1024 .f32) (x1 : Vec F S1x512x1024 .f32) (y2 : Vec F S1x1x1024 .f32) (y3 : Vec F S1x1x2048 .f32) (xs0 : Vec F S1024x1 .f32) (xs1 : Vec F S1024x1 .f32) (xs2 : Vec F S1024x1024 .f32) (xs3 : Vec F S1x2048 .f32) :
    (∀ f, arg7.view.read (Elt F) (arg7.view.writes (Elt F) f (kernelRun0_B c i arg3 harg3 arg4 harg4 arg5 harg5 arg6 harg6 arg7 harg7 arg8 harg8 arg9 harg9 arg10 harg10 hc0 hc1 hc2 hc3 x0 x1 y2 y3 xs0 xs1 xs2 xs3).1) = (step i x0 x1 ⟨y2, y3, xs0, xs1, xs2, xs3⟩).m)
    ∧ (∀ f, arg8.view.read (Elt F) (arg8.view.writes (Elt F) f (kernelRun0_B c i arg3 harg3 arg4 harg4 arg5 harg5 arg6 harg6 arg7 harg7 arg8 harg8 arg9 harg9 arg10 harg10 hc0 hc1 hc2 hc3 x0 x1 y2 y3 xs0 xs1 xs2 xs3).2.1) = (step i x0 x1 ⟨y2, y3, xs0, xs1, xs2, xs3⟩).l)
    ∧ (∀ f, arg9.view.read (Elt F) (arg9.view.writes (Elt F) f (kernelRun0_B c i arg3 harg3 arg4 harg4 arg5 harg5 arg6 harg6 arg7 harg7 arg8 harg8 arg9 harg9 arg10 harg10 hc0 hc1 hc2 hc3 x0 x1 y2 y3 xs0 xs1 xs2 xs3).2.2.1) = (step i x0 x1 ⟨y2, y3, xs0, xs1, xs2, xs3⟩).acc)
    ∧ (arg10.view.read (Elt F) (arg10.view.writes (Elt F) (harg10.unread xs3) (kernelRun0_B c i arg3 harg3 arg4 harg4 arg5 harg5 arg6 harg6 arg7 harg7 arg8 harg8 arg9 harg9 arg10 harg10 hc0 hc1 hc2 hc3 x0 x1 y2 y3 xs0 xs1 xs2 xs3).2.2.2.1) = (step i x0 x1 ⟨y2, y3, xs0, xs1, xs2, xs3⟩).vis)
    ∧ (step i x0 x1 ⟨y2, y3, xs0, xs1, xs2, xs3⟩).o = y2
    ∧ (step i x0 x1 ⟨y2, y3, xs0, xs1, xs2, xs3⟩).vo = y3 := by
  unfold kernelRun0_B; dsimp only; sl_unfold_run_names
  simp only [step, if_neg hc0, if_neg hc1, if_neg hc2, if_neg hc3]
  refine ⟨fun f => ?_, fun f => ?_, fun f => ?_, ?_, ?_, ?_⟩
  · rw [read_writes_whole (S := S1024x1) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1024) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_cons_overlay, View.writes_nil, harg10.read_unread]
    try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · trivial
  · trivial

/-- What case C's stores leave in each buffer is the carried state's next value. -/
theorem pieces_C (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x1x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1x2048 .f32) (harg10 : arg10.IsWhole) (hc0 : ¬cond0_0 i) (hc1 : ¬cond0_1 i) (hc2 : cond0_2 i) (hc3 : ¬cond0_3 i) (x0 : Vec F S1x1024x1024 .f32) (x1 : Vec F S1x512x1024 .f32) (y2 : Vec F S1x1x1024 .f32) (y3 : Vec F S1x1x2048 .f32) (xs0 : Vec F S1024x1 .f32) (xs1 : Vec F S1024x1 .f32) (xs2 : Vec F S1024x1024 .f32) (xs3 : Vec F S1x2048 .f32) :
    (∀ f, arg5.view.read (Elt F) (arg5.view.writes (Elt F) f (kernelRun0_C c i arg3 harg3 arg4 harg4 arg5 harg5 arg6 harg6 arg7 harg7 arg8 harg8 arg9 harg9 arg10 harg10 hc0 hc1 hc2 hc3 x0 x1 y2 y3 xs0 xs1 xs2 xs3).1) = (step i x0 x1 ⟨y2, y3, xs0, xs1, xs2, xs3⟩).o)
    ∧ (∀ f, arg7.view.read (Elt F) (arg7.view.writes (Elt F) f (kernelRun0_C c i arg3 harg3 arg4 harg4 arg5 harg5 arg6 harg6 arg7 harg7 arg8 harg8 arg9 harg9 arg10 harg10 hc0 hc1 hc2 hc3 x0 x1 y2 y3 xs0 xs1 xs2 xs3).2.1) = (step i x0 x1 ⟨y2, y3, xs0, xs1, xs2, xs3⟩).m)
    ∧ (∀ f, arg8.view.read (Elt F) (arg8.view.writes (Elt F) f (kernelRun0_C c i arg3 harg3 arg4 harg4 arg5 harg5 arg6 harg6 arg7 harg7 arg8 harg8 arg9 harg9 arg10 harg10 hc0 hc1 hc2 hc3 x0 x1 y2 y3 xs0 xs1 xs2 xs3).2.2.1) = (step i x0 x1 ⟨y2, y3, xs0, xs1, xs2, xs3⟩).l)
    ∧ (∀ f, arg9.view.read (Elt F) (arg9.view.writes (Elt F) f (kernelRun0_C c i arg3 harg3 arg4 harg4 arg5 harg5 arg6 harg6 arg7 harg7 arg8 harg8 arg9 harg9 arg10 harg10 hc0 hc1 hc2 hc3 x0 x1 y2 y3 xs0 xs1 xs2 xs3).2.2.2.1) = (step i x0 x1 ⟨y2, y3, xs0, xs1, xs2, xs3⟩).acc)
    ∧ (arg10.view.read (Elt F) (arg10.view.writes (Elt F) (harg10.unread xs3) (kernelRun0_C c i arg3 harg3 arg4 harg4 arg5 harg5 arg6 harg6 arg7 harg7 arg8 harg8 arg9 harg9 arg10 harg10 hc0 hc1 hc2 hc3 x0 x1 y2 y3 xs0 xs1 xs2 xs3).2.2.2.2.1) = (step i x0 x1 ⟨y2, y3, xs0, xs1, xs2, xs3⟩).vis)
    ∧ (step i x0 x1 ⟨y2, y3, xs0, xs1, xs2, xs3⟩).vo = y3 := by
  unfold kernelRun0_C; dsimp only; sl_unfold_run_names
  simp only [step, if_neg hc0, if_neg hc1, if_pos hc2, if_neg hc3]
  refine ⟨fun f => ?_, fun f => ?_, fun f => ?_, fun f => ?_, ?_, ?_⟩
  · rw [read_writes_whole (S := S1x1x1024) _ _ hz3]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1024) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_cons_overlay, View.writes_nil, harg10.read_unread]
    try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · trivial

/-- What case D's stores leave in each buffer is the carried state's next value. -/
theorem pieces_D (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x1x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1x2048 .f32) (harg10 : arg10.IsWhole) (hc0 : ¬cond0_0 i) (hc1 : cond0_1 i) (hc2 : ¬cond0_2 i) (hc3 : ¬cond0_3 i) (x0 : Vec F S1x1024x1024 .f32) (x1 : Vec F S1x512x1024 .f32) (y2 : Vec F S1x1x1024 .f32) (y3 : Vec F S1x1x2048 .f32) (xs0 : Vec F S1024x1 .f32) (xs1 : Vec F S1024x1 .f32) (xs2 : Vec F S1024x1024 .f32) (xs3 : Vec F S1x2048 .f32) :
    (∀ f, arg7.view.read (Elt F) (arg7.view.writes (Elt F) f (kernelRun0_D c i arg3 harg3 arg4 harg4 arg5 harg5 arg6 harg6 arg7 harg7 arg8 harg8 arg9 harg9 arg10 harg10 hc0 hc1 hc2 hc3 x0 x1 y2 y3 xs0 xs1 xs2 xs3).1) = (step i x0 x1 ⟨y2, y3, xs0, xs1, xs2, xs3⟩).m)
    ∧ (∀ f, arg8.view.read (Elt F) (arg8.view.writes (Elt F) f (kernelRun0_D c i arg3 harg3 arg4 harg4 arg5 harg5 arg6 harg6 arg7 harg7 arg8 harg8 arg9 harg9 arg10 harg10 hc0 hc1 hc2 hc3 x0 x1 y2 y3 xs0 xs1 xs2 xs3).2.1) = (step i x0 x1 ⟨y2, y3, xs0, xs1, xs2, xs3⟩).l)
    ∧ (∀ f, arg9.view.read (Elt F) (arg9.view.writes (Elt F) f (kernelRun0_D c i arg3 harg3 arg4 harg4 arg5 harg5 arg6 harg6 arg7 harg7 arg8 harg8 arg9 harg9 arg10 harg10 hc0 hc1 hc2 hc3 x0 x1 y2 y3 xs0 xs1 xs2 xs3).2.2.1) = (step i x0 x1 ⟨y2, y3, xs0, xs1, xs2, xs3⟩).acc)
    ∧ (arg10.view.read (Elt F) (arg10.view.writes (Elt F) (harg10.unread xs3) (kernelRun0_D c i arg3 harg3 arg4 harg4 arg5 harg5 arg6 harg6 arg7 harg7 arg8 harg8 arg9 harg9 arg10 harg10 hc0 hc1 hc2 hc3 x0 x1 y2 y3 xs0 xs1 xs2 xs3).2.2.2.1) = (step i x0 x1 ⟨y2, y3, xs0, xs1, xs2, xs3⟩).vis)
    ∧ (step i x0 x1 ⟨y2, y3, xs0, xs1, xs2, xs3⟩).o = y2
    ∧ (step i x0 x1 ⟨y2, y3, xs0, xs1, xs2, xs3⟩).vo = y3 := by
  unfold kernelRun0_D; dsimp only; sl_unfold_run_names
  simp only [step, if_neg hc0, if_pos hc1, if_neg hc2, if_neg hc3]
  refine ⟨fun f => ?_, fun f => ?_, fun f => ?_, ?_, ?_, ?_⟩
  · rw [read_writes_whole (S := S1024x1) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1024) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_cons_overlay, View.writes_nil, harg10.read_unread]
    try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · trivial
  · trivial

/-- What case E's stores leave in each buffer is the carried state's next value. -/
theorem pieces_E (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x1x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1x2048 .f32) (harg10 : arg10.IsWhole) (hc0 : ¬cond0_0 i) (hc1 : ¬cond0_1 i) (hc2 : cond0_2 i) (hc3 : cond0_3 i) (x0 : Vec F S1x1024x1024 .f32) (x1 : Vec F S1x512x1024 .f32) (y2 : Vec F S1x1x1024 .f32) (y3 : Vec F S1x1x2048 .f32) (xs0 : Vec F S1024x1 .f32) (xs1 : Vec F S1024x1 .f32) (xs2 : Vec F S1024x1024 .f32) (xs3 : Vec F S1x2048 .f32) :
    (∀ f, arg5.view.read (Elt F) (arg5.view.writes (Elt F) f (kernelRun0_E c i arg3 harg3 arg4 harg4 arg5 harg5 arg6 harg6 arg7 harg7 arg8 harg8 arg9 harg9 arg10 harg10 hc0 hc1 hc2 hc3 x0 x1 y2 y3 xs0 xs1 xs2 xs3).1) = (step i x0 x1 ⟨y2, y3, xs0, xs1, xs2, xs3⟩).o)
    ∧ (∀ f, arg6.view.read (Elt F) (arg6.view.writes (Elt F) f (kernelRun0_E c i arg3 harg3 arg4 harg4 arg5 harg5 arg6 harg6 arg7 harg7 arg8 harg8 arg9 harg9 arg10 harg10 hc0 hc1 hc2 hc3 x0 x1 y2 y3 xs0 xs1 xs2 xs3).2.1) = (step i x0 x1 ⟨y2, y3, xs0, xs1, xs2, xs3⟩).vo)
    ∧ (∀ f, arg7.view.read (Elt F) (arg7.view.writes (Elt F) f (kernelRun0_E c i arg3 harg3 arg4 harg4 arg5 harg5 arg6 harg6 arg7 harg7 arg8 harg8 arg9 harg9 arg10 harg10 hc0 hc1 hc2 hc3 x0 x1 y2 y3 xs0 xs1 xs2 xs3).2.2.1) = (step i x0 x1 ⟨y2, y3, xs0, xs1, xs2, xs3⟩).m)
    ∧ (∀ f, arg8.view.read (Elt F) (arg8.view.writes (Elt F) f (kernelRun0_E c i arg3 harg3 arg4 harg4 arg5 harg5 arg6 harg6 arg7 harg7 arg8 harg8 arg9 harg9 arg10 harg10 hc0 hc1 hc2 hc3 x0 x1 y2 y3 xs0 xs1 xs2 xs3).2.2.2.1) = (step i x0 x1 ⟨y2, y3, xs0, xs1, xs2, xs3⟩).l)
    ∧ (∀ f, arg9.view.read (Elt F) (arg9.view.writes (Elt F) f (kernelRun0_E c i arg3 harg3 arg4 harg4 arg5 harg5 arg6 harg6 arg7 harg7 arg8 harg8 arg9 harg9 arg10 harg10 hc0 hc1 hc2 hc3 x0 x1 y2 y3 xs0 xs1 xs2 xs3).2.2.2.2.1) = (step i x0 x1 ⟨y2, y3, xs0, xs1, xs2, xs3⟩).acc)
    ∧ (arg10.view.read (Elt F) (arg10.view.writes (Elt F) (harg10.unread xs3) (kernelRun0_E c i arg3 harg3 arg4 harg4 arg5 harg5 arg6 harg6 arg7 harg7 arg8 harg8 arg9 harg9 arg10 harg10 hc0 hc1 hc2 hc3 x0 x1 y2 y3 xs0 xs1 xs2 xs3).2.2.2.2.2.1) = (step i x0 x1 ⟨y2, y3, xs0, xs1, xs2, xs3⟩).vis) := by
  unfold kernelRun0_E; dsimp only; sl_unfold_run_names
  simp only [step, if_neg hc0, if_neg hc1, if_pos hc2, if_pos hc3]
  refine ⟨fun f => ?_, fun f => ?_, fun f => ?_, fun f => ?_, fun f => ?_, ?_⟩
  · rw [read_writes_whole (S := S1x1x1024) _ _ hz3]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1x1x2048) _ _ hz3]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_whole (S := S1024x1024) _ _ hz2]; try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]
  · rw [read_writes_cons_overlay, View.writes_nil, harg10.read_unread]
    try simp only [readAt_unread_whole (S := S1x1024x1024) _ _ hz3, readAt_unread_whole (S := S1x512x1024) _ _ hz3, readAt_unread_whole (S := S1x1x1024) _ _ hz3, readAt_unread_whole (S := S1x1x2048) _ _ hz3, readAt_unread_whole (S := S1024x1) _ _ hz2, readAt_unread_whole (S := S1024x1024) _ _ hz2, readAt_unread_whole (S := S1x2048) _ _ hz2, View.readAt_eq_ld, View.ld_unit_zero (S := S1x2048) hz2, read_writes_cons_overlay, read_writes_whole (S := S1x2048) _ _ hz2, View.writes_nil, harg10.read_unread, View.readCov_cons_toLoadRect]

end Cert.KernelIdeal.Attn

end
-- ==== Proof.KISound.lean ====
/-
  The body's obligation in each of the five control cases: the case's run applies to what the point is handed (the two
  input blocks, the two output buffers, the four scratch buffers at the carried state), and what it hands back, read
  through the case's stored pieces, is the carried state after the point.
-/
import proofs.«406335_j42030549959205_3_alg».proof.Proof.KIObl
import proofs.«406335_j42030549959205_3_alg».proof.Proof.KIPieces

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The body's obligation at a point of case A. -/
theorem sound_A (c : Dev nD) (t : Fin cfg0.N) (h0 : t.val % 8 = 0) (h1 : t.val % 4 = 0) (h2 : ¬t.val % 4 = 3) (h3 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [idle0_2 t]; simp only [h0, h2, decide_true, decide_false, Bool.or_true, Bool.true_or, Bool.or_false, Bool.not_true], after0_2]
  rw [Dat.leavesExact_idle (dats m 0 c) 3 t (by rw [idle0_3 t]; simp only [h3, decide_false, Bool.not_false])
    (by cases hf : (cfg0.win 3).flush t with | false => rfl | true => exact absurd ((flush0_3 t).mp hf) h3)]
  by_cases hz : t.val = 0
  · rw [sAt_first m c t hz, PhiS_castSucc m c t, PhiS_zero m c _ _ hz, PhiA0_eq]
    iintro ⟨⟨⟨⟨%xs0, HS0⟩, ⟨%xs1, HS1⟩, ⟨%xs2, HS2⟩, ⟨%xs3, HS3⟩⟩, Hg⟩, Ho, ⟨%d0, H0⟩, ⟨%d1, H1⟩, ⟨%d2, H2⟩, ⟨%d3, H3⟩⟩
    have hirr := fun (S0 : St F) => step_first (grid0.coords t) (iblk m c 0 t) (iblk m c 1 t) ((hcond0_0 t).mpr h0) ((hcond0_1 t).mpr h1) (fun h => h2 ((hcond0_2 t).mp h)) ⟨((dats m 0 c).before 2 t d2), ((dats m 0 c).before 3 t d3), xs0, xs1, xs2, xs3⟩ S0
    obtain ⟨p2, p7, p8, p9, p10, -⟩ := pieces_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) ((dats m 0 c).before 2 t d2) ((dats m 0 c).before 3 t d3) xs0 xs1 xs2 xs3
    iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) ((dats m 0 c).before 2 t d2) ((dats m 0 c).before 3 t d3) xs0 xs1 xs2 xs3).2.2.2.2.2 Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, ⟨%ef2, H2⟩, H3, ⟨%efs0, HS0⟩, ⟨%efs1, HS1⟩, ⟨%efs2, HS2⟩, ⟨%efs3, HS3⟩⟩
    isplitl [HS0 HS1 HS2 HS3 Hg]
    · isplitl [HS0 HS1 HS2 HS3]
      · isplitl [HS0]
        · unfold owns; iexists _; isplitr
          swap; · iexact HS0
          ipureintro; exact (p7 _).trans (hirr St.junk).2.1
        isplitl [HS1]
        · unfold owns; iexists _; isplitr
          swap; · iexact HS1
          ipureintro; exact (p8 _).trans (hirr St.junk).2.2.1
        isplitl [HS2]
        · unfold owns; iexists _; isplitr
          swap; · iexact HS2
          ipureintro; exact (p9 _).trans (hirr St.junk).2.2.2.1
        unfold owns; iexists _; isplitr
        swap; · iexact HS3
        ipureintro; exact (p10 _).trans (hirr St.junk).2.2.2.2
      iexact Hg
    isplitl [Ho]; · iexact Ho
    isplitl [H0]; · iexact H0
    isplitl [H1]; · iexact H1
    isplitl [H2]
    · unfold owns; iexists _; isplitr
      swap; · iexact H2
      ipureintro; exact (p2 _).trans (hirr St.junk).1
    iexists d3
    unfold owns; iexists _; isplitr
    swap; · iexact H3
    ipureintro; exact (hs0_3 t).read_unread _
  · rw [sAt_pos m c t hz, PhiS_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩⟩
    have hirr := fun (S0 : St F) => step_first (grid0.coords t) (iblk m c 0 t) (iblk m c 1 t) ((hcond0_0 t).mpr h0) ((hcond0_1 t).mpr h1) (fun h => h2 ((hcond0_2 t).mp h)) ⟨((dats m 0 c).before 2 t d2), ((dats m 0 c).before 3 t d3), (sAt m c (t.val - 1)).m, (sAt m c (t.val - 1)).l, (sAt m c (t.val - 1)).acc, (sAt m c (t.val - 1)).vis⟩ S0
    obtain ⟨p2, p7, p8, p9, p10, -⟩ := pieces_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) ((dats m 0 c).before 2 t d2) ((dats m 0 c).before 3 t d3) (sAt m c (t.val - 1)).m (sAt m c (t.val - 1)).l (sAt m c (t.val - 1)).acc (sAt m c (t.val - 1)).vis
    iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) ((dats m 0 c).before 2 t d2) ((dats m 0 c).before 3 t d3) (sAt m c (t.val - 1)).m (sAt m c (t.val - 1)).l (sAt m c (t.val - 1)).acc (sAt m c (t.val - 1)).vis).2.2.2.2.2 Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, ⟨%ef2, H2⟩, H3, ⟨%efs0, HS0⟩, ⟨%efs1, HS1⟩, ⟨%efs2, HS2⟩, ⟨%efs3, HS3⟩⟩
    isplitl [HS0 HS1 HS2 HS3 Hg]
    · isplitl [HS0 HS1 HS2 HS3]
      · isplitl [HS0]
        · unfold owns; iexists _; isplitr
          swap; · iexact HS0
          ipureintro; exact (p7 _).trans (hirr (sAt m c (t.val - 1))).2.1
        isplitl [HS1]
        · unfold owns; iexists _; isplitr
          swap; · iexact HS1
          ipureintro; exact (p8 _).trans (hirr (sAt m c (t.val - 1))).2.2.1
        isplitl [HS2]
        · unfold owns; iexists _; isplitr
          swap; · iexact HS2
          ipureintro; exact (p9 _).trans (hirr (sAt m c (t.val - 1))).2.2.2.1
        unfold owns; iexists _; isplitr
        swap; · iexact HS3
        ipureintro; exact (p10 _).trans (hirr (sAt m c (t.val - 1))).2.2.2.2
      iexact Hg
    isplitl [Ho]; · iexact Ho
    isplitl [H0]; · iexact H0
    isplitl [H1]; · iexact H1
    isplitl [H2]
    · unfold owns; iexists _; isplitr
      swap; · iexact H2
      ipureintro; exact (p2 _).trans (hirr (sAt m c (t.val - 1))).1
    iexists d3
    unfold owns; iexists _; isplitr
    swap; · iexact H3
    ipureintro; exact (hs0_3 t).read_unread _

set_option maxHeartbeats 4000000 in
/-- The body's obligation at a point of case B. -/
theorem sound_B (c : Dev nD) (t : Fin cfg0.N) (h0 : ¬t.val % 8 = 0) (h1 : ¬t.val % 4 = 0) (h2 : ¬t.val % 4 = 3) (h3 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [Dat.leavesExact_idle (dats m 0 c) 2 t (by rw [idle0_2 t]; simp only [h0, h2, decide_false, Bool.or_false, Bool.not_false])
    (by cases hf : (cfg0.win 2).flush t with | false => rfl | true => exact absurd ((flush0_2 t).mp hf) h3)]
  rw [Dat.leavesExact_idle (dats m 0 c) 3 t (by rw [idle0_3 t]; simp only [h3, decide_false, Bool.not_false])
    (by cases hf : (cfg0.win 3).flush t with | false => rfl | true => exact absurd ((flush0_3 t).mp hf) h3)]
  have hz : t.val ≠ 0 := by omega
  rw [sAt_pos m c t hz, PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩⟩
  obtain ⟨p7, p8, p9, p10, -, -⟩ := pieces_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) ((dats m 0 c).before 2 t d2) ((dats m 0 c).before 3 t d3) (sAt m c (t.val - 1)).m (sAt m c (t.val - 1)).l (sAt m c (t.val - 1)).acc (sAt m c (t.val - 1)).vis
  iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) ((dats m 0 c).before 2 t d2) ((dats m 0 c).before 3 t d3) (sAt m c (t.val - 1)).m (sAt m c (t.val - 1)).l (sAt m c (t.val - 1)).acc (sAt m c (t.val - 1)).vis).2.2.2.2 Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, H3, ⟨%efs0, HS0⟩, ⟨%efs1, HS1⟩, ⟨%efs2, HS2⟩, HS3⟩
  isplitl [HS0 HS1 HS2 HS3 Hg]
  · isplitl [HS0 HS1 HS2 HS3]
    · isplitl [HS0]
      · unfold owns; iexists _; isplitr
        swap; · iexact HS0
        ipureintro; exact p7 _
      isplitl [HS1]
      · unfold owns; iexists _; isplitr
        swap; · iexact HS1
        ipureintro; exact p8 _
      isplitl [HS2]
      · unfold owns; iexists _; isplitr
        swap; · iexact HS2
        ipureintro; exact p9 _
      unfold owns; iexists _; isplitr
      swap; · iexact HS3
      ipureintro; exact p10
    iexact Hg
  isplitl [Ho]; · iexact Ho
  isplitl [H0]; · iexact H0
  isplitl [H1]; · iexact H1
  isplitl [H2]
  · iexists d2
    unfold owns; iexists _; isplitr
    swap; · iexact H2
    ipureintro; exact (hs0_2 t).read_unread _
  iexists d3
  unfold owns; iexists _; isplitr
  swap; · iexact H3
  ipureintro; exact (hs0_3 t).read_unread _

set_option maxHeartbeats 4000000 in
/-- The body's obligation at a point of case C. -/
theorem sound_C (c : Dev nD) (t : Fin cfg0.N) (h0 : ¬t.val % 8 = 0) (h1 : ¬t.val % 4 = 0) (h2 : t.val % 4 = 3) (h3 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [idle0_2 t]; simp only [h0, h2, decide_true, decide_false, Bool.or_true, Bool.true_or, Bool.or_false, Bool.not_true], after0_2]
  rw [Dat.leavesExact_idle (dats m 0 c) 3 t (by rw [idle0_3 t]; simp only [h3, decide_false, Bool.not_false])
    (by cases hf : (cfg0.win 3).flush t with | false => rfl | true => exact absurd ((flush0_3 t).mp hf) h3)]
  simp only [before0_2 m c t.val t.isLt h0]
  have hz : t.val ≠ 0 := by omega
  rw [sAt_pos m c t hz, PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩⟩
  obtain ⟨p2, p7, p8, p9, p10, -⟩ := pieces_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (sAt m c (t.val - 1)).o ((dats m 0 c).before 3 t d3) (sAt m c (t.val - 1)).m (sAt m c (t.val - 1)).l (sAt m c (t.val - 1)).acc (sAt m c (t.val - 1)).vis
  iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (sAt m c (t.val - 1)).o ((dats m 0 c).before 3 t d3) (sAt m c (t.val - 1)).m (sAt m c (t.val - 1)).l (sAt m c (t.val - 1)).acc (sAt m c (t.val - 1)).vis).2.2.2.2.2 Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, ⟨%ef2, H2⟩, H3, ⟨%efs0, HS0⟩, ⟨%efs1, HS1⟩, ⟨%efs2, HS2⟩, HS3⟩
  isplitl [HS0 HS1 HS2 HS3 Hg]
  · isplitl [HS0 HS1 HS2 HS3]
    · isplitl [HS0]
      · unfold owns; iexists _; isplitr
        swap; · iexact HS0
        ipureintro; exact p7 _
      isplitl [HS1]
      · unfold owns; iexists _; isplitr
        swap; · iexact HS1
        ipureintro; exact p8 _
      isplitl [HS2]
      · unfold owns; iexists _; isplitr
        swap; · iexact HS2
        ipureintro; exact p9 _
      unfold owns; iexists _; isplitr
      swap; · iexact HS3
      ipureintro; exact p10
    iexact Hg
  isplitl [Ho]; · iexact Ho
  isplitl [H0]; · iexact H0
  isplitl [H1]; · iexact H1
  isplitl [H2]
  · unfold owns; iexists _; isplitr
    swap; · iexact H2
    ipureintro; exact p2 _
  iexists d3
  unfold owns; iexists _; isplitr
  swap; · iexact H3
  ipureintro; exact (hs0_3 t).read_unread _

set_option maxHeartbeats 4000000 in
/-- The body's obligation at a point of case D. -/
theorem sound_D (c : Dev nD) (t : Fin cfg0.N) (h0 : ¬t.val % 8 = 0) (h1 : t.val % 4 = 0) (h2 : ¬t.val % 4 = 3) (h3 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [Dat.leavesExact_idle (dats m 0 c) 2 t (by rw [idle0_2 t]; simp only [h0, h2, decide_false, Bool.or_false, Bool.not_false])
    (by cases hf : (cfg0.win 2).flush t with | false => rfl | true => exact absurd ((flush0_2 t).mp hf) h3)]
  rw [Dat.leavesExact_idle (dats m 0 c) 3 t (by rw [idle0_3 t]; simp only [h3, decide_false, Bool.not_false])
    (by cases hf : (cfg0.win 3).flush t with | false => rfl | true => exact absurd ((flush0_3 t).mp hf) h3)]
  have hz : t.val ≠ 0 := by omega
  rw [sAt_pos m c t hz, PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩⟩
  obtain ⟨p7, p8, p9, p10, -, -⟩ := pieces_D c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) ((dats m 0 c).before 2 t d2) ((dats m 0 c).before 3 t d3) (sAt m c (t.val - 1)).m (sAt m c (t.val - 1)).l (sAt m c (t.val - 1)).acc (sAt m c (t.val - 1)).vis
  iapply ((kernelRun0_D c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) ((dats m 0 c).before 2 t d2) ((dats m 0 c).before 3 t d3) (sAt m c (t.val - 1)).m (sAt m c (t.val - 1)).l (sAt m c (t.val - 1)).acc (sAt m c (t.val - 1)).vis).2.2.2.2 Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, H3, ⟨%efs0, HS0⟩, ⟨%efs1, HS1⟩, ⟨%efs2, HS2⟩, HS3⟩
  isplitl [HS0 HS1 HS2 HS3 Hg]
  · isplitl [HS0 HS1 HS2 HS3]
    · isplitl [HS0]
      · unfold owns; iexists _; isplitr
        swap; · iexact HS0
        ipureintro; exact p7 _
      isplitl [HS1]
      · unfold owns; iexists _; isplitr
        swap; · iexact HS1
        ipureintro; exact p8 _
      isplitl [HS2]
      · unfold owns; iexists _; isplitr
        swap; · iexact HS2
        ipureintro; exact p9 _
      unfold owns; iexists _; isplitr
      swap; · iexact HS3
      ipureintro; exact p10
    iexact Hg
  isplitl [Ho]; · iexact Ho
  isplitl [H0]; · iexact H0
  isplitl [H1]; · iexact H1
  isplitl [H2]
  · iexists d2
    unfold owns; iexists _; isplitr
    swap; · iexact H2
    ipureintro; exact (hs0_2 t).read_unread _
  iexists d3
  unfold owns; iexists _; isplitr
  swap; · iexact H3
  ipureintro; exact (hs0_3 t).read_unread _

set_option maxHeartbeats 4000000 in
/-- The body's obligation at a point of case E. -/
theorem sound_E (c : Dev nD) (t : Fin cfg0.N) (h0 : ¬t.val % 8 = 0) (h1 : ¬t.val % 4 = 0) (h2 : t.val % 4 = 3) (h3 : t.val % 8 = 7) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [idle0_2 t]; simp only [h0, h2, decide_true, decide_false, Bool.or_true, Bool.true_or, Bool.or_false, Bool.not_true], after0_2]
  rw [show (dats m 0 c).leavesExact 3 t = owns (c : Thread nD τ) (ms0_3 t) fullShare ((dats m 0 c).after 3 t) from by
    unfold Dat.leavesExact; rw [idle0_3 t]; simp only [h3, decide_true, Bool.not_true], after0_3]
  simp only [before0_2 m c t.val t.isLt h0]
  have hz : t.val ≠ 0 := by omega
  rw [sAt_pos m c t hz, PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩⟩
  obtain ⟨p2, p3, p7, p8, p9, p10⟩ := pieces_E c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (sAt m c (t.val - 1)).o ((dats m 0 c).before 3 t d3) (sAt m c (t.val - 1)).m (sAt m c (t.val - 1)).l (sAt m c (t.val - 1)).acc (sAt m c (t.val - 1)).vis
  iapply ((kernelRun0_E c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (sAt m c (t.val - 1)).o ((dats m 0 c).before 3 t d3) (sAt m c (t.val - 1)).m (sAt m c (t.val - 1)).l (sAt m c (t.val - 1)).acc (sAt m c (t.val - 1)).vis).2.2.2.2.2.2 Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, ⟨%ef2, H2⟩, ⟨%ef3, H3⟩, ⟨%efs0, HS0⟩, ⟨%efs1, HS1⟩, ⟨%efs2, HS2⟩, HS3⟩
  isplitl [HS0 HS1 HS2 HS3 Hg]
  · isplitl [HS0 HS1 HS2 HS3]
    · isplitl [HS0]
      · unfold owns; iexists _; isplitr
        swap; · iexact HS0
        ipureintro; exact p7 _
      isplitl [HS1]
      · unfold owns; iexists _; isplitr
        swap; · iexact HS1
        ipureintro; exact p8 _
      isplitl [HS2]
      · unfold owns; iexists _; isplitr
        swap; · iexact HS2
        ipureintro; exact p9 _
      unfold owns; iexists _; isplitr
      swap; · iexact HS3
      ipureintro; exact p10
    iexact Hg
  isplitl [Ho]; · iexact Ho
  isplitl [H0]; · iexact H0
  isplitl [H1]; · iexact H1
  isplitl [H2]
  · unfold owns; iexists _; isplitr
    swap; · iexact H2
    ipureintro; exact p2 _
  unfold owns; iexists _; isplitr
  swap; · iexact H3
  ipureintro; exact (p3 _).trans (step_vo_of_last (grid0.coords t) (iblk m c 0 t) (iblk m c 1 t) ((hcond0_3 t).mpr h3) (sAt m c (t.val - 1)) _)

end Cert.KernelIdeal.Attn

end
-- ==== Proof.KIBody.lean ====
/-
  The attention kernel's launch: the body's obligation at every grid point — one of five control cases, each the
  case's run with its found stores read back as the carried state's next value —, and the run of the whole program:
  every execution terminates, the two output arrays hold the blocks written back at each batch's last point, and the
  two reshapes after the region read them.
-/
import proofs.«406335_j42030549959205_3_alg».proof.Proof.KISound

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

set_option maxHeartbeats 1000000 in
/-- The body's obligation at any point: the closed forms of the four conditions say which of the five cases it is. -/
theorem sound_body (c : Dev nD) (t : Fin cfg0.N) :
    bodyPre m c t ⊢ wp frame (wpE (defs₀ (F := F)) Variants.none c none) Set.univ (bodyAt0 t) (fun _ => bodyPost m c t) := by
  have hN : t.val < 256 := lt_of_lt_of_eq t.isLt (show cfg0.N = 256 from N_0)
  by_cases h0 : t.val % 8 = 0
  · exact sound_A m c t h0 (by omega) (by omega) (by omega)
  · by_cases h1 : t.val % 4 = 0
    · exact sound_D m c t h0 h1 (by omega) (by omega)
    · by_cases h2 : t.val % 4 = 3
      · by_cases h3 : t.val % 8 = 7
        · exact sound_E m c t h0 h1 h2 h3
        · exact sound_C m c t h0 h1 h2 h3
      · exact sound_B m c t h0 h1 h2 (by omega)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
set_option maxHeartbeats 4000000 in
/-- Every weakly fair execution of the program terminates, with every array of the pipeline at what the proof data
    say and every other buffer as the two reshapes after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Attn

end
-- ==== Proof.Spec.lean ====
/-
  The two results as functions of the two input arrays, over the reals.

  With y (queries) and x (keys and values) of shape 32 × 2048 × 1024:
    score b r k = (∑ d, y[b,r,d] · x[b,k,d]) / 32                      (32 = √1024)
    first result  [b,k] = (∑ r, score b r k) / 2048
    second result [b,d] = (∑ r, ∑ k, softmax_k(score b r ·) k · x[b,k,d]) / 2048
  and the same read on arrays of extended reals that hold real numbers (`Gvis`, `Gout`).
-/
import Idealize.ShloMosaic.PureOps.Ideal
import Idealize.ShloMosaic.Lib.ValueIdx
import Mathlib.Analysis.SpecialFunctions.Exp

noncomputable section

open scoped BigOperators

namespace Cert.Spec

open Idealize.ShloMosaic Idealize.ShloMosaic.ValueIdx

abbrev SIn : Shape := ⟨3, ![32, 2048, 1024]⟩
abbrev SVis : Shape := ⟨2, ![32, 2048]⟩
abbrev SOut : Shape := ⟨2, ![32, 1024]⟩

/-- The scaled score of query row `r` against key row `k` in batch `b`. -/
def score (y x : SIn.Idx → ℝ) (b : Fin 32) (r k : Fin 2048) : ℝ :=
  (∑ d : Fin 1024, y (ix3 b r d) * x (ix3 b k d)) / 32

/-- The mean over the query rows of the scaled scores. -/
def visR (y x : SIn.Idx → ℝ) (b : Fin 32) (k : Fin 2048) : ℝ :=
  (∑ r : Fin 2048, score y x b r k) / 2048

/-- The softmax weight of key row `k` for query row `r`. -/
def wt (y x : SIn.Idx → ℝ) (b : Fin 32) (r k : Fin 2048) : ℝ :=
  Real.exp (score y x b r k) / ∑ k' : Fin 2048, Real.exp (score y x b r k')

/-- The mean over the query rows of the softmax-weighted sums of the value rows. -/
def outR (y x : SIn.Idx → ℝ) (b : Fin 32) (d : Fin 1024) : ℝ :=
  (∑ r : Fin 2048, ∑ k : Fin 2048, wt y x b r k * x (ix3 b k d)) / 2048

/-- The real numbers an array of extended reals holds (where it holds them). -/
def re (A : SIn.Idx → EReal) : SIn.Idx → ℝ := fun j => (A j).toReal

/-- An array of extended reals that holds only real numbers. -/
def IsReal (A : SIn.Idx → EReal) : Prop := ∀ j, A j = ((A j).toReal : EReal)

/-- The first result of query array `Y` and key array `X`. -/
def Gvis (Y X : SIn.Idx → EReal) : SVis.Idx → EReal := fun i => ((visR (re Y) (re X) (i 0) (i 1) : ℝ) : EReal)

/-- The second result. -/
def Gout (Y X : SIn.Idx → EReal) : SOut.Idx → EReal := fun i => ((outR (re Y) (re X) (i 0) (i 1) : ℝ) : EReal)

end Cert.Spec

end
-- ==== Proof.KIReal.lean ====
/-
  The carried state of the attention kernel over the real numbers: when every buffer holds real numbers the step
  of `KIState` is the coercion of the step below, which is written with the textbook operations — dot products
  scaled by 1/32, column sums, a running row maximum, and the streamed-softmax rescaling
      l' = exp(m - m')·l + ∑_k exp(s_k - m'),   acc' = exp(m - m')·acc + ∑_k exp(s_k - m')·x_k.
-/
import proofs.«406335_j42030549959205_3_alg».proof.Proof.KIState
import proofs.«406335_j42030549959205_3_alg».proof.Proof.Spec

noncomputable section

open scoped BigOperators

namespace Cert.KernelIdeal.Attn

open Idealize.ShloMosaic Idealize.ShloMosaic.ValueIdx Cert.KernelIdeal Cert.KernelIdeal.Gen

/-- The six carried buffers holding real numbers: output row (by column), scaled column sums (by key column), running
    maximum and normaliser (by query row of the tile), running weighted sum (by query row and column), running column
    sums (by key column). -/
structure StR where
  o : Fin 1024 → ℝ
  vo : Fin 2048 → ℝ
  m : Fin 1024 → ℝ
  l : Fin 1024 → ℝ
  acc : Fin 1024 → Fin 1024 → ℝ
  vis : Fin 2048 → ℝ

/-- The same contents as extended reals in the buffers' shapes. -/
def StR.toSt (s : StR) : St Ideal :=
  ⟨fun j => ((s.o (j 2) : ℝ) : EReal), fun j => ((s.vo (j 2) : ℝ) : EReal), fun j => ((s.m (j 0) : ℝ) : EReal),
   fun j => ((s.l (j 0) : ℝ) : EReal), fun j => ((s.acc (j 0) (j 1) : ℝ) : EReal), fun j => ((s.vis (j 1) : ℝ) : EReal)⟩

/-- A query block and a key block of real numbers as the blocks the kernel loads. -/
def qE (q : Fin 1024 → Fin 1024 → ℝ) : Vec Ideal S1x1024x1024 .f32 := fun j => ((q (j 1) (j 2) : ℝ) : EReal)
def xE (x : Fin 512 → Fin 1024 → ℝ) : Vec Ideal S1x512x1024 .f32 := fun j => ((x (j 1) (j 2) : ℝ) : EReal)

/-- The score tile: query row `r` against key row `k`, scaled by 1/32. -/
def scoreT (q : Fin 1024 → Fin 1024 → ℝ) (x : Fin 512 → Fin 1024 → ℝ) (r : Fin 1024) (k : Fin 512) : ℝ :=
  (∑ d : Fin 1024, q r d * x k d) * (1 / 32)

/-- The finite number the running maximum is reset to. -/
def negBig : ℝ := (Ideal.ofBits .f32 0xFF333332#32).toReal

/-- One grid point over the reals. -/
def stepR (i : grid0.Coords) (q : Fin 1024 → Fin 1024 → ℝ) (x : Fin 512 → Fin 1024 → ℝ) (s : StR) : StR :=
  let o0 : Fin 1024 → ℝ := if k0_cond1 i = 1#1 then fun _ => 0 else s.o
  let vis0 : Fin 2048 → ℝ := if k0_cond1 i = 1#1 then fun _ => 0 else s.vis
  let m0 : Fin 1024 → ℝ := if firstKey i then fun _ => negBig else s.m
  let l0 : Fin 1024 → ℝ := if firstKey i then fun _ => 0 else s.l
  let acc0 : Fin 1024 → Fin 1024 → ℝ := if firstKey i then fun _ _ => 0 else s.acc
  let sc : Fin 1024 → Fin 512 → ℝ := scoreT q x
  let vis1 : Fin 2048 → ℝ := fun k =>
    if k.val / 512 = (i 2).val then vis0 k + ∑ r : Fin 1024, sc r ⟨k.val % 512, Nat.mod_lt _ (by norm_num)⟩ else vis0 k
  let m1 : Fin 1024 → ℝ := fun r => max (m0 r) (Finset.univ.sup' Finset.univ_nonempty (sc r))
  let l1 : Fin 1024 → ℝ := fun r => Real.exp (m0 r - m1 r) * l0 r + ∑ k : Fin 512, Real.exp (sc r k - m1 r)
  let acc1 : Fin 1024 → Fin 1024 → ℝ := fun r d =>
    Real.exp (m0 r - m1 r) * acc0 r d + ∑ k : Fin 512, Real.exp (sc r k - m1 r) * x k d
  let o1 : Fin 1024 → ℝ :=
    if k0_cond3 i = 1#1 then fun d => o0 d + (∑ r : Fin 1024, acc1 r d * (1 / l1 r)) * (1 / 2048) else o0
  let vo1 : Fin 2048 → ℝ := if k0_cond4 i = 1#1 then fun k => vis1 k * (1 / 2048) else s.vo
  ⟨o1, vo1, m1, l1, acc1, vis1⟩

/-- The real state after point `n` from the state `s0` before point 0. -/
def stAtR (s0 : StR) (I : ℕ → grid0.Coords) (Q : ℕ → Fin 1024 → Fin 1024 → ℝ) (X : ℕ → Fin 512 → Fin 1024 → ℝ) : ℕ → StR
  | 0 => stepR (I 0) (Q 0) (X 0) s0
  | n + 1 => stepR (I (n + 1)) (Q (n + 1)) (X (n + 1)) (stAtR s0 I Q X n)

/-! ## The grid point `n` (batch `n / 8`, query tile `n / 4 % 2`, key tile `n % 4`) and its blocks of two arrays -/

/-- The batch of point `n`. -/
def bat (n : ℕ) : Fin 32 := ⟨n / 8 % 32, Nat.mod_lt _ (by norm_num)⟩
/-- The global query row of row `r` of point `n`'s query block. -/
def qrow (n : ℕ) (r : Fin 1024) : Fin 2048 := ⟨1024 * (n / 4 % 2) + r.val, by have := r.isLt; omega⟩
/-- The global key row of row `k` of point `n`'s key block. -/
def krow (n : ℕ) (k : Fin 512) : Fin 2048 := ⟨512 * (n % 4) + k.val, by have := k.isLt; omega⟩
/-- The grid coordinates of point `n` (taken modulo the 256 points). -/
def ptC (n : ℕ) : grid0.Coords := grid0.coords ⟨n % 256, Nat.mod_lt _ (by norm_num)⟩
/-- Point `n`'s query block of the query array `y`, and its key block of the key array `x`. -/
def QR (y : Cert.Spec.SIn.Idx → ℝ) (n : ℕ) : Fin 1024 → Fin 1024 → ℝ := fun r d => y (ix3 (bat n) (qrow n r) d)
def XR (x : Cert.Spec.SIn.Idx → ℝ) (n : ℕ) : Fin 512 → Fin 1024 → ℝ := fun k d => x (ix3 (bat n) (krow n k) d)

end Cert.KernelIdeal.Attn

end
-- ==== Proof.PayLayout.lean ====
/-
  Shape casts and broadcasts that keep a reduced axis as a unit axis, read at an index given by coordinates: a
  vector viewed as a column, a column repeated along the rows' length.
-/
import Idealize.ShloMosaic.Lib.ValueLayout

namespace Cert.PayLayout

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.PayLayout
-- ==== Proof.PayMat.lean ====
/-
  The kernel's two matrix products at the ideal instance, read at an index: into a zero accumulator each is the
  plain sum of products over its one contracted axis — query row against key row (both operands contracted along
  their second axis), and weight row against the key block's column (the left operand contracted along its second
  axis, the right along its first).
-/
import proofs.«406335_j42030549959205_3_alg».proof.Proof.Gen.KernelIdeal
import Idealize.ShloMosaic.Lib.ValueIdx
import Idealize.ShloMosaic.PureOps.Ideal.Laws

noncomputable section

open scoped BigOperators

namespace Cert.KernelIdeal.Attn

open Idealize.ShloMosaic Idealize.ShloMosaic.ValueIdx Cert.KernelIdeal Cert.KernelIdeal.Gen

/-! ## Rows against rows: result (r, k) = ∑_d lhs (r, d) · rhs (k, d) -/

theorem lhs_qk_0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs_qk_1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
theorem rhs_qk_0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs_qk_1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-- The product of the query block and the key block into zero, at (r, k): the dot product of row r and row k. -/
theorem matmul_qk_apply (A : FVec Ideal S1024x1024 .bf16) (B : FVec Ideal S512x1024 .bf16) (r : Fin 1024) (k : Fin 512) :
    matmul dot_S1024x1024_S512x1024_S1024x512_1_1_0_0_n_n none A B (constant (F := Ideal) S1024x512 .f32 0x00000000#32) (ix2 r k)
      = ∑ d : Fin 1024, A (ix2 r d) * B (ix2 k d) := by
  show FloatOps.matmul dot_S1024x1024_S512x1024_S1024x512_1_1_0_0_n_n none A B (constant (F := Ideal) S1024x512 .f32 0x00000000#32) (ix2 r k) = _
  rw [Ideal.matmul_constant_zero_apply, ← Equiv.sum_comp (contrEquiv1 dot_S1024x1024_S512x1024_S1024x512_1_1_0_0_n_n 1024 rfl rfl).symm]
  refine Finset.sum_congr rfl fun d _ => ?_
  have hk := contrEquiv1_symm_val dot_S1024x1024_S512x1024_S1024x512_1_1_0_0_n_n 1024 rfl rfl d
  have el : dot_S1024x1024_S512x1024_S1024x512_1_1_0_0_n_n.lhsIdx (ix2 r k) ((contrEquiv1 dot_S1024x1024_S512x1024_S1024x512_1_1_0_0_n_n 1024 rfl rfl).symm d) = ix2 r d := funext fun a => Fin.ext (by
    match a with
    | ⟨0, _⟩ => exact lhs_qk_0 _ _
    | ⟨1, _⟩ => exact (lhs_qk_1 _ _).trans hk)
  have er : dot_S1024x1024_S512x1024_S1024x512_1_1_0_0_n_n.rhsIdx (ix2 r k) ((contrEquiv1 dot_S1024x1024_S512x1024_S1024x512_1_1_0_0_n_n 1024 rfl rfl).symm d) = ix2 k d := funext fun a => Fin.ext (by
    match a with
    | ⟨0, _⟩ => exact rhs_qk_0 _ _
    | ⟨1, _⟩ => exact (rhs_qk_1 _ _).trans hk)
  rw [el, er]

/-! ## Rows against columns: result (r, d) = ∑_k lhs (r, k) · rhs (k, d) -/

theorem lhs_pv_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_pv_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_pv_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_pv_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product of the weight tile and the key block into zero, at (r, d): the weights of row r against column d. -/
theorem matmul_pv_apply (A : FVec Ideal S1024x512 .bf16) (B : FVec Ideal S512x1024 .bf16) (r : Fin 1024) (d : Fin 1024) :
    matmul dot_S1024x512_S512x1024_S1024x1024_1_0_0_1_n_n none A B (constant (F := Ideal) S1024x1024 .f32 0x00000000#32) (ix2 r d)
      = ∑ k : Fin 512, A (ix2 r k) * B (ix2 k d) := by
  show FloatOps.matmul dot_S1024x512_S512x1024_S1024x1024_1_0_0_1_n_n none A B (constant (F := Ideal) S1024x1024 .f32 0x00000000#32) (ix2 r d) = _
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 r d) ((contrEquiv1 dot_S1024x512_S512x1024_S1024x1024_1_0_0_1_n_n 512 rfl rfl).symm k) = ix2 r k := funext fun a => Fin.ext (by
    match a with
    | ⟨0, _⟩ => exact lhs_pv_0 _ _
    | ⟨1, _⟩ => exact (lhs_pv_1 _ _).trans hk)
  have er : dot_S1024x512_S512x1024_S1024x1024_1_0_0_1_n_n.rhsIdx (ix2 r d) ((contrEquiv1 dot_S1024x512_S512x1024_S1024x1024_1_0_0_1_n_n 512 rfl rfl).symm k) = ix2 k d := funext fun a => Fin.ext (by
    match a with
    | ⟨0, _⟩ => exact (rhs_pv_0 _ _).trans hk
    | ⟨1, _⟩ => exact rhs_pv_1 _ _)
  rw [el, er]

end Cert.KernelIdeal.Attn

end
-- ==== Proof.CoeReal.lean ====
/-
  Real numbers inside the extended reals. The coercion of the reals into the extended reals commutes with finite
  sums, and each operation of the ideal float values, applied to coerced reals, is the coerced real operation:
  sums, differences, products, quotients by a nonzero real, the exponential, the maximum, the square root of a
  nonnegative real. The maximum over a nonempty finite family of reals, folded from -∞, is a real. The bit patterns
  of 1024, 2048, 0 and -∞ denote those values.
-/
import Idealize.ShloMosaic.PureOps.Ideal
import Idealize.ShloMosaic.PureOps.Ideal.Laws
import Idealize.ShloMosaic.Lib.ValueIdx
import Mathlib.Data.EReal.Inv
import Mathlib.Data.Finset.Fold
import Mathlib.Analysis.SpecialFunctions.Exp
import Mathlib.Analysis.SpecialFunctions.Pow.Real

noncomputable section

open scoped BigOperators

namespace Cert.CoeReal

open Idealize.ShloMosaic

/-! ## Finite sums -/

/-- The coercion commutes with a finite sum. -/
theorem coe_sum {ι : Type*} (s : Finset ι) (f : ι → ℝ) :
    (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

/-- A finite sum whose terms are coerced reals is the coerced sum. -/
theorem sum_eq_coe {ι : Type*} (s : Finset ι) (g : ι → EReal) (f : ι → ℝ) (h : ∀ i ∈ s, g i = ((f i : ℝ) : EReal)) :
    (∑ i ∈ s, g i) = ((∑ i ∈ s, f i : ℝ) : EReal) := by
  rw [Finset.sum_congr rfl h, coe_sum]

/-! ## The maximum -/

/-- The coercion commutes with the maximum of two reals. -/
theorem coe_max (a b : ℝ) : max (a : EReal) (b : EReal) = ((max a b : ℝ) : EReal) :=
  (EReal.coe_strictMono.monotone.map_max).symm

/-- The maximum with -∞ on the left is the other operand. -/
theorem max_bot_left (x : EReal) : max (⊥ : EReal) x = x := max_eq_right bot_le

/-- The maximum over a nonempty finite family of reals, folded from -∞, is a real number. -/
theorem fold_max_bot_coe {ι : Type*} (s : Finset ι) (hs : s.Nonempty) (f : ι → ℝ) :
    ∃ M : ℝ, s.fold max (⊥ : EReal) (fun k => ((f k : ℝ) : EReal)) = (M : EReal) := by
  obtain ⟨a, ha⟩ := hs
  refine ⟨(s.fold max (⊥ : EReal) (fun k => ((f k : ℝ) : EReal))).toReal, (EReal.coe_toReal ?_ ?_).symm⟩
  · exact ne_of_lt ((Finset.fold_max_lt _).2 ⟨bot_lt_top, fun x _ => EReal.coe_lt_top _⟩)
  · have h : ((f a : ℝ) : EReal) ≤ s.fold max (⊥ : EReal) (fun k => ((f k : ℝ) : EReal)) :=
      (Finset.le_fold_max _).2 (Or.inr ⟨a, ha, le_rfl⟩)
    exact ne_of_gt (lt_of_lt_of_le (EReal.bot_lt_coe _) h)

/-! ## The scalar operations on coerced reals -/

section Scalar
variable {φ : FTy}

theorem addf_coe (a b : ℝ) :
    FloatOps.addf (F := Ideal) (φ := φ) ((a : ℝ) : EReal) ((b : ℝ) : EReal) = ((a + b : ℝ) : EReal) :=
  (EReal.coe_add a b).symm

theorem subf_coe (a b : ℝ) :
    FloatOps.subf (F := Ideal) (φ := φ) ((a : ℝ) : EReal) ((b : ℝ) : EReal) = ((a - b : ℝ) : EReal) :=
  (EReal.coe_sub a b).symm

theorem mulf_coe (a b : ℝ) :
    FloatOps.mulf (F := Ideal) (φ := φ) ((a : ℝ) : EReal) ((b : ℝ) : EReal) = ((a * b : ℝ) : EReal) :=
  (EReal.coe_mul a b).symm

/-- The quotient of a real by a nonzero real. -/
theorem div_coe_coe (a : ℝ) {b : ℝ} (hb : b ≠ 0) : Ideal.div ((a : ℝ) : EReal) ((b : ℝ) : EReal) = ((a / b : ℝ) : EReal) := by
  rw [Ideal.div_coe hb, ← EReal.coe_mul, mul_one_div]

theorem divf_coe (a : ℝ) {b : ℝ} (hb : b ≠ 0) :
    FloatOps.divf (F := Ideal) (φ := φ) ((a : ℝ) : EReal) ((b : ℝ) : EReal) = ((a / b : ℝ) : EReal) :=
  div_coe_coe a hb

theorem hostDivf_coe (a : ℝ) {b : ℝ} (hb : b ≠ 0) :
    FloatOps.hostDivf (F := Ideal) (φ := φ) ((a : ℝ) : EReal) ((b : ℝ) : EReal) = ((a / b : ℝ) : EReal) :=
  div_coe_coe a hb

theorem exp_coe (a : ℝ) : FloatOps.exp (F := Ideal) (φ := φ) ((a : ℝ) : EReal) = ((Real.exp a : ℝ) : EReal) := rfl

theorem hostExp_coe (a : ℝ) :
    FloatOps.hostUnary (F := Ideal) (φ := φ) .exp ((a : ℝ) : EReal) = ((Real.exp a : ℝ) : EReal) := rfl

theorem maximumf_coe (a b : ℝ) :
    FloatOps.maximumf (F := Ideal) (φ := φ) ((a : ℝ) : EReal) ((b : ℝ) : EReal) = ((max a b : ℝ) : EReal) :=
  coe_max a b

theorem maximumf_bot_left (x : Ideal φ) : FloatOps.maximumf (F := Ideal) (φ := φ) (⊥ : EReal) x = x :=
  max_bot_left x

/-- The square root of a nonnegative real. -/
theorem sqrt_coe {a : ℝ} (ha : 0 ≤ a) : Ideal.sqrt ((a : ℝ) : EReal) = ((Real.sqrt a : ℝ) : EReal) := by
  rw [Ideal.sqrt_coe, if_neg (not_lt.mpr ha)]

theorem hostSqrt_coe {a : ℝ} (ha : 0 ≤ a) :
    FloatOps.hostUnary (F := Ideal) (φ := φ) .sqrt ((a : ℝ) : EReal) = ((Real.sqrt a : ℝ) : EReal) :=
  sqrt_coe ha

end Scalar

/-! ## The vector operations at an index, on elements that are coerced reals -/

section AtIndex
variable {s : Shape} {φ : FTy}

theorem addf_apply_coe (x y : FVec Ideal s φ) (i : s.Idx) {a b : ℝ} (hx : x i = ((a : ℝ) : EReal)) (hy : y i = ((b : ℝ) : EReal)) :
    addf x y i = ((a + b : ℝ) : EReal) := by
  show FloatOps.addf (x i) (y i) = _
  rw [hx, hy]; exact addf_coe a b

theorem subf_apply_coe (x y : FVec Ideal s φ) (i : s.Idx) {a b : ℝ} (hx : x i = ((a : ℝ) : EReal)) (hy : y i = ((b : ℝ) : EReal)) :
    subf x y i = ((a - b : ℝ) : EReal) := by
  show FloatOps.subf (x i) (y i) = _
  rw [hx, hy]; exact subf_coe a b

theorem mulf_apply_coe (x y : FVec Ideal s φ) (i : s.Idx) {a b : ℝ} (hx : x i = ((a : ℝ) : EReal)) (hy : y i = ((b : ℝ) : EReal)) :
    mulf x y i = ((a * b : ℝ) : EReal) := by
  show FloatOps.mulf (x i) (y i) = _
  rw [hx, hy]; exact mulf_coe a b

theorem divf_apply_coe (x y : FVec Ideal s φ) (i : s.Idx) {a b : ℝ} (hb : b ≠ 0) (hx : x i = ((a : ℝ) : EReal))
    (hy : y i = ((b : ℝ) : EReal)) : divf x y i = ((a / b : ℝ) : EReal) := by
  show FloatOps.divf (x i) (y i) = _
  rw [hx, hy]; exact divf_coe a hb

theorem hostDivf_apply_coe (x y : FVec Ideal s φ) (i : s.Idx) {a b : ℝ} (hb : b ≠ 0) (hx : x i = ((a : ℝ) : EReal))
    (hy : y i = ((b : ℝ) : EReal)) : Host.divf x y i = ((a / b : ℝ) : EReal) := by
  show FloatOps.hostDivf (x i) (y i) = _
  rw [hx, hy]; exact hostDivf_coe a hb

theorem maximumf_apply_coe (x y : FVec Ideal s φ) (i : s.Idx) {a b : ℝ} (hx : x i = ((a : ℝ) : EReal))
    (hy : y i = ((b : ℝ) : EReal)) : maximumf x y i = ((max a b : ℝ) : EReal) := by
  show FloatOps.maximumf (x i) (y i) = _
  rw [hx, hy]; exact maximumf_coe a b

theorem exp_apply_coe (x : FVec Ideal s φ) (i : s.Idx) {a : ℝ} (hx : x i = ((a : ℝ) : EReal)) :
    exp x i = ((Real.exp a : ℝ) : EReal) := by
  show FloatOps.exp (x i) = _
  rw [hx]; exact exp_coe a

theorem hostExp_apply_coe (x : FVec Ideal s φ) (i : s.Idx) {a : ℝ} (hx : x i = ((a : ℝ) : EReal)) :
    Host.exp x i = ((Real.exp a : ℝ) : EReal) := by
  show FloatOps.hostUnary .exp (x i) = _
  rw [hx]; exact hostExp_coe a

end AtIndex

/-! ## The literal words -/

/-- The pattern of 1024.0 denotes 1024. -/
theorem ofBits_1024 : Ideal.ofBits .f32 0x44800000#32 = ((1024 : ℝ) : EReal) := by
  simp [Ideal.ofBits, Ideal.ieee, -EReal.coe_mul]; norm_num

/-- The pattern of 2048.0 denotes 2048. -/
theorem ofBits_2048 : Ideal.ofBits .f32 0x45000000#32 = ((2048 : ℝ) : EReal) := by
  simp [Ideal.ofBits, Ideal.ieee, -EReal.coe_mul]; norm_num

/-- The pattern of +0.0 denotes the real 0. -/
theorem ofBits_zero : Ideal.ofBits .f32 0x00000000#32 = ((0 : ℝ) : EReal) := by
  rw [Ideal.ofBits_zero_f32, EReal.coe_zero]

/-- The pattern of -∞ denotes -∞. -/
theorem ofBits_neg_inf : Ideal.ofBits .f32 0xFF800000#32 = (⊥ : EReal) := by
  simp [Ideal.ofBits, Ideal.ieee]

/-- √1024 = 32. -/
theorem sqrt_1024 : Ideal.sqrt ((1024 : ℝ) : EReal) = ((32 : ℝ) : EReal) := by
  rw [sqrt_coe (by norm_num), show (1024 : ℝ) = 32 * 32 by norm_num, Real.sqrt_mul_self (by norm_num)]

end Cert.CoeReal

end
-- ==== Proof.PayCoe.lean ====
/-
  The literal words of the attention kernel as real numbers (1/32, 1/2048, 1, and the finite negative number the
  running maximum starts from), and the maximum of a nonempty finite family of reals folded from -∞ as the coerced
  supremum.
-/
import proofs.«406335_j42030549959205_3_alg».proof.Proof.KIReal
import proofs.«406335_j42030549959205_3_alg».proof.Proof.CoeReal

noncomputable section

open scoped BigOperators

namespace Cert.PayCoe

open Idealize.ShloMosaic Cert.KernelIdeal.Attn

/-- The pattern of 0.03125 denotes 1/32. -/
theorem ofBits_inv32 : Ideal.ofBits .f32 0x3D000000#32 = ((1 / 32 : ℝ) : EReal) := by
  simp [Ideal.ofBits, Ideal.ieee, -EReal.coe_mul]; norm_num

/-- The pattern of 4.8828125e-4 denotes 1/2048. -/
theorem ofBits_inv2048 : Ideal.ofBits .f32 0x3A000000#32 = ((1 / 2048 : ℝ) : EReal) := by
  simp [Ideal.ofBits, Ideal.ieee, -EReal.coe_mul]; norm_num

/-- The pattern of 1.0 denotes 1. -/
theorem ofBits_one : Ideal.ofBits .f32 0x3F800000#32 = ((1 : ℝ) : EReal) := by
  simp [Ideal.ofBits, Ideal.ieee, -EReal.coe_mul]; norm_num

/-- The word the running maximum is reset to denotes a finite number. -/
theorem ofBits_negBig : Ideal.ofBits .f32 0xFF333332#32 = ((negBig : ℝ) : EReal) := by
  unfold negBig
  refine (EReal.coe_toReal ?_ ?_).symm
  · simp [Ideal.ofBits, Ideal.ieee, -EReal.coe_mul]
  · simp [Ideal.ofBits, Ideal.ieee, -EReal.coe_mul]

/-- The maximum of a nonempty finite family of reals, folded from -∞, is the coerced supremum. -/
theorem fold_max_bot_coe_sup' {ι : Type*} (s : Finset ι) (hs : s.Nonempty) (f : ι → ℝ) :
    s.fold max (⊥ : EReal) (fun k => ((f k : ℝ) : EReal)) = ((s.sup' hs f : ℝ) : EReal) := by
  have h1 : s.fold max (⊥ : EReal) (fun k => ((f k : ℝ) : EReal)) = s.sup (fun k => ((f k : ℝ) : EReal)) := rfl
  rw [h1, ← Finset.sup'_eq_sup hs]
  exact (Finset.comp_sup'_eq_sup'_comp hs (fun r : ℝ => (r : EReal)) (fun a b => (Cert.CoeReal.coe_max a b).symm)).symm

end Cert.PayCoe

end
-- ==== Proof.PayRed.lean ====
/-
  The kernel's four reductions at the ideal instance, read at an index on sources that hold real numbers: the sum
  along a row of a 1024 × 512 tile, the sum down a column of it, the sum down a column of a 1024 × 1024 tile, and
  the maximum along a row folded from -∞, which is the supremum of the row.
-/
import proofs.«406335_j42030549959205_3_alg».proof.Proof.PayCoe
import Idealize.ShloMosaic.PureOps.Ideal.Laws
import Idealize.ShloMosaic.Lib.ValueIdx

noncomputable section

open scoped BigOperators

namespace Cert.KernelIdeal.Attn

open Idealize.ShloMosaic Idealize.ShloMosaic.ValueIdx Cert.KernelIdeal Cert.KernelIdeal.Gen

/-! ## The source index of a reduced index and a coordinate on the dropped axis -/

theorem lift_row512 (r : Fin 1024) (k : Fin 512) : reduces_S1024x512_S1024.lift (ix1 r) k = ix2 r k :=
  funext fun c => Fin.ext (by match c with | ⟨0, _⟩ => rfl | ⟨1, _⟩ => rfl)

theorem lift_col512 (k : Fin 512) (r : Fin 1024) : reduces_S1024x512_S512.lift (ix1 k) r = ix2 r k :=
  funext fun c => Fin.ext (by match c with | ⟨0, _⟩ => rfl | ⟨1, _⟩ => rfl)

theorem lift_col1024 (d : Fin 1024) (r : Fin 1024) : reduces_S1024x1024_S1024.lift (ix1 d) r = ix2 r d :=
  funext fun c => Fin.ext (by match c with | ⟨0, _⟩ => rfl | ⟨1, _⟩ => rfl)

/-! ## The sums -/

/-- The sum along row `r` of a 1024 × 512 tile of reals. -/
theorem rowsum512_apply (src : FVec Ideal S1024x512 .f32) (f : Fin 1024 → Fin 512 → ℝ)
    (hsrc : ∀ r k, src (ix2 r k) = ((f r k : ℝ) : EReal)) (r : Fin 1024) :
    multiReduction .add [1] S1024 src 0x00000000#32 reduces_S1024x512_S1024 (.inl rfl) rfl (ix1 r)
      = ((∑ k : Fin 512, f r k : ℝ) : EReal) := by
  refine (Ideal.multiReduction_add_single src 0x00000000#32 reduces_S1024x512_S1024 (.inl rfl) rfl (ix1 r)).trans ?_
  exact Cert.CoeReal.sum_eq_coe (Finset.univ : Finset (Fin 512)) _ (f r)
    (fun k _ => (congrArg src (lift_row512 r k)).trans (hsrc r k))

/-- The sum down column `k` of a 1024 × 512 tile of reals. -/
theorem colsum512_apply (src : FVec Ideal S1024x512 .f32) (f : Fin 1024 → Fin 512 → ℝ)
    (hsrc : ∀ r k, src (ix2 r k) = ((f r k : ℝ) : EReal)) (k : Fin 512) :
    multiReduction .add [0] S512 src 0x00000000#32 reduces_S1024x512_S512 (.inl rfl) rfl (ix1 k)
      = ((∑ r : Fin 1024, f r k : ℝ) : EReal) := by
  refine (Ideal.multiReduction_add_single src 0x00000000#32 reduces_S1024x512_S512 (.inl rfl) rfl (ix1 k)).trans ?_
  exact Cert.CoeReal.sum_eq_coe (Finset.univ : Finset (Fin 1024)) _ (fun r => f r k)
    (fun r _ => (congrArg src (lift_col512 k r)).trans (hsrc r k))

/-- The sum down column `d` of a 1024 × 1024 tile of reals. -/
theorem colsum1024_apply (src : FVec Ideal S1024x1024 .f32) (f : Fin 1024 → Fin 1024 → ℝ)
    (hsrc : ∀ r d, src (ix2 r d) = ((f r d : ℝ) : EReal)) (d : Fin 1024) :
    multiReduction .add [0] S1024 src 0x00000000#32 reduces_S1024x1024_S1024 (.inl rfl) rfl (ix1 d)
      = ((∑ r : Fin 1024, f r d : ℝ) : EReal) := by
  refine (Ideal.multiReduction_add_single src 0x00000000#32 reduces_S1024x1024_S1024 (.inl rfl) rfl (ix1 d)).trans ?_
  exact Cert.CoeReal.sum_eq_coe (Finset.univ : Finset (Fin 1024)) _ (fun r => f r d)
    (fun r _ => (congrArg src (lift_col1024 d r)).trans (hsrc r d))

/-! ## The row maximum -/

/-- The maximum along row `r` of a 1024 × 512 tile of reals, folded from -∞: the supremum of the row. -/
theorem rowmax512_apply (src : FVec Ideal S1024x512 .f32) (f : Fin 1024 → Fin 512 → ℝ)
    (hsrc : ∀ r k, src (ix2 r k) = ((f r k : ℝ) : EReal)) (r : Fin 1024) :
    multiReduction .maximumf [1] S1024 src 0xFF800000#32 reduces_S1024x512_S1024 (.inl rfl) rfl (ix1 r)
      = ((Finset.univ.sup' Finset.univ_nonempty (f r) : ℝ) : EReal) := by
  refine (Ideal.multiReduction_maximumf_single src 0xFF800000#32 reduces_S1024x512_S1024 (.inl rfl) rfl (ix1 r)).trans ?_
  have hfun : (src ∘ reduces_S1024x512_S1024.lift (ix1 r)) = fun k : Fin 512 => ((f r k : ℝ) : EReal) :=
    funext fun k => (congrArg src (lift_row512 r k)).trans (hsrc r k)
  have hbot : (FloatOps.ofBits (F := Ideal) .f32 0xFF800000#32) = (⊥ : EReal) := Cert.CoeReal.ofBits_neg_inf
  rw [hfun, hbot]
  exact Cert.PayCoe.fold_max_bot_coe_sup' (Finset.univ : Finset (Fin 512)) Finset.univ_nonempty (f r)

end Cert.KernelIdeal.Attn

end
-- ==== Proof.PayVal.lean ====
/-
  The payloads of the attention kernel's body at the ideal instance on operands that hold real numbers: each one,
  read at an index given by coordinates, is the coerced real operation on the real contents.
-/
import proofs.«406335_j42030549959205_3_alg».proof.Proof.PayLayout
import proofs.«406335_j42030549959205_3_alg».proof.Proof.PayMat
import proofs.«406335_j42030549959205_3_alg».proof.Proof.PayRed

noncomputable section

open scoped BigOperators

namespace Cert.KernelIdeal.Attn

open Idealize.ShloMosaic Idealize.ShloMosaic.ValueIdx Cert.KernelIdeal Cert.KernelIdeal.Gen Cert.CoeReal Cert.PayCoe
  Cert.PayLayout

/-! ## Real contents in the buffers' shapes -/

/-- A column of reals as an `[n, 1]` vector. -/
def colE {n : ℕ} (f : Fin n → ℝ) : FVec Ideal ⟨2, ![n, 1]⟩ .f32 := fun j => ((f (j 0) : ℝ) : EReal)
/-- A matrix of reals as an `[n, m]` vector. -/
def matE {φ : FTy} {n m : ℕ} (a : Fin n → Fin m → ℝ) : FVec Ideal ⟨2, ![n, m]⟩ φ := fun j => ((a (j 0) (j 1) : ℝ) : EReal)
/-- A row of reals as a `[1, n]` vector. -/
def rowE {n : ℕ} (f : Fin n → ℝ) : FVec Ideal ⟨2, ![1, n]⟩ .f32 := fun j => ((f (j 1) : ℝ) : EReal)
/-- A row of reals as a `[1, 1, n]` vector. -/
def row3E {n : ℕ} (f : Fin n → ℝ) : FVec Ideal ⟨3, ![1, 1, n]⟩ .f32 := fun j => ((f (j 2) : ℝ) : EReal)

theorem colE_apply {n : ℕ} (f : Fin n → ℝ) (r : Fin n) (u : Fin 1) : colE f (ix2 r u) = ((f r : ℝ) : EReal) := rfl
theorem matE_apply {φ : FTy} {n m : ℕ} (a : Fin n → Fin m → ℝ) (r : Fin n) (k : Fin m) :
    matE (φ := φ) a (ix2 r k) = ((a r k : ℝ) : EReal) := rfl
theorem rowE_apply {n : ℕ} (f : Fin n → ℝ) (u : Fin 1) (k : Fin n) : rowE f (ix2 u k) = ((f k : ℝ) : EReal) := rfl
theorem row3E_apply {n : ℕ} (f : Fin n → ℝ) (u v : Fin 1) (k : Fin n) : row3E f (ix3 u v k) = ((f k : ℝ) : EReal) := rfl

/-- Two rank-2 vectors equal at every pair of coordinates are equal. -/
theorem ext_ix2 {α : Type} {n m : ℕ} {V W : (⟨2, ![n, m]⟩ : Shape).Idx → α}
    (h : ∀ (r : Fin n) (k : Fin m), V (ix2 r k) = W (ix2 r k)) : V = W :=
  funext fun j => by rw [eq_ix2 j]; exact h (j 0) (j 1)
/-- Two rank-3 vectors equal at every triple of coordinates are equal. -/
theorem ext_ix3 {α : Type} {n m p : ℕ} {V W : (⟨3, ![n, m, p]⟩ : Shape).Idx → α}
    (h : ∀ (a : Fin n) (b : Fin m) (c : Fin p), V (ix3 a b c) = W (ix3 a b c)) : V = W :=
  funext fun j => by rw [eq_ix3 j]; exact h (j 0) (j 1) (j 2)

/-! ## The resets -/

theorem pay8_real : k0_pay8 (F := Ideal) = row3E (fun _ : Fin 1024 => (0 : ℝ)) :=
  ext_ix3 fun a b c => (show Ideal.ofBits .f32 0x00000000#32 = _ from ofBits_zero)

theorem pay9_real : k0_pay9 (F := Ideal) = rowE (fun _ : Fin 2048 => (0 : ℝ)) := by
  show shapeCast _ _ _ = _
  rw [shapeCast_self]
  exact ext_ix2 fun a c => (show Ideal.ofBits .f32 0x00000000#32 = _ from ofBits_zero)

theorem pay10_real : k0_pay10 (F := Ideal) = colE (fun _ : Fin 1024 => negBig) := by
  show shapeCast _ _ _ = _
  rw [shapeCast_self]
  exact ext_ix2 fun a c => (show Ideal.ofBits .f32 0xFF333332#32 = _ from ofBits_negBig)

theorem pay11_real : k0_pay11 (F := Ideal) = colE (fun _ : Fin 1024 => (0 : ℝ)) := by
  show shapeCast _ _ _ = _
  rw [shapeCast_self]
  exact ext_ix2 fun a c => (show Ideal.ofBits .f32 0x00000000#32 = _ from ofBits_zero)

theorem pay12_real : k0_pay12 (F := Ideal) = matE (fun (_ : Fin 1024) (_ : Fin 1024) => (0 : ℝ)) := by
  show shapeCast _ _ _ = _
  rw [shapeCast_self]
  exact ext_ix2 fun a c => (show Ideal.ofBits .f32 0x00000000#32 = _ from ofBits_zero)

/-! ## The blocks and the score tile -/

/-- The key block, its leading unit axis dropped. -/
theorem pay13_real (x : Fin 512 → Fin 1024 → ℝ) : k0_pay13 (F := Ideal) (xE x) = matE x :=
  ext_ix2 fun k d => (shapeCast_1ab_ab_apply (xE x) _ k d)

/-- The score tile: the scaled dot products. -/
theorem pay14_real (q : Fin 1024 → Fin 1024 → ℝ) (x : Fin 512 → Fin 1024 → ℝ) :
    k0_pay14 (F := Ideal) (qE q) (xE x) = matE (scoreT q x) := by
  refine ext_ix2 fun r k => ?_
  have hA : ∀ d : Fin 1024, (truncf .bf16 (shapeCast S1024x1024 (qE q) shapeCasts_S1x1024x1024_S1024x1024) bitsLt_bf16_f32
      : FVec Ideal S1024x1024 .bf16) (ix2 r d) = ((q r d : ℝ) : EReal) :=
    fun d => shapeCast_1ab_ab_apply (qE q) _ r d
  have hB : ∀ d : Fin 1024, k0_pay13 (F := Ideal) (xE x) (ix2 k d) = ((x k d : ℝ) : EReal) :=
    fun d => by rw [pay13_real]; rfl
  have hs : matmul dot_S1024x1024_S512x1024_S1024x512_1_1_0_0_n_n none
      (truncf .bf16 (shapeCast S1024x1024 (qE q) shapeCasts_S1x1024x1024_S1024x1024) bitsLt_bf16_f32 : FVec Ideal S1024x1024 .bf16)
      (k0_pay13 (F := Ideal) (xE x)) (constant (F := Ideal) S1024x512 .f32 0x00000000#32) (ix2 r k)
        = ((∑ d : Fin 1024, q r d * x k d : ℝ) : EReal) := by
    rw [matmul_qk_apply]
    exact sum_eq_coe _ _ _ (fun d _ => by rw [hA d, hB d, ← EReal.coe_mul])
  have hc : (broadcast S1024x512 (Scalar.ofBits (F := Ideal) .f32 0x3D000000#32) : FVec Ideal S1024x512 .f32) (ix2 r k)
      = ((1 / 32 : ℝ) : EReal) := ofBits_inv32
  exact mulf_apply_coe _ _ (ix2 r k) hs hc

/-! ## The row maximum and the shifted scores -/

/-- The new running maximum. -/
theorem pay16_real (q : Fin 1024 → Fin 1024 → ℝ) (x : Fin 512 → Fin 1024 → ℝ) (m0 : Fin 1024 → ℝ) :
    k0_pay16 (F := Ideal) (qE q) (xE x) (colE m0)
      = colE (fun r => max (m0 r) (Finset.univ.sup' Finset.univ_nonempty (scoreT q x r))) := by
  refine ext_ix2 fun r u => ?_
  have h14 : ∀ r k, k0_pay14 (F := Ideal) (qE q) (xE x) (ix2 r k) = ((scoreT q x r k : ℝ) : EReal) :=
    fun r k => by rw [pay14_real]; rfl
  exact maximumf_apply_coe _ _ (ix2 r u) (colE_apply m0 r u)
    ((shapeCast_a_a1_apply _ _ r u).trans (rowmax512_apply _ (scoreT q x) h14 r))

/-- The scores less the new running maximum of their row. -/
theorem pay17_real (q : Fin 1024 → Fin 1024 → ℝ) (x : Fin 512 → Fin 1024 → ℝ) (m0 : Fin 1024 → ℝ) :
    k0_pay17 (F := Ideal) (qE q) (xE x) (colE m0)
      = matE (fun r k => scoreT q x r k - max (m0 r) (Finset.univ.sup' Finset.univ_nonempty (scoreT q x r))) := by
  refine ext_ix2 fun r k => ?_
  have h14 : k0_pay14 (F := Ideal) (qE q) (xE x) (ix2 r k) = ((scoreT q x r k : ℝ) : EReal) := by rw [pay14_real]; rfl
  have h16 : k0_pay16 (F := Ideal) (qE q) (xE x) (colE m0) (ix2 r (0 : Fin 1))
      = ((max (m0 r) (Finset.univ.sup' Finset.univ_nonempty (scoreT q x r)) : ℝ) : EReal) := by rw [pay16_real]; rfl
  exact subf_apply_coe _ _ (ix2 r k) h14 ((broadcastTo_a1_ab_apply _ _ r k).trans h16)

/-! ## The exponentials -/

theorem pay1_real (a : Fin 1024 → Fin 512 → ℝ) :
    k0_pay1 (F := Ideal) (matE a) = matE (fun r k => Real.exp (a r k)) :=
  ext_ix2 fun r k => exp_apply_coe _ (ix2 r k) (matE_apply a r k)

theorem pay2_real (m0 m1 : Fin 1024 → ℝ) :
    k0_pay2 (F := Ideal) (colE m0) (colE m1) = colE (fun r => Real.exp (m0 r - m1 r)) :=
  ext_ix2 fun r u => exp_apply_coe _ (ix2 r u) (subf_apply_coe _ _ (ix2 r u) (colE_apply m0 r u) (colE_apply m1 r u))

/-! ## The rescaled accumulations -/

/-- The new normaliser. -/
theorem pay3_real (m0 m1 : Fin 1024 → ℝ) (a : Fin 1024 → Fin 512 → ℝ) (l0 : Fin 1024 → ℝ) :
    k0_pay3 (F := Ideal) (colE m0) (colE m1) (matE a) (colE l0)
      = colE (fun r => Real.exp (m0 r - m1 r) * l0 r + ∑ k : Fin 512, Real.exp (a r k)) := by
  show shapeCast _ _ _ = _
  rw [shapeCast_self]
  refine ext_ix2 fun r u => ?_
  have h2 : k0_pay2 (F := Ideal) (colE m0) (colE m1) (ix2 r u) = ((Real.exp (m0 r - m1 r) : ℝ) : EReal) := by
    rw [pay2_real]; rfl
  have h1 : ∀ r k, k0_pay1 (F := Ideal) (matE a) (ix2 r k) = ((Real.exp (a r k) : ℝ) : EReal) :=
    fun r k => by rw [pay1_real]; rfl
  exact addf_apply_coe _ _ (ix2 r u) (mulf_apply_coe _ _ (ix2 r u) h2 (colE_apply l0 r u))
    ((shapeCast_a_a1_apply _ _ r u).trans (rowsum512_apply _ (fun r k => Real.exp (a r k)) h1 r))

/-- The new weighted sum. -/
theorem pay4_real (X : Fin 512 → Fin 1024 → ℝ) (m0 m1 : Fin 1024 → ℝ) (a : Fin 1024 → Fin 512 → ℝ)
    (acc0 : Fin 1024 → Fin 1024 → ℝ) :
    k0_pay4 (F := Ideal) (matE X) (colE m0) (colE m1) (matE a) (matE (φ := .f32) acc0)
      = matE (fun r d => Real.exp (m0 r - m1 r) * acc0 r d + ∑ k : Fin 512, Real.exp (a r k) * X k d) := by
  show shapeCast _ _ _ = _
  rw [shapeCast_self]
  refine ext_ix2 fun r d => ?_
  have h2 : k0_pay2 (F := Ideal) (colE m0) (colE m1) (ix2 r (0 : Fin 1)) = ((Real.exp (m0 r - m1 r) : ℝ) : EReal) := by
    rw [pay2_real]; rfl
  have h1 : ∀ k : Fin 512, (truncf .bf16 (k0_pay1 (F := Ideal) (matE a)) bitsLt_bf16_f32 : FVec Ideal S1024x512 .bf16) (ix2 r k)
      = ((Real.exp (a r k) : ℝ) : EReal) := fun k => by rw [pay1_real]; rfl
  have hs : matmul dot_S1024x512_S512x1024_S1024x1024_1_0_0_1_n_n none
      (truncf .bf16 (k0_pay1 (F := Ideal) (matE a)) bitsLt_bf16_f32 : FVec Ideal S1024x512 .bf16)
      (matE X : FVec Ideal S512x1024 .bf16) (constant (F := Ideal) S1024x1024 .f32 0x00000000#32) (ix2 r d)
        = ((∑ k : Fin 512, Real.exp (a r k) * X k d : ℝ) : EReal) := by
    rw [matmul_pv_apply]
    exact sum_eq_coe _ _ _ (fun k _ => by rw [h1 k, matE_apply, ← EReal.coe_mul])
  exact addf_apply_coe _ _ (ix2 r d)
    (mulf_apply_coe _ _ (ix2 r d) ((broadcastTo_a1_ab_apply _ _ r d).trans h2) (matE_apply acc0 r d)) hs

/-- The stored running maximum is the new one. -/
theorem pay5_real (v : FVec Ideal S1024x1 .f32) : k0_pay5 (F := Ideal) v = v := shapeCast_self v _

/-! ## The outputs -/

/-- The contribution to the output row, by a normaliser that is nowhere zero. -/
theorem pay6_real (l1 : Fin 1024 → ℝ) (hl1 : ∀ r, l1 r ≠ 0) (acc1 : Fin 1024 → Fin 1024 → ℝ) (o0 : Fin 1024 → ℝ) :
    k0_pay6 (F := Ideal) (colE l1) (matE (φ := .f32) acc1) (row3E o0)
      = row3E (fun d => o0 d + (∑ r : Fin 1024, acc1 r d * (1 / l1 r)) * (1 / 2048)) := by
  show shapeCast _ _ _ = _
  refine ext_ix3 fun u v d => ?_
  have hone : ∀ r : Fin 1024, (broadcast S1024x1 (Scalar.ofBits (F := Ideal) .f32 0x3F800000#32) : FVec Ideal S1024x1 .f32)
      (ix2 r (0 : Fin 1)) = ((1 : ℝ) : EReal) := fun r => ofBits_one
  have hsrc : ∀ r d : Fin 1024,
      mulf (matE acc1 : FVec Ideal S1024x1024 .f32)
        (broadcastTo S1024x1024 (divf (broadcast S1024x1 (Scalar.ofBits (F := Ideal) .f32 0x3F800000#32)) (colE l1))
          broadcasts_S1024x1_S1024x1024) (ix2 r d) = ((acc1 r d * (1 / l1 r) : ℝ) : EReal) :=
    fun r d => mulf_apply_coe _ _ (ix2 r d) (matE_apply acc1 r d)
      ((broadcastTo_a1_ab_apply _ _ r d).trans
        (divf_apply_coe _ _ (ix2 r (0 : Fin 1)) (hl1 r) (hone r) (colE_apply l1 r 0)))
  have hc : (broadcast S1x1024 (Scalar.ofBits (F := Ideal) .f32 0x3A000000#32) : FVec Ideal S1x1024 .f32) (ix2 v d)
      = ((1 / 2048 : ℝ) : EReal) := ofBits_inv2048
  refine (shapeCast_ab_1ab_apply _ _ u v d).trans ?_
  exact addf_apply_coe _ _ (ix2 v d) ((shapeCast_1ab_ab_apply (row3E o0) _ v d).trans (row3E_apply o0 0 v d))
    (mulf_apply_coe _ _ (ix2 v d)
      ((shapeCast_a_1a_apply _ _ v d).trans (colsum1024_apply _ (fun r d => acc1 r d * (1 / l1 r)) hsrc d)) hc)

/-- The scaled column sums. -/
theorem pay7_real (vis : Fin 2048 → ℝ) :
    k0_pay7 (F := Ideal) (rowE vis) = row3E (fun k => vis k * (1 / 2048)) := by
  show shapeCast _ _ _ = _
  refine ext_ix3 fun u v k => ?_
  have hc : (broadcast S1x2048 (Scalar.ofBits (F := Ideal) .f32 0x3A000000#32) : FVec Ideal S1x2048 .f32) (ix2 v k)
      = ((1 / 2048 : ℝ) : EReal) := ofBits_inv2048
  refine (shapeCast_ab_1ab_apply _ _ u v k).trans ?_
  exact mulf_apply_coe _ _ (ix2 v k) (rowE_apply vis v k) hc

/-- This key tile's slice of the column sums: what was there plus the tile's column sums. -/
theorem pay15_real (q : Fin 1024 → Fin 1024 → ℝ) (x : Fin 512 → Fin 1024 → ℝ) (w : Fin 512 → ℝ) :
    k0_pay15 (F := Ideal) (qE q) (xE x) (rowE w) = rowE (fun k => w k + ∑ r : Fin 1024, scoreT q x r k) := by
  show shapeCast _ _ _ = _
  rw [shapeCast_self]
  refine ext_ix2 fun u k => ?_
  have h14 : ∀ r k, k0_pay14 (F := Ideal) (qE q) (xE x) (ix2 r k) = ((scoreT q x r k : ℝ) : EReal) :=
    fun r k => by rw [pay14_real]; rfl
  exact addf_apply_coe _ _ (ix2 u k) (rowE_apply w u k)
    ((shapeCast_a_1a_apply _ _ u k).trans (colsum512_apply _ (scoreT q x) h14 k))

end Cert.KernelIdeal.Attn

end
-- ==== Proof.PayReal.lean ====
/-
  On buffers that hold real numbers, one grid point of the attention kernel at the ideal instance is the coercion of
  the real step: each piece of the body's arithmetic (the scaled product of the query and key blocks, its column sums
  and row maxima, the exponentials, the two rescaled accumulations, the normalised row sum, the final scaling) read
  at an index is the textbook real operation on the real contents. The one division, by the normaliser, is by a
  positive number as long as the normaliser carried in is nonnegative, which the step preserves.
-/
import proofs.«406335_j42030549959205_3_alg».proof.Proof.KIReal
import proofs.«406335_j42030549959205_3_alg».proof.Proof.PayVal

noncomputable section

open scoped BigOperators

namespace Cert.KernelIdeal.Attn

open Idealize.ShloMosaic Idealize.ShloMosaic.ValueIdx Cert.KernelIdeal Cert.KernelIdeal.Gen

/-! ## The pieces of the real step, named -/

def o0R (i : grid0.Coords) (s : StR) : Fin 1024 → ℝ := if k0_cond1 i = 1#1 then fun _ => 0 else s.o
def vis0R (i : grid0.Coords) (s : StR) : Fin 2048 → ℝ := if k0_cond1 i = 1#1 then fun _ => 0 else s.vis
def m0R (i : grid0.Coords) (s : StR) : Fin 1024 → ℝ := if firstKey i then fun _ => negBig else s.m
def l0R (i : grid0.Coords) (s : StR) : Fin 1024 → ℝ := if firstKey i then fun _ => 0 else s.l
def acc0R (i : grid0.Coords) (s : StR) : Fin 1024 → Fin 1024 → ℝ := if firstKey i then fun _ _ => 0 else s.acc
def vis1R (i : grid0.Coords) (q : Fin 1024 → Fin 1024 → ℝ) (x : Fin 512 → Fin 1024 → ℝ) (s : StR) : Fin 2048 → ℝ := fun k =>
  if k.val / 512 = (i 2).val then vis0R i s k + ∑ r : Fin 1024, scoreT q x r ⟨k.val % 512, Nat.mod_lt _ (by norm_num)⟩
  else vis0R i s k
def m1R (i : grid0.Coords) (q : Fin 1024 → Fin 1024 → ℝ) (x : Fin 512 → Fin 1024 → ℝ) (s : StR) : Fin 1024 → ℝ := fun r =>
  max (m0R i s r) (Finset.univ.sup' Finset.univ_nonempty (scoreT q x r))
def subR (i : grid0.Coords) (q : Fin 1024 → Fin 1024 → ℝ) (x : Fin 512 → Fin 1024 → ℝ) (s : StR) : Fin 1024 → Fin 512 → ℝ :=
  fun r k => scoreT q x r k - m1R i q x s r
def l1R (i : grid0.Coords) (q : Fin 1024 → Fin 1024 → ℝ) (x : Fin 512 → Fin 1024 → ℝ) (s : StR) : Fin 1024 → ℝ := fun r =>
  Real.exp (m0R i s r - m1R i q x s r) * l0R i s r + ∑ k : Fin 512, Real.exp (subR i q x s r k)
def acc1R (i : grid0.Coords) (q : Fin 1024 → Fin 1024 → ℝ) (x : Fin 512 → Fin 1024 → ℝ) (s : StR) :
    Fin 1024 → Fin 1024 → ℝ := fun r d =>
  Real.exp (m0R i s r - m1R i q x s r) * acc0R i s r d + ∑ k : Fin 512, Real.exp (subR i q x s r k) * x k d
def o1R (i : grid0.Coords) (q : Fin 1024 → Fin 1024 → ℝ) (x : Fin 512 → Fin 1024 → ℝ) (s : StR) : Fin 1024 → ℝ :=
  if k0_cond3 i = 1#1 then
    fun d => o0R i s d + (∑ r : Fin 1024, acc1R i q x s r d * (1 / l1R i q x s r)) * (1 / 2048)
  else o0R i s
def vo1R (i : grid0.Coords) (q : Fin 1024 → Fin 1024 → ℝ) (x : Fin 512 → Fin 1024 → ℝ) (s : StR) : Fin 2048 → ℝ :=
  if k0_cond4 i = 1#1 then fun k => vis1R i q x s k * (1 / 2048) else s.vo

/-- The real step is made of these pieces. -/
theorem stepR_eq (i : grid0.Coords) (q : Fin 1024 → Fin 1024 → ℝ) (x : Fin 512 → Fin 1024 → ℝ) (s : StR) :
    stepR i q x s = ⟨o1R i q x s, vo1R i q x s, m1R i q x s, l1R i q x s, acc1R i q x s, vis1R i q x s⟩ := rfl

/-- The carried normaliser after the resets is nonnegative when the one carried in is. -/
theorem l0R_nonneg (i : grid0.Coords) (s : StR) (hl : ∀ r, 0 ≤ s.l r) (r : Fin 1024) : 0 ≤ l0R i s r := by
  unfold l0R
  split_ifs
  · exact le_rfl
  · exact hl r

/-- The new normaliser is positive. -/
theorem l1R_pos (i : grid0.Coords) (q : Fin 1024 → Fin 1024 → ℝ) (x : Fin 512 → Fin 1024 → ℝ) (s : StR)
    (hl : ∀ r, 0 ≤ s.l r) (r : Fin 1024) : 0 < l1R i q x s r :=
  add_pos_of_nonneg_of_pos (mul_nonneg (Real.exp_pos _).le (l0R_nonneg i s hl r))
    (Finset.sum_pos (fun k _ => Real.exp_pos _) Finset.univ_nonempty)

/-! ## The column sums' slice -/

/-- The column of the running column sums that column `k` of the point's slice is. -/
def colOf (i : grid0.Coords) (k : Fin 512) : Fin 2048 :=
  ⟨512 * (i 2).val + k.val, by have h : (i 2).val < 4 := (i 2).isLt; have := k.isLt; omega⟩

/-- What the point loads of the running column sums: its 512 columns. -/
theorem ld_rowE (i : grid0.Coords) (v : Fin 2048 → ℝ) :
    (View.ld (Val := Elt Ideal) (e' := .f32) (rowE v) (visRect i) : FVec Ideal S1x512 .f32)
      = rowE (fun k : Fin 512 => v (colOf i k)) := by
  refine ext_ix2 fun u k => ?_
  refine congrArg (fun t : Fin 2048 => ((v t : ℝ) : EReal)) (Fin.ext ?_)
  show k0_off1 i 1 + 1 * k.val = 512 * (i 2).val + k.val
  rw [k0_off1_eq]
  show 512 * (i 2).val + 1 * k.val = 512 * (i 2).val + k.val
  omega

/-- The running column sums after the point: its slice gains the score tile's column sums. -/
theorem vis1_real (i : grid0.Coords) (q : Fin 1024 → Fin 1024 → ℝ) (x : Fin 512 → Fin 1024 → ℝ) (s : StR) :
    (visRect i).overlay (rowE (vis0R i s))
        (k0_pay15 (F := Ideal) (qE q) (xE x) (View.ld (Val := Elt Ideal) (e' := .f32) (rowE (vis0R i s)) (visRect i)))
      = rowE (vis1R i q x s) := by
  have hi : (i 2).val < 4 := (i 2).isLt
  have ho0 : k0_off1 i 0 = 0 := by rw [k0_off1_eq]; rfl
  have ho1 : k0_off1 i 1 = 512 * (i 2).val := by rw [k0_off1_eq]; rfl
  rw [ld_rowE, pay15_real]
  refine ext_ix2 fun u c => ?_
  have hc : c.val < 2048 := c.isLt
  have hu : u.val = 0 := by omega
  by_cases h : c.val / 512 = (i 2).val
  · have hj : (ix2 u c : S1x2048.Idx)
        = (visRect i).emb (ix2 u (⟨c.val % 512, Nat.mod_lt _ (by norm_num)⟩ : Fin 512)) :=
      funext fun a => Fin.ext (by
        match a with
        | ⟨0, _⟩ => show u.val = k0_off1 i 0 + 1 * u.val; omega
        | ⟨1, _⟩ => show c.val = k0_off1 i 1 + 1 * (c.val % 512); omega)
    have hv : colOf i (⟨c.val % 512, Nat.mod_lt _ (by norm_num)⟩ : Fin 512) = c :=
      Fin.ext (by show 512 * (i 2).val + c.val % 512 = c.val; omega)
    refine (congrArg ((visRect i).overlay _ _) hj).trans ((Rect.overlay_emb _ _ _ _).trans ?_)
    show ((vis0R i s (colOf i ⟨c.val % 512, _⟩) + ∑ r : Fin 1024, scoreT q x r ⟨c.val % 512, _⟩ : ℝ) : EReal)
      = ((vis1R i q x s c : ℝ) : EReal)
    rw [hv]
    simp only [vis1R, if_pos h]
  · refine (Rect.overlay_of_not_mem _ _ _ (fun hmem => h ?_)).trans ?_
    · have h1 := (Rect.mem_set_unit.mp hmem) 1
      have h2 : k0_off1 i 1 ≤ c.val ∧ c.val < k0_off1 i 1 + 512 := h1
      clear h1 hmem
      omega
    · show ((vis0R i s c : ℝ) : EReal) = ((vis1R i q x s c : ℝ) : EReal)
      simp only [vis1R, if_neg h]

/-! ## The state the recursion starts from -/

/-- The state the recursion starts from holds real numbers, its normaliser zero. -/
theorem junk_ofReal : ∃ s0 : StR, St.junk (F := Ideal) = s0.toSt ∧ ∀ r, 0 ≤ s0.l r := by
  refine ⟨⟨fun _ => 0, fun _ => 0 * (1 / 2048), fun _ => negBig, fun _ => 0, fun _ _ => 0, fun _ => 0⟩, ?_,
    fun r => le_rfl⟩
  unfold St.junk
  rw [pay9_real, pay7_real, pay8_real, pay10_real, pay11_real, pay12_real]
  rfl

/-- The real step keeps the normaliser nonnegative (indeed makes it positive). -/
theorem stepR_l_nonneg (i : grid0.Coords) (q : Fin 1024 → Fin 1024 → ℝ) (x : Fin 512 → Fin 1024 → ℝ) (s : StR)
    (hl : ∀ r, 0 ≤ s.l r) : ∀ r, 0 ≤ (stepR i q x s).l r :=
  fun r => (l1R_pos i q x s hl r).le

/-! ## One point -/

/-- The step from its pieces: whatever the pieces are equal to, in order. -/
theorem step_congr (i : grid0.Coords) (Q : Vec Ideal S1x1024x1024 .f32) (X : Vec Ideal S1x512x1024 .f32) (S : St Ideal)
    {o0 : Vec Ideal S1x1x1024 .f32} {vis0 : Vec Ideal S1x2048 .f32} {m0 l0 : Vec Ideal S1024x1 .f32}
    {acc0 : Vec Ideal S1024x1024 .f32} {vis1 : Vec Ideal S1x2048 .f32} {m1 : Vec Ideal S1024x1 .f32}
    {sub : FVec Ideal S1024x512 .f32} {l1 : Vec Ideal S1024x1 .f32} {acc1 : Vec Ideal S1024x1024 .f32}
    {o1 : Vec Ideal S1x1x1024 .f32} {vo1 : Vec Ideal S1x1x2048 .f32} {m2 : Vec Ideal S1024x1 .f32}
    (h_o0 : (if k0_cond1 i = 1#1 then k0_pay8 (F := Ideal) else S.o) = o0)
    (h_vis0 : (if k0_cond1 i = 1#1 then k0_pay9 (F := Ideal) else S.vis) = vis0)
    (h_m0 : (if firstKey i then k0_pay10 (F := Ideal) else S.m) = m0)
    (h_l0 : (if firstKey i then k0_pay11 (F := Ideal) else S.l) = l0)
    (h_acc0 : (if firstKey i then k0_pay12 (F := Ideal) else S.acc) = acc0)
    (h_vis1 : (visRect i).overlay vis0 (k0_pay15 (F := Ideal) Q X (View.ld vis0 (visRect i))) = vis1)
    (h_m1 : k0_pay16 (F := Ideal) Q X m0 = m1)
    (h_sub : k0_pay17 (F := Ideal) Q X m0 = sub)
    (h_l1 : k0_pay3 (F := Ideal) m0 m1 sub l0 = l1)
    (h_acc1 : k0_pay4 (F := Ideal) (k0_pay13 (F := Ideal) X) m0 m1 sub acc0 = acc1)
    (h_o1 : (if k0_cond3 i = 1#1 then k0_pay6 (F := Ideal) l1 acc1 o0 else o0) = o1)
    (h_vo1 : (if k0_cond4 i = 1#1 then k0_pay7 (F := Ideal) vis1 else S.vo) = vo1)
    (h_m2 : k0_pay5 (F := Ideal) m1 = m2) :
    step i Q X S = ⟨o1, vo1, m2, l1, acc1, vis1⟩ := by
  subst h_o0 h_vis0 h_m0 h_l0 h_acc0 h_vis1 h_m1 h_sub h_l1 h_acc1 h_o1 h_vo1 h_m2
  rfl

/-- One point on real contents with a nonnegative normaliser is the real step. -/
theorem step_ofReal (i : grid0.Coords) (q : Fin 1024 → Fin 1024 → ℝ) (x : Fin 512 → Fin 1024 → ℝ) (s : StR)
    (hl : ∀ r, 0 ≤ s.l r) :
    step (F := Ideal) i (qE q) (xE x) s.toSt = (stepR i q x s).toSt := by
  have e_o0 : (if k0_cond1 i = 1#1 then k0_pay8 (F := Ideal) else s.toSt.o) = row3E (o0R i s) := by
    unfold o0R; split_ifs
    · exact pay8_real
    · rfl
  have e_vis0 : (if k0_cond1 i = 1#1 then k0_pay9 (F := Ideal) else s.toSt.vis) = rowE (vis0R i s) := by
    unfold vis0R; split_ifs
    · exact pay9_real
    · rfl
  have e_m0 : (if firstKey i then k0_pay10 (F := Ideal) else s.toSt.m) = colE (m0R i s) := by
    unfold m0R; split_ifs
    · exact pay10_real
    · rfl
  have e_l0 : (if firstKey i then k0_pay11 (F := Ideal) else s.toSt.l) = colE (l0R i s) := by
    unfold l0R; split_ifs
    · exact pay11_real
    · rfl
  have e_acc0 : (if firstKey i then k0_pay12 (F := Ideal) else s.toSt.acc) = matE (acc0R i s) := by
    unfold acc0R; split_ifs
    · exact pay12_real
    · rfl
  have e_m1 : k0_pay16 (F := Ideal) (qE q) (xE x) (colE (m0R i s)) = colE (m1R i q x s) := pay16_real q x (m0R i s)
  have e_sub : k0_pay17 (F := Ideal) (qE q) (xE x) (colE (m0R i s)) = matE (subR i q x s) := pay17_real q x (m0R i s)
  have e_l1 : k0_pay3 (F := Ideal) (colE (m0R i s)) (colE (m1R i q x s)) (matE (subR i q x s)) (colE (l0R i s))
      = colE (l1R i q x s) := pay3_real (m0R i s) (m1R i q x s) (subR i q x s) (l0R i s)
  have e_acc1 : k0_pay4 (F := Ideal) (k0_pay13 (F := Ideal) (xE x)) (colE (m0R i s)) (colE (m1R i q x s))
      (matE (subR i q x s)) (matE (φ := .f32) (acc0R i s)) = matE (acc1R i q x s) := by
    rw [pay13_real]
    exact pay4_real x (m0R i s) (m1R i q x s) (subR i q x s) (acc0R i s)
  have e_o1 : (if k0_cond3 i = 1#1 then
        k0_pay6 (F := Ideal) (colE (l1R i q x s)) (matE (φ := .f32) (acc1R i q x s)) (row3E (o0R i s)) else row3E (o0R i s))
      = row3E (o1R i q x s) := by
    unfold o1R; split_ifs
    · exact pay6_real (l1R i q x s) (fun r => (l1R_pos i q x s hl r).ne') (acc1R i q x s) (o0R i s)
    · rfl
  have e_vo1 : (if k0_cond4 i = 1#1 then k0_pay7 (F := Ideal) (rowE (vis1R i q x s)) else s.toSt.vo)
      = row3E (vo1R i q x s) := by
    unfold vo1R; split_ifs
    · exact pay7_real (vis1R i q x s)
    · rfl
  refine (step_congr i (qE q) (xE x) s.toSt e_o0 e_vis0 e_m0 e_l0 e_acc0 (vis1_real i q x s) e_m1 e_sub e_l1 e_acc1
    e_o1 e_vo1 (pay5_real _)).trans ?_
  rfl

/-- So is every state of the recursion. -/
theorem stAt_ofReal (s0 : StR) (h0 : St.junk (F := Ideal) = s0.toSt) (hl0 : ∀ r, 0 ≤ s0.l r) (I : ℕ → grid0.Coords)
    (Q : ℕ → Fin 1024 → Fin 1024 → ℝ) (X : ℕ → Fin 512 → Fin 1024 → ℝ) (n : ℕ) :
    stAt (F := Ideal) I (fun n => qE (Q n)) (fun n => xE (X n)) n = (stAtR s0 I Q X n).toSt
      ∧ ∀ r, 0 ≤ (stAtR s0 I Q X n).l r := by
  induction n with
  | zero => exact ⟨by rw [stAt_zero, h0, step_ofReal _ _ _ _ hl0]; rfl, stepR_l_nonneg _ _ _ _ hl0⟩
  | succ n ih => exact ⟨by rw [stAt_succ, ih.1, step_ofReal _ _ _ _ ih.2]; rfl, stepR_l_nonneg _ _ _ _ ih.2⟩

end Cert.KernelIdeal.Attn

end
-- ==== Proof.RealInv.lean ====
/-
  The streamed softmax over the reals. Through the eight points of a batch (two query tiles of four key tiles each)
  the running normaliser and weighted sum of a query row are, whatever real number m the running maximum is,
      l = ∑_{keys seen} exp(s_k - m),     acc_d = ∑_{keys seen} exp(s_k - m)·x_{k,d},
  because exp(m - m')·exp(s - m) = exp(s - m'); so acc_d / l is the softmax-weighted sum once all keys are seen, m
  cancelling. The output row collects the two query tiles' normalised rows scaled by 1/2048, and the running column
  sums collect every score once; at a batch's last point they are the two results' rows of that batch.
-/
import proofs.«406335_j42030549959205_3_alg».proof.Proof.KIReal
import proofs.«406335_j42030549959205_3_alg».proof.Proof.KIShared
import Mathlib.Analysis.SpecialFunctions.Exp
import Mathlib.Algebra.BigOperators.Fin
import Mathlib.Algebra.BigOperators.Group.Finset.Basic

noncomputable section

open scoped BigOperators

/-! ## Sums over the first keys or rows, and the streamed-softmax algebra -/

namespace Cert.SoftmaxSum

/-- A function on the first `N` naturals, extended by zero to all naturals. -/
def extN {N : ℕ} (f : Fin N → ℝ) (k : ℕ) : ℝ := if h : k < N then f ⟨k, h⟩ else 0

theorem extN_fin {N : ℕ} (f : Fin N → ℝ) (k : Fin N) : extN f k.val = f k := dif_pos k.isLt

/-- The sum of the extension over the first `N` naturals is the sum over `Fin N`. -/
theorem sum_range_extN {N : ℕ} (f : Fin N → ℝ) : ∑ k ∈ Finset.range N, extN f k = ∑ k : Fin N, f k := by
  rw [Finset.sum_range]; exact Finset.sum_congr rfl fun k _ => extN_fin f k

/-- Appending a tile of `c` terms to the sum of the first `a` terms. -/
theorem sum_range_tile (g : ℕ → ℝ) (a c : ℕ) (t : Fin c → ℝ) (ht : ∀ i : Fin c, t i = g (a + i.val)) :
    ∑ k ∈ Finset.range a, g k + ∑ i : Fin c, t i = ∑ k ∈ Finset.range (a + c), g k := by
  rw [Finset.sum_range_add, Finset.sum_range (fun i => g (a + i))]
  congr 1; exact Finset.sum_congr rfl fun i _ => ht i

/-- The normaliser after one more tile: exp(m - m')·exp(s - m) = exp(s - m'). -/
theorem stream_l (s : ℕ → ℝ) (a c : ℕ) (m m' l : ℝ) (t : Fin c → ℝ) (ht : ∀ i : Fin c, t i = s (a + i.val))
    (hl : l = ∑ k ∈ Finset.range a, Real.exp (s k - m)) :
    Real.exp (m - m') * l + ∑ i : Fin c, Real.exp (t i - m')
      = ∑ k ∈ Finset.range (a + c), Real.exp (s k - m') := by
  rw [← sum_range_tile (fun k => Real.exp (s k - m')) a c (fun i => Real.exp (t i - m')) (fun i => by rw [ht i]),
    hl, Finset.mul_sum]
  congr 1
  refine Finset.sum_congr rfl fun k _ => ?_
  rw [← Real.exp_add]; congr 1; ring

/-- The weighted sum after one more tile. -/
theorem stream_acc (s v : ℕ → ℝ) (a c : ℕ) (m m' A : ℝ) (t u : Fin c → ℝ)
    (ht : ∀ i : Fin c, t i = s (a + i.val)) (hu : ∀ i : Fin c, u i = v (a + i.val))
    (hA : A = ∑ k ∈ Finset.range a, Real.exp (s k - m) * v k) :
    Real.exp (m - m') * A + ∑ i : Fin c, Real.exp (t i - m') * u i
      = ∑ k ∈ Finset.range (a + c), Real.exp (s k - m') * v k := by
  rw [← sum_range_tile (fun k => Real.exp (s k - m') * v k) a c (fun i => Real.exp (t i - m') * u i)
    (fun i => by rw [ht i, hu i]), hA, Finset.mul_sum]
  congr 1
  refine Finset.sum_congr rfl fun k _ => ?_
  rw [← mul_assoc, ← Real.exp_add]; congr 2; ring

/-- Once all keys are in, the weighted sum over the normaliser is the softmax-weighted sum: the maximum cancels. -/
theorem softmax_quot {N : ℕ} (s v : Fin N → ℝ) (m l A : ℝ)
    (hl : l = ∑ k ∈ Finset.range N, Real.exp (extN s k - m))
    (hA : A = ∑ k ∈ Finset.range N, Real.exp (extN s k - m) * extN v k) :
    A * (1 / l) = ∑ k : Fin N, Real.exp (s k) / (∑ k' : Fin N, Real.exp (s k')) * v k := by
  have hl' : l = Real.exp (-m) * ∑ k : Fin N, Real.exp (s k) := by
    rw [hl, Finset.sum_range (fun k => Real.exp (extN s k - m)), Finset.mul_sum]
    refine Finset.sum_congr rfl fun k _ => ?_
    rw [extN_fin s k, sub_eq_add_neg, Real.exp_add, mul_comm]
  have hA' : A = Real.exp (-m) * ∑ k : Fin N, Real.exp (s k) * v k := by
    rw [hA, Finset.sum_range (fun k => Real.exp (extN s k - m) * extN v k), Finset.mul_sum]
    refine Finset.sum_congr rfl fun k _ => ?_
    rw [extN_fin s k, extN_fin v k, sub_eq_add_neg, Real.exp_add]; ring
  rw [hl', hA', mul_one_div, mul_div_mul_left _ _ (Real.exp_ne_zero _), Finset.sum_div]
  refine Finset.sum_congr rfl fun k _ => ?_
  ring

end Cert.SoftmaxSum

namespace Cert.KernelIdeal.Attn

open Idealize.ShloMosaic Idealize.ShloMosaic.ValueIdx Cert.KernelIdeal Cert.KernelIdeal.Gen Cert.Spec
open Cert.SoftmaxSum

/-! ## The coordinates and the four conditions at point `n` -/

/-- Point `n` as a position of the grid. -/
def pt (n : ℕ) : Fin grid0.N := ⟨n % 256, Nat.mod_lt _ (by norm_num)⟩

theorem ptC_eq (n : ℕ) : ptC n = grid0.coords (pt n) := rfl

theorem coord2 : ∀ t : Fin grid0.N, (grid0.coords t 2).val = t.val % 4 := by decide +kernel

/-- The key tile of point `n`. -/
theorem ptC_two (n : ℕ) : ((ptC n) 2).val = n % 4 := by
  rw [ptC_eq, coord2]; show n % 256 % 4 = n % 4; omega

/-- The output row and the column sums are zeroed at the first point of a batch. -/
theorem c1_iff (n : ℕ) : k0_cond1 (ptC n) = 1#1 ↔ n % 8 = 0 :=
  (hcond0_0 (pt n)).trans (by show n % 256 % 8 = 0 ↔ n % 8 = 0; omega)

/-- The running maximum, normaliser and weighted sum are reset at the first key tile. -/
theorem fk_iff (n : ℕ) : firstKey (ptC n) ↔ n % 4 = 0 :=
  (hcond0_1 (pt n)).trans (by show n % 256 % 4 = 0 ↔ n % 4 = 0; omega)

/-- The query tile's rows are normalised at the last key tile. -/
theorem c3_iff (n : ℕ) : k0_cond3 (ptC n) = 1#1 ↔ n % 4 = 3 :=
  (hcond0_2 (pt n)).trans (by show n % 256 % 4 = 3 ↔ n % 4 = 3; omega)

/-- The column sums are scaled at the last point of a batch. -/
theorem c4_iff (n : ℕ) : k0_cond4 (ptC n) = 1#1 ↔ n % 8 = 7 :=
  (hcond0_3 (pt n)).trans (by show n % 256 % 8 = 7 ↔ n % 8 = 7; omega)

theorem qrow_congr {p n : ℕ} (h : p / 4 % 2 = n / 4 % 2) (r : Fin 1024) : qrow p r = qrow n r :=
  Fin.ext (by show 1024 * (p / 4 % 2) + r.val = 1024 * (n / 4 % 2) + r.val; rw [h])

/-! ## The components of one step -/

section step
variable (i : grid0.Coords) (q : Fin 1024 → Fin 1024 → ℝ) (x : Fin 512 → Fin 1024 → ℝ) (s : StR)

theorem stepR_l_eq (r : Fin 1024) :
    (stepR i q x s).l r
      = Real.exp ((if firstKey i then fun _ => negBig else s.m) r - (stepR i q x s).m r)
          * (if firstKey i then fun _ => (0 : ℝ) else s.l) r
        + ∑ k : Fin 512, Real.exp (scoreT q x r k - (stepR i q x s).m r) := rfl

theorem stepR_acc_eq (r d : Fin 1024) :
    (stepR i q x s).acc r d
      = Real.exp ((if firstKey i then fun _ => negBig else s.m) r - (stepR i q x s).m r)
          * (if firstKey i then fun _ _ => (0 : ℝ) else s.acc) r d
        + ∑ k : Fin 512, Real.exp (scoreT q x r k - (stepR i q x s).m r) * x k d := rfl

theorem stepR_vis_eq (k : Fin 2048) :
    (stepR i q x s).vis k
      = if k.val / 512 = (i 2).val then
          (if k0_cond1 i = 1#1 then fun _ => (0 : ℝ) else s.vis) k
            + ∑ r : Fin 1024, scoreT q x r ⟨k.val % 512, Nat.mod_lt _ (by norm_num)⟩
        else (if k0_cond1 i = 1#1 then fun _ => (0 : ℝ) else s.vis) k := rfl

theorem stepR_o_eq :
    (stepR i q x s).o
      = if k0_cond3 i = 1#1 then fun d =>
          (if k0_cond1 i = 1#1 then fun _ => (0 : ℝ) else s.o) d
            + (∑ r : Fin 1024, (stepR i q x s).acc r d * (1 / (stepR i q x s).l r)) * (1 / 2048)
        else (if k0_cond1 i = 1#1 then fun _ => (0 : ℝ) else s.o) := rfl

theorem stepR_vo_eq :
    (stepR i q x s).vo = if k0_cond4 i = 1#1 then fun k => (stepR i q x s).vis k * (1 / 2048) else s.vo := rfl

end step

/-! ## The blocks of point `n` in terms of the two arrays -/

section inv
variable (y x : SIn.Idx → ℝ) (b : Fin 32)

/-- The scores of query row `R` of batch `b`, by key row. -/
def Sc (R : Fin 2048) : ℕ → ℝ := extN fun k : Fin 2048 => score y x b R k
/-- Column `d` of the value rows of batch `b`, by key row. -/
def Xv (d : Fin 1024) : ℕ → ℝ := extN fun k : Fin 2048 => x (ix3 b k d)
/-- The scores against key row `k` of batch `b`, by query row. -/
def Col (k : Fin 2048) : ℕ → ℝ := extN fun R : Fin 2048 => score y x b R k
/-- Each query row's share of column `d` of the second result's row `b`. -/
def Oc (d : Fin 1024) : ℕ → ℝ :=
  extN fun R : Fin 2048 => (∑ k : Fin 2048, wt y x b R k * x (ix3 b k d)) * (1 / 2048)

theorem scoreT_eq (n : ℕ) (hb : bat n = b) (r : Fin 1024) (i : Fin 512) :
    scoreT (QR y n) (XR x n) r i = score y x b (qrow n r) (krow n i) := by
  subst hb; unfold scoreT QR XR score; exact (div_eq_mul_one_div _ _).symm

theorem Sc_tile (R : Fin 2048) (n : ℕ) (i : Fin 512) :
    Sc y x b R (512 * (n % 4) + i.val) = score y x b R (krow n i) :=
  extN_fin (fun k : Fin 2048 => score y x b R k) (krow n i)

theorem Xv_tile (d : Fin 1024) (n : ℕ) (hb : bat n = b) (i : Fin 512) :
    XR x n i d = Xv x b d (512 * (n % 4) + i.val) := by
  subst hb; exact (extN_fin (fun k : Fin 2048 => x (ix3 (bat n) k d)) (krow n i)).symm

theorem Col_tile (k : Fin 2048) (n : ℕ) (r : Fin 1024) :
    Col y x b k (1024 * (n / 4 % 2) + r.val) = score y x b (qrow n r) k :=
  extN_fin (fun R : Fin 2048 => score y x b R k) (qrow n r)

theorem Oc_tile (d : Fin 1024) (n : ℕ) (r : Fin 1024) :
    Oc y x b d (1024 * (n / 4 % 2) + r.val)
      = (∑ k : Fin 2048, wt y x b (qrow n r) k * x (ix3 b k d)) * (1 / 2048) :=
  extN_fin (fun R : Fin 2048 => (∑ k : Fin 2048, wt y x b R k * x (ix3 b k d)) * (1 / 2048)) (qrow n r)

/-- What the carried state holds after point `n` (query tile `n / 4 % 2`, key tile `n % 4`) of batch `b`: the
    normaliser and the weighted sum over the keys seen so far, relative to the running maximum; the column sums over
    the query rows seen so far for each key tile; the output row over the query tiles finished so far. -/
structure Inv (n : ℕ) (s : StR) : Prop where
  hl : ∀ r, s.l r = ∑ k ∈ Finset.range (512 * (n % 4) + 512), Real.exp (Sc y x b (qrow n r) k - s.m r)
  hacc : ∀ r d, s.acc r d
    = ∑ k ∈ Finset.range (512 * (n % 4) + 512), Real.exp (Sc y x b (qrow n r) k - s.m r) * Xv x b d k
  hvis : ∀ k : Fin 2048, s.vis k
    = ∑ R ∈ Finset.range (if k.val / 512 ≤ n % 4 then 1024 * (n / 4 % 2) + 1024 else 1024 * (n / 4 % 2)), Col y x b k R
  ho : ∀ d, s.o d
    = ∑ R ∈ Finset.range (if n % 4 = 3 then 1024 * (n / 4 % 2) + 1024 else 1024 * (n / 4 % 2)), Oc y x b d R

/-- One point keeps the invariant; the first point of a batch establishes it from any state. -/
theorem step_inv (n : ℕ) (s : StR) (hb : bat n = b)
    (h : n % 8 ≠ 0 → ∃ p, n = p + 1 ∧ Inv y x b p s) :
    Inv y x b n (stepR (ptC n) (QR y n) (XR x n) s) := by
  have hc2 := ptC_two n
  -- the state after the resets: the sums over the keys, rows and tiles before this point
  have P_l : ∀ r, (if firstKey (ptC n) then fun _ => (0 : ℝ) else s.l) r
      = ∑ k ∈ Finset.range (512 * (n % 4)),
          Real.exp (Sc y x b (qrow n r) k - (if firstKey (ptC n) then fun _ => negBig else s.m) r) := by
    intro r
    by_cases h4 : n % 4 = 0
    · have hfk := (fk_iff n).2 h4
      rw [if_pos hfk, if_pos hfk, h4]; simp
    · have hfk : ¬ firstKey (ptC n) := fun hh => h4 ((fk_iff n).1 hh)
      obtain ⟨p, hn, hp⟩ := h (by omega)
      rw [if_neg hfk, if_neg hfk, hp.hl r, qrow_congr (show p / 4 % 2 = n / 4 % 2 by omega) r,
        show 512 * (p % 4) + 512 = 512 * (n % 4) by omega]
  have P_acc : ∀ r d, (if firstKey (ptC n) then fun _ _ => (0 : ℝ) else s.acc) r d
      = ∑ k ∈ Finset.range (512 * (n % 4)),
          Real.exp (Sc y x b (qrow n r) k - (if firstKey (ptC n) then fun _ => negBig else s.m) r) * Xv x b d k := by
    intro r d
    by_cases h4 : n % 4 = 0
    · have hfk := (fk_iff n).2 h4
      rw [if_pos hfk, if_pos hfk, h4]; simp
    · have hfk : ¬ firstKey (ptC n) := fun hh => h4 ((fk_iff n).1 hh)
      obtain ⟨p, hn, hp⟩ := h (by omega)
      rw [if_neg hfk, if_neg hfk, hp.hacc r d, qrow_congr (show p / 4 % 2 = n / 4 % 2 by omega) r,
        show 512 * (p % 4) + 512 = 512 * (n % 4) by omega]
  have P_vis : ∀ k : Fin 2048, (if k0_cond1 (ptC n) = 1#1 then fun _ => (0 : ℝ) else s.vis) k
      = ∑ R ∈ Finset.range (if k.val / 512 < n % 4 then 1024 * (n / 4 % 2) + 1024 else 1024 * (n / 4 % 2)),
          Col y x b k R := by
    intro k
    have hk := k.isLt
    by_cases h8 : n % 8 = 0
    · have hc := (c1_iff n).2 h8
      have e : (if k.val / 512 < n % 4 then 1024 * (n / 4 % 2) + 1024 else 1024 * (n / 4 % 2)) = 0 := by
        split_ifs <;> omega
      rw [if_pos hc, e]; simp
    · have hc : ¬ k0_cond1 (ptC n) = 1#1 := fun hh => h8 ((c1_iff n).1 hh)
      obtain ⟨p, hn, hp⟩ := h h8
      have e : (if k.val / 512 ≤ p % 4 then 1024 * (p / 4 % 2) + 1024 else 1024 * (p / 4 % 2))
          = (if k.val / 512 < n % 4 then 1024 * (n / 4 % 2) + 1024 else 1024 * (n / 4 % 2)) := by
        split_ifs <;> omega
      rw [if_neg hc, hp.hvis k, e]
  have P_o : ∀ d, (if k0_cond1 (ptC n) = 1#1 then fun _ => (0 : ℝ) else s.o) d
      = ∑ R ∈ Finset.range (1024 * (n / 4 % 2)), Oc y x b d R := by
    intro d
    by_cases h8 : n % 8 = 0
    · have hc := (c1_iff n).2 h8
      rw [if_pos hc, show n / 4 % 2 = 0 by omega]; simp
    · have hc : ¬ k0_cond1 (ptC n) = 1#1 := fun hh => h8 ((c1_iff n).1 hh)
      obtain ⟨p, hn, hp⟩ := h h8
      have e : (if p % 4 = 3 then 1024 * (p / 4 % 2) + 1024 else 1024 * (p / 4 % 2)) = 1024 * (n / 4 % 2) := by
        split_ifs <;> omega
      rw [if_neg hc, hp.ho d, e]
  -- the streamed softmax with this point's tile of 512 keys
  have hl' : ∀ r, (stepR (ptC n) (QR y n) (XR x n) s).l r
      = ∑ k ∈ Finset.range (512 * (n % 4) + 512),
          Real.exp (Sc y x b (qrow n r) k - (stepR (ptC n) (QR y n) (XR x n) s).m r) := fun r =>
    (stepR_l_eq _ _ _ _ r).trans
      (stream_l (Sc y x b (qrow n r)) (512 * (n % 4)) 512 _ _ _ (scoreT (QR y n) (XR x n) r)
        (fun i => (scoreT_eq y x b n hb r i).trans (Sc_tile y x b (qrow n r) n i).symm) (P_l r))
  have hacc' : ∀ r d, (stepR (ptC n) (QR y n) (XR x n) s).acc r d
      = ∑ k ∈ Finset.range (512 * (n % 4) + 512),
          Real.exp (Sc y x b (qrow n r) k - (stepR (ptC n) (QR y n) (XR x n) s).m r) * Xv x b d k := fun r d =>
    (stepR_acc_eq _ _ _ _ r d).trans
      (stream_acc (Sc y x b (qrow n r)) (Xv x b d) (512 * (n % 4)) 512 _ _ _ (scoreT (QR y n) (XR x n) r)
        (fun i => XR x n i d)
        (fun i => (scoreT_eq y x b n hb r i).trans (Sc_tile y x b (qrow n r) n i).symm)
        (fun i => Xv_tile x b d n hb i) (P_acc r d))
  refine ⟨hl', hacc', ?_, ?_⟩
  · -- the column sums: this point adds its 1024 query rows to the columns of its key tile
    intro k
    have hk := k.isLt
    rw [stepR_vis_eq, hc2]
    by_cases hkt : k.val / 512 = n % 4
    · have e : (if k.val / 512 ≤ n % 4 then 1024 * (n / 4 % 2) + 1024 else 1024 * (n / 4 % 2))
          = 1024 * (n / 4 % 2) + 1024 := by
        split_ifs <;> omega
      have e0 : (if k.val / 512 < n % 4 then 1024 * (n / 4 % 2) + 1024 else 1024 * (n / 4 % 2))
          = 1024 * (n / 4 % 2) := by
        split_ifs <;> omega
      rw [if_pos hkt, P_vis k, e, e0]
      refine sum_range_tile (Col y x b k) (1024 * (n / 4 % 2)) 1024 _ (fun r => ?_)
      show scoreT (QR y n) (XR x n) r ⟨k.val % 512, _⟩ = Col y x b k (1024 * (n / 4 % 2) + r.val)
      have ek : krow n ⟨k.val % 512, Nat.mod_lt _ (by norm_num)⟩ = k :=
        Fin.ext (by show 512 * (n % 4) + k.val % 512 = k.val; omega)
      rw [scoreT_eq y x b n hb, ek, Col_tile]
    · have e : (if k.val / 512 ≤ n % 4 then 1024 * (n / 4 % 2) + 1024 else 1024 * (n / 4 % 2))
          = (if k.val / 512 < n % 4 then 1024 * (n / 4 % 2) + 1024 else 1024 * (n / 4 % 2)) := by
        split_ifs <;> omega
      rw [if_neg hkt, P_vis k, e]
  · -- the output row: at the last key tile the 1024 query rows are normalised and added
    intro d
    by_cases h3 : n % 4 = 3
    · have hc3 := (c3_iff n).2 h3
      rw [stepR_o_eq, if_pos hc3, if_pos h3]
      show (if k0_cond1 (ptC n) = 1#1 then fun _ => (0 : ℝ) else s.o) d
        + (∑ r : Fin 1024, (stepR (ptC n) (QR y n) (XR x n) s).acc r d
            * (1 / (stepR (ptC n) (QR y n) (XR x n) s).l r)) * (1 / 2048) = _
      rw [P_o d, Finset.sum_mul]
      refine sum_range_tile (Oc y x b d) (1024 * (n / 4 % 2)) 1024 _ (fun r => ?_)
      show (stepR (ptC n) (QR y n) (XR x n) s).acc r d * (1 / (stepR (ptC n) (QR y n) (XR x n) s).l r) * (1 / 2048)
        = Oc y x b d (1024 * (n / 4 % 2) + r.val)
      rw [Oc_tile]
      congr 1
      have e : 512 * (n % 4) + 512 = 2048 := by omega
      have hl2 := hl' r
      have ha2 := hacc' r d
      rw [e] at hl2 ha2
      exact softmax_quot (fun k : Fin 2048 => score y x b (qrow n r) k) (fun k : Fin 2048 => x (ix3 b k d)) _ _ _ hl2 ha2
    · have hc3 : ¬ k0_cond3 (ptC n) = 1#1 := fun hh => h3 ((c3_iff n).1 hh)
      rw [stepR_o_eq, if_neg hc3, if_neg h3, P_o d]

theorem stAtR_is_step (s0 : StR) (I : ℕ → grid0.Coords) (Q : ℕ → Fin 1024 → Fin 1024 → ℝ)
    (X : ℕ → Fin 512 → Fin 1024 → ℝ) (n : ℕ) : ∃ s, stAtR s0 I Q X n = stepR (I n) (Q n) (X n) s := by
  cases n with
  | zero => exact ⟨s0, rfl⟩
  | succ n => exact ⟨_, rfl⟩

theorem bat_eq (j : ℕ) (hj : j < 8) : bat (8 * b.val + j) = b :=
  Fin.ext (by show (8 * b.val + j) / 8 % 32 = b.val; have := b.isLt; omega)

/-- The invariant holds after each of the eight points of batch `b`. -/
theorem inv_at (s0 : StR) :
    ∀ j, j < 8 → Inv y x b (8 * b.val + j) (stAtR s0 ptC (QR y) (XR x) (8 * b.val + j))
  | 0, _ => by
    obtain ⟨s, hs⟩ := stAtR_is_step s0 ptC (QR y) (XR x) (8 * b.val + 0)
    rw [hs]
    exact step_inv y x b _ s (bat_eq b 0 (by norm_num)) (fun hh => absurd (by omega) hh)
  | j + 1, hj => by
    have ih := inv_at s0 j (by omega)
    exact step_inv y x b (8 * b.val + (j + 1)) _ (bat_eq b (j + 1) hj) (fun _ => ⟨8 * b.val + j, rfl, ih⟩)

end inv

/-- After the last point of batch `b` the output row is that batch's row of the second result. -/
theorem final_o (s0 : StR) (y x : SIn.Idx → ℝ) (b : Fin 32) :
    (stAtR s0 ptC (QR y) (XR x) (8 * b.val + 7)).o = fun d => outR y x b d := by
  funext d
  have hi := inv_at y x b s0 7 (by norm_num)
  have e : (if (8 * b.val + 7) % 4 = 3 then 1024 * ((8 * b.val + 7) / 4 % 2) + 1024
      else 1024 * ((8 * b.val + 7) / 4 % 2)) = 2048 := by
    split_ifs <;> omega
  rw [hi.ho d, e]
  unfold Oc outR
  rw [sum_range_extN, ← Finset.sum_mul, mul_one_div]

/-- After the last point of batch `b` the scaled column sums are that batch's row of the first result. -/
theorem final_vo (s0 : StR) (y x : SIn.Idx → ℝ) (b : Fin 32) :
    (stAtR s0 ptC (QR y) (XR x) (8 * b.val + 7)).vo = fun k => visR y x b k := by
  funext k
  have hk := k.isLt
  obtain ⟨s, hs⟩ := stAtR_is_step s0 ptC (QR y) (XR x) (8 * b.val + 7)
  have hi := inv_at y x b s0 7 (by norm_num)
  rw [hs] at hi ⊢
  have hc4 := (c4_iff (8 * b.val + 7)).2 (by omega)
  have e : (if k.val / 512 ≤ (8 * b.val + 7) % 4 then 1024 * ((8 * b.val + 7) / 4 % 2) + 1024
      else 1024 * ((8 * b.val + 7) / 4 % 2)) = 2048 := by
    split_ifs <;> omega
  rw [stepR_vo_eq, if_pos hc4]
  show (stepR (ptC (8 * b.val + 7)) (QR y (8 * b.val + 7)) (XR x (8 * b.val + 7)) s).vis k * (1 / 2048) = _
  rw [hi.hvis k, e]
  unfold Col visR
  rw [sum_range_extN, mul_one_div]

end Cert.KernelIdeal.Attn

end
-- ==== Proof.Finite.lean ====
/-
  The precondition read: when the printed predicate "every entry of both arrays is smaller than +∞ in absolute value"
  is all ones, every entry of both arrays is a real number.
-/
import proofs.«406335_j42030549959205_3_alg».proof.Pre_finite_inputs
import proofs.«406335_j42030549959205_3_alg».proof.Proof.Spec
import Idealize.ShloMosaic.Lib.ReduceAll

noncomputable section

namespace Cert.Finite

open Idealize.ShloMosaic Cert.Spec

/-- The rank-0 shape has one index. -/
instance : Subsingleton Cert.Pre_finite_inputs.S_.Idx := ⟨fun a b => funext fun d => d.elim0⟩

/-- An extended real whose absolute value max x (-x) is strictly below +∞ is a real number:
    ⊥ and ⊤ both have absolute value ⊤. -/
theorem eq_coe_toReal_of_abs_lt_top (x : EReal) (h : max x (-x) < ⊤) : x = ((x.toReal : ℝ) : EReal) := by
  induction x using EReal.rec with
  | bot => simp at h
  | coe r => rw [EReal.toReal_coe]
  | top => simp at h

/-- The f32 pattern 0x7F800000 denotes +∞. -/
theorem ofBits_inf : Ideal.ofBits .f32 0x7F800000#32 = (⊤ : EReal) := by simp [Ideal.ofBits, Ideal.ieee]

/-- One entry of the printed comparison |x| < +∞ being 1 says x is real. -/
theorem real_of_cmp (x : Ideal .f32)
    (h : FloatOps.cmpf .olt (FloatOps.hostAbsf x) (FloatOps.ofBits (F := Ideal) .f32 0x7F800000#32) = 1#1) :
    x = ((EReal.toReal x : ℝ) : EReal) := by
  have h1 : Ideal.cmp .olt (max x (-x)) (Ideal.ofBits .f32 0x7F800000#32) = 1#1 := h
  rw [ofBits_inf] at h1
  refine eq_coe_toReal_of_abs_lt_top x ?_
  by_contra hc
  simp [Ideal.cmp, hc] at h1

/-- Both arrays hold real numbers where the finiteness predicate holds. -/
theorem isReal_of_fn [hP : Cert.Pre_finite_inputs.Facts]
    (A0 A1 : FVec Ideal Cert.Pre_finite_inputs.S32x2048x1024 .f32)
    (h : Cert.Pre_finite_inputs.fn (F := Ideal) A0 A1 = fun _ => 1#1) : IsReal A0 ∧ IsReal A1 := by
  have h0 := congrFun h ValueIdx.ix0
  dsimp only [Cert.Pre_finite_inputs.fn] at h0
  obtain ⟨ha, hb⟩ := IntOp.andi_eq_one.1 h0
  refine ⟨fun j => ?_, fun j => ?_⟩
  · exact real_of_cmp (A0 j) (Host.reduce_andi_all _ _ _ _ _ ha j)
  · exact real_of_cmp (A1 j) (Host.reduce_andi_all _ _ _ _ _ hb j)

end Cert.Finite

end
-- ==== Proof.KIFinalBlocks.lean ====
/-
  The blocks the attention kernel's grid points are fed, as entries of the two argument arrays. Point t of the
  256 (batch t / 8, query tile t / 4 mod 2, key tile t mod 4) loads rows 1024·(t / 4 mod 2) … + 1023 of batch t / 8 of
  the query array and rows 512·(t mod 4) … + 511 of the same batch of the key array: an entry of a block sits in
  its array at block index × block extent + the coordinate inside the block, on every axis.
-/
import proofs.«406335_j42030549959205_3_alg».proof.Proof.KIBody
import proofs.«406335_j42030549959205_3_alg».proof.Proof.KIReal
import Idealize.ShloMosaic.Lib.Pipeline.Value

set_option maxRecDepth 16384

noncomputable section

namespace Cert.KernelIdeal.Attn

open Idealize.ShloMosaic Idealize.ShloMosaic.TcCoe Idealize.ShloMosaic.ValueIdx Idealize.SL.Sem
open Cert.KernelIdeal Cert.KernelIdeal.Gen Cert.Spec

/-- The block indices of the two input windows at point t, on each axis. -/
theorem idx_in : ∀ t : Fin cfg0.N,
    win0_0.index t (0 : Fin 3) = t.val / 8 ∧ win0_0.index t (1 : Fin 3) = t.val / 4 % 2 ∧ win0_0.index t (2 : Fin 3) = 0
    ∧ win0_1.index t (0 : Fin 3) = t.val / 8 ∧ win0_1.index t (1 : Fin 3) = t.val % 4 ∧ win0_1.index t (2 : Fin 3) = 0 :=
  (by decide +kernel : ∀ t : Fin grid0.N, _)

section
variable {F : FTy → Type} [FloatOps F]
variable (m : (ℓ : Loc nD τ sig) → Buf (Elt F) ℓ)

/-- The query window's block at point t: entry (0, r, d) is entry (t / 8, 1024·(t / 4 mod 2) + r, d) of the query
    array. -/
theorem iblk0_apply (c : Dev nD) (t : Fin cfg0.N) (x : S1x1024x1024.Idx) (k : S32x2048x1024.Idx)
    (hk0 : (k 0).val = t.val / 8) (hk1 : (k 1).val = 1024 * (t.val / 4 % 2) + (x 1).val) (hk2 : (k 2).val = (x 2).val) :
    (iblk m c 0 t : Vec F S1x1024x1024 .f32) x = (m ((c : Thread nD τ).loc main_arg1) : S32x2048x1024.Idx → Elt F .f32) k := by
  obtain ⟨e0, e1, e2, -, -, -⟩ := idx_in t
  unfold iblk
  rw [View.read_apply]
  show V m c main_arg1 _ = m (c.tc.loc main_arg1) _
  unfold V
  congr 1
  funext a
  apply Fin.ext
  have hx0 : (x 0).val < 1 := (x 0).isLt
  match a with
  | ⟨0, _⟩ => show win0_0.index t 0 * 1 + 1 * (x 0).val = (k 0).val; rw [e0, hk0]; omega
  | ⟨1, _⟩ => show win0_0.index t 1 * 1024 + 1 * (x 1).val = (k 1).val; rw [e1, hk1]; omega
  | ⟨2, _⟩ => show win0_0.index t 2 * 1024 + 1 * (x 2).val = (k 2).val; rw [e2, hk2]; omega

/-- The key window's block at point t: entry (0, r, d) is entry (t / 8, 512·(t mod 4) + r, d) of the key array. -/
theorem iblk1_apply (c : Dev nD) (t : Fin cfg0.N) (x : S1x512x1024.Idx) (k : S32x2048x1024.Idx)
    (hk0 : (k 0).val = t.val / 8) (hk1 : (k 1).val = 512 * (t.val % 4) + (x 1).val) (hk2 : (k 2).val = (x 2).val) :
    (iblk m c 1 t : Vec F S1x512x1024 .f32) x = (m ((c : Thread nD τ).loc main_arg0) : S32x2048x1024.Idx → Elt F .f32) k := by
  obtain ⟨-, -, -, e0, e1, e2⟩ := idx_in t
  unfold iblk
  rw [View.read_apply]
  show V m c main_arg0 _ = m (c.tc.loc main_arg0) _
  unfold V
  congr 1
  funext a
  apply Fin.ext
  have hx0 : (x 0).val < 1 := (x 0).isLt
  match a with
  | ⟨0, _⟩ => show win0_1.index t 0 * 1 + 1 * (x 0).val = (k 0).val; rw [e0, hk0]; omega
  | ⟨1, _⟩ => show win0_1.index t 1 * 512 + 1 * (x 1).val = (k 1).val; rw [e1, hk1]; omega
  | ⟨2, _⟩ => show win0_1.index t 2 * 1024 + 1 * (x 2).val = (k 2).val; rw [e2, hk2]; omega

end

section
variable (m : (ℓ : Loc nD τ sig) → Buf (Elt Ideal) ℓ)

/-- The query block fed to point n, on a query array of real numbers, is the coerced real block. -/
theorem Qb_real (c : Dev nD) (h1 : IsReal (m ((c.tc : Thread nD τ).loc main_arg1))) (n : ℕ) :
    Qb (F := Ideal) m c n = qE (QR (re (m ((c.tc : Thread nD τ).loc main_arg1))) n) := by
  funext j
  have hv : (ptG n).val = n % 256 := rfl
  refine (iblk0_apply m c (ptG n) j (ix3 (bat n) (qrow n (j 1)) (j 2)) ?_ ?_ rfl).trans ?_
  · show n / 8 % 32 = (ptG n).val / 8
    rw [hv]; omega
  · show 1024 * (n / 4 % 2) + (j 1).val = 1024 * ((ptG n).val / 4 % 2) + (j 1).val
    rw [hv]; omega
  · exact h1 (ix3 (bat n) (qrow n (j 1)) (j 2))

/-- The key block fed to point n, on a key array of real numbers, is the coerced real block. -/
theorem Xb_real (c : Dev nD) (h0 : IsReal (m ((c.tc : Thread nD τ).loc main_arg0))) (n : ℕ) :
    Xb (F := Ideal) m c n = xE (XR (re (m ((c.tc : Thread nD τ).loc main_arg0))) n) := by
  funext j
  have hv : (ptG n).val = n % 256 := rfl
  refine (iblk1_apply m c (ptG n) j (ix3 (bat n) (krow n (j 1)) (j 2)) ?_ ?_ rfl).trans ?_
  · show n / 8 % 32 = (ptG n).val / 8
    rw [hv]; omega
  · show 512 * (n % 4) + (j 1).val = 512 * ((ptG n).val % 4) + (j 1).val
    rw [hv]; omega
  · exact h0 (ix3 (bat n) (krow n (j 1)) (j 2))

end

end Cert.KernelIdeal.Attn

end
-- ==== Proof.KIFinal.lean ====
/-
  The attention kernel's two results at the ideal instance, on arrays holding real numbers. The launch leaves in the
  first output array, batch by batch, the output row the carried state holds after the batch's last point, and in the
  second the scaled column sums; the two reshapes after the region drop the unit axis. The blocks fed to the points
  are blocks of the two argument arrays, so the carried state is the coercion of the real state, whose last-point
  values are the two results' rows.
-/
import proofs.«406335_j42030549959205_3_alg».proof.Defs
import proofs.«406335_j42030549959205_3_alg».proof.Proof.Gen.Pre_finite_inputs
import proofs.«406335_j42030549959205_3_alg».proof.Proof.KIBody
import proofs.«406335_j42030549959205_3_alg».proof.Proof.PayReal
import proofs.«406335_j42030549959205_3_alg».proof.Proof.RealInv
import proofs.«406335_j42030549959205_3_alg».proof.Proof.Finite
import proofs.«406335_j42030549959205_3_alg».proof.Proof.KIFinalBlocks
import Idealize.ShloMosaic.Lib.Pipeline.Value
import Idealize.ShloMosaic.Lib.ValueLayout

set_option maxRecDepth 16384

noncomputable section

open scoped BigOperators

namespace Cert.KernelIdeal.Attn

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg)

/-- The query block fed to point `n` is that point's block of the query array (the program's second argument). -/
theorem Qb_eq (c : Dev nD) (h1 : IsReal (m ((c.tc : Thread nD τ).loc main_arg1))) (n : ℕ) :
    Qb (F := Ideal) m c n = qE (QR (re (m ((c.tc : Thread nD τ).loc main_arg1))) n) := by
  exact Qb_real m c h1 n

/-- The key block fed to point `n` is that point's block of the key array (the program's first argument). -/
theorem Xb_eq (c : Dev nD) (h0 : IsReal (m ((c.tc : Thread nD τ).loc main_arg0))) (n : ℕ) :
    Xb (F := Ideal) m c n = xE (XR (re (m ((c.tc : Thread nD τ).loc main_arg0))) n) := by
  exact Xb_real m c h0 n

/-- The carried state on arrays of real numbers is the coercion of the real state. -/
theorem sAt_real (c : Dev nD) (h0 : IsReal (m ((c.tc : Thread nD τ).loc main_arg0)))
    (h1 : IsReal (m ((c.tc : Thread nD τ).loc main_arg1))) (s0 : StR) (hs0 : St.junk (F := Ideal) = s0.toSt)
    (hl0 : ∀ r, 0 ≤ s0.l r) (n : ℕ) :
    sAt (F := Ideal) m c n
      = (stAtR s0 ptC (QR (re (m ((c.tc : Thread nD τ).loc main_arg1)))) (XR (re (m ((c.tc : Thread nD τ).loc main_arg0)))) n).toSt := by
  have hQ : Qb (F := Ideal) m c = fun n => qE (QR (re (m ((c.tc : Thread nD τ).loc main_arg1))) n) :=
    funext fun n => Qb_real m c h1 n
  have hX : Xb (F := Ideal) m c = fun n => xE (XR (re (m ((c.tc : Thread nD τ).loc main_arg0))) n) :=
    funext fun n => Xb_real m c h0 n
  have hI : ptI = ptC := funext fun n => rfl
  unfold sAt
  rw [hQ, hX, hI]
  exact (stAt_ofReal s0 hs0 hl0 ptC _ _ n).1

/-- After the last point of batch b the output block holds that batch's row of the second result. -/
theorem o_final (c : Dev nD) (h0 : IsReal (m ((c.tc : Thread nD τ).loc main_arg0)))
    (h1 : IsReal (m ((c.tc : Thread nD τ).loc main_arg1))) (n : ℕ) (b : Fin 32) (hn : n = 8 * b.val + 7) :
    (sAt (F := Ideal) m c n).o
      = fun j => ((outR (re (m ((c.tc : Thread nD τ).loc main_arg1))) (re (m ((c.tc : Thread nD τ).loc main_arg0))) b (j 2) : ℝ) : EReal) := by
  obtain ⟨s0, hs0, hl0⟩ := junk_ofReal
  rw [sAt_real m c h0 h1 s0 hs0 hl0 n, hn]
  show (fun j : S1x1x1024.Idx => (((stAtR s0 ptC _ _ (8 * b.val + 7)).o (j 2) : ℝ) : EReal)) = _
  rw [final_o]

/-- After the last point of batch b the second output block holds that batch's row of the first result. -/
theorem vo_final (c : Dev nD) (h0 : IsReal (m ((c.tc : Thread nD τ).loc main_arg0)))
    (h1 : IsReal (m ((c.tc : Thread nD τ).loc main_arg1))) (n : ℕ) (b : Fin 32) (hn : n = 8 * b.val + 7) :
    (sAt (F := Ideal) m c n).vo
      = fun j => ((visR (re (m ((c.tc : Thread nD τ).loc main_arg1))) (re (m ((c.tc : Thread nD τ).loc main_arg0))) b (j 2) : ℝ) : EReal) := by
  obtain ⟨s0, hs0, hl0⟩ := junk_ofReal
  rw [sAt_real m c h0 h1 s0 hs0 hl0 n, hn]
  show (fun j : S1x1x2048.Idx => (((stAtR s0 ptC _ _ (8 * b.val + 7)).vo (j 2) : ℝ) : EReal)) = _
  rw [final_vo]

/-- The block indices of the two output windows at point t. -/
theorem idx_out : ∀ t : Fin cfg0.N,
    win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

/-- A row written back at point t, read as the block of the array whose batch t / 8 holds that row. -/
theorem cut_row2 (t : Fin cfg0.N) (b : Fin 32) (hb : b.val = t.val / 8) (f : Fin 32 → Fin 1024 → ℝ) :
    (cfg0.win 2).cut (grid0.coords t) (fun j : S1x1x1024.Idx => ((f b (j 2) : ℝ) : EReal))
      = ((cfg0.win 2).blk t).view.read (Elt Ideal) (fun j : S32x1x1024.Idx => ((f (j 0) (j 2) : ℝ) : EReal)) := by
  obtain ⟨e0, e1, e2, -, -, -⟩ := idx_out t
  funext y
  have hy0 : (y 0).val < 1 := (y 0).isLt
  have hA : b = (((cfg0.win 2).blk t).view.emb y 0 : Fin 32) := Fin.ext (by
    show b.val = win0_2.index t 0 * 1 + 1 * (y 0).val
    rw [e0, hb]; omega)
  have hB : (((cfg0.win 2).xinj (grid0.coords t) y 2 : Fin 1024)) = (((cfg0.win 2).blk t).view.emb y 2 : Fin 1024) := Fin.ext (by
    show (y 2).val = win0_2.index t 2 * 1024 + 1 * (y 2).val
    rw [e2]; omega)
  exact congrArg (fun r : ℝ => (r : EReal)) (congr (congrArg f hA) hB)

/-- The same for the second output window, whose rows have 2048 entries. -/
theorem cut_row3 (t : Fin cfg0.N) (b : Fin 32) (hb : b.val = t.val / 8) (f : Fin 32 → Fin 2048 → ℝ) :
    (cfg0.win 3).cut (grid0.coords t) (fun j : S1x1x2048.Idx => ((f b (j 2) : ℝ) : EReal))
      = ((cfg0.win 3).blk t).view.read (Elt Ideal) (fun j : S32x1x2048.Idx => ((f (j 0) (j 2) : ℝ) : EReal)) := by
  obtain ⟨-, -, -, e0, e1, e2⟩ := idx_out t
  funext y
  have hy0 : (y 0).val < 1 := (y 0).isLt
  have hA : b = (((cfg0.win 3).blk t).view.emb y 0 : Fin 32) := Fin.ext (by
    show b.val = win0_3.index t 0 * 1 + 1 * (y 0).val
    rw [e0, hb]; omega)
  have hB : (((cfg0.win 3).xinj (grid0.coords t) y 2 : Fin 2048)) = (((cfg0.win 3).blk t).view.emb y 2 : Fin 2048) := Fin.ext (by
    show (y 2).val = win0_3.index t 2 * 2048 + 1 * (y 2).val
    rw [e2]; omega)
  exact congrArg (fun r : ℝ => (r : EReal)) (congr (congrArg f hA) hB)

section
variable (c : Dev nD) (h0 : IsReal (m ((c.tc : Thread nD τ).loc main_arg0)))
  (h1 : IsReal (m ((c.tc : Thread nD τ).loc main_arg1)))
include h0 h1

/-- What a write-back of the first output window writes is its block of the second result with a unit axis. -/
theorem flushed2_eq (t : Fin cfg0.N) (hf : (cfg0.win 2).flush t = true) :
    (dats m 0 c).flushed 2 t = ((cfg0.win 2).blk t).view.read (Elt Ideal)
      (fun j : S32x1x1024.Idx => ((outR (re (m ((c.tc : Thread nD τ).loc main_arg1))) (re (m ((c.tc : Thread nD τ).loc main_arg0))) (j 0) (j 2) : ℝ) : EReal)) := by
  have h7 : t.val % 8 = 7 := (flush0_2 t).mp hf
  have hN : t.val < 256 := lt_of_lt_of_eq t.isLt N_0
  show (cfg0.win 2).cut (grid0.coords t) ((dats m 0 c).after 2 t) = _
  rw [after0_2, o_final m c h0 h1 t.val ⟨t.val / 8, by omega⟩ (by show t.val = 8 * (t.val / 8) + 7; omega)]
  exact cut_row2 t ⟨t.val / 8, by omega⟩ rfl _

/-- What a write-back of the second output window writes is its block of the first result with a unit axis. -/
theorem flushed3_eq (t : Fin cfg0.N) (hf : (cfg0.win 3).flush t = true) :
    (dats m 0 c).flushed 3 t = ((cfg0.win 3).blk t).view.read (Elt Ideal)
      (fun j : S32x1x2048.Idx => ((visR (re (m ((c.tc : Thread nD τ).loc main_arg1))) (re (m ((c.tc : Thread nD τ).loc main_arg0))) (j 0) (j 2) : ℝ) : EReal)) := by
  have h7 : t.val % 8 = 7 := (flush0_3 t).mp hf
  have hN : t.val < 256 := lt_of_lt_of_eq t.isLt N_0
  show (cfg0.win 3).cut (grid0.coords t) ((dats m 0 c).after 3 t) = _
  rw [after0_3, vo_final m c h0 h1 t.val ⟨t.val / 8, by omega⟩ (by show t.val = 8 * (t.val / 8) + 7; omega)]
  exact cut_row3 t ⟨t.val / 8, by omega⟩ rfl _

end

/-! ## The two output arrays after the launch -/

/-- An index of the first output array is in point t's block iff each coordinate is in the block's range. -/
theorem mem_blk2 (t : Fin cfg0.N) (i : S32x1x1024.Idx) :
    i ∈ ((cfg0.win 2).blk t).view.set ↔ ∀ a : Fin 3, win0_2.index t a * S1x1x1024.size a ≤ (i a).val ∧ (i a).val < win0_2.index t a * S1x1x1024.size a + S1x1x1024.size a := by
  show i ∈ ((View.whole main_v0_0).slice (win0_2.rect t)).set ↔ _
  rw [View.set_slice_whole, Rect.mem_set_unit]
  exact Iff.rfl

theorem mem_blk3 (t : Fin cfg0.N) (i : S32x1x2048.Idx) :
    i ∈ ((cfg0.win 3).blk t).view.set ↔ ∀ a : Fin 3, win0_3.index t a * S1x1x2048.size a ≤ (i a).val ∧ (i a).val < win0_3.index t a * S1x1x2048.size a + S1x1x2048.size a := by
  show i ∈ ((View.whole main_v0_1).slice (win0_3.rect t)).set ↔ _
  rw [View.set_slice_whole, Rect.mem_set_unit]
  exact Iff.rfl

/-- Batch row b of the first output array is written back at the batch's last point, 8b + 7. -/
theorem cover2 (i : S32x1x1024.Idx) :
    ∃ t : Fin cfg0.N, (cfg0.win 2).flush t = true ∧ i ∈ ((cfg0.win 2).blk t).view.set := by
  have hi0 : (i 0).val < 32 := (i 0).isLt
  have hi1 : (i 1).val < 1 := (i 1).isLt
  have hi2 : (i 2).val < 1024 := (i 2).isLt
  have hlt : 8 * (i 0).val + 7 < cfg0.N := by rw [show cfg0.N = 256 from N_0]; omega
  have hv : (⟨8 * (i 0).val + 7, hlt⟩ : Fin cfg0.N).val = 8 * (i 0).val + 7 := rfl
  refine ⟨⟨8 * (i 0).val + 7, hlt⟩, (flush0_2 _).mpr (by rw [hv]; omega), ?_⟩
  rw [mem_blk2]
  obtain ⟨e0, e1, e2, -, -, -⟩ := idx_out ⟨8 * (i 0).val + 7, hlt⟩
  rw [hv] at e0
  intro a
  match a with
  | ⟨0, _⟩ =>
    show win0_2.index ⟨8 * (i 0).val + 7, hlt⟩ 0 * 1 ≤ (i 0).val ∧ (i 0).val < win0_2.index ⟨8 * (i 0).val + 7, hlt⟩ 0 * 1 + 1
    rw [e0]; omega
  | ⟨1, _⟩ =>
    show win0_2.index ⟨8 * (i 0).val + 7, hlt⟩ 1 * 1 ≤ (i 1).val ∧ (i 1).val < win0_2.index ⟨8 * (i 0).val + 7, hlt⟩ 1 * 1 + 1
    rw [e1]; omega
  | ⟨2, _⟩ =>
    show win0_2.index ⟨8 * (i 0).val + 7, hlt⟩ 2 * 1024 ≤ (i 2).val ∧ (i 2).val < win0_2.index ⟨8 * (i 0).val + 7, hlt⟩ 2 * 1024 + 1024
    rw [e2]; omega

theorem cover3 (i : S32x1x2048.Idx) :
    ∃ t : Fin cfg0.N, (cfg0.win 3).flush t = true ∧ i ∈ ((cfg0.win 3).blk t).view.set := by
  have hi0 : (i 0).val < 32 := (i 0).isLt
  have hi1 : (i 1).val < 1 := (i 1).isLt
  have hi2 : (i 2).val < 2048 := (i 2).isLt
  have hlt : 8 * (i 0).val + 7 < cfg0.N := by rw [show cfg0.N = 256 from N_0]; omega
  have hv : (⟨8 * (i 0).val + 7, hlt⟩ : Fin cfg0.N).val = 8 * (i 0).val + 7 := rfl
  refine ⟨⟨8 * (i 0).val + 7, hlt⟩, (flush0_3 _).mpr (by rw [hv]; omega), ?_⟩
  rw [mem_blk3]
  obtain ⟨-, -, -, e0, e1, e2⟩ := idx_out ⟨8 * (i 0).val + 7, hlt⟩
  rw [hv] at e0
  intro a
  match a with
  | ⟨0, _⟩ =>
    show win0_3.index ⟨8 * (i 0).val + 7, hlt⟩ 0 * 1 ≤ (i 0).val ∧ (i 0).val < win0_3.index ⟨8 * (i 0).val + 7, hlt⟩ 0 * 1 + 1
    rw [e0]; omega
  | ⟨1, _⟩ =>
    show win0_3.index ⟨8 * (i 0).val + 7, hlt⟩ 1 * 1 ≤ (i 1).val ∧ (i 1).val < win0_3.index ⟨8 * (i 0).val + 7, hlt⟩ 1 * 1 + 1
    rw [e1]; omega
  | ⟨2, _⟩ =>
    show win0_3.index ⟨8 * (i 0).val + 7, hlt⟩ 2 * 2048 ≤ (i 2).val ∧ (i 2).val < win0_3.index ⟨8 * (i 0).val + 7, hlt⟩ 2 * 2048 + 2048
    rw [e2]; omega

section
variable (c : Dev nD) (h0 : IsReal (m ((c.tc : Thread nD τ).loc main_arg0)))
  (h1 : IsReal (m ((c.tc : Thread nD τ).loc main_arg1)))
include h0 h1

/-- The first output array after the launch: the second result with a unit axis. -/
theorem final2 : (dats m 0 c).arrAt 2 cfg0.N
    = (fun j : S32x1x1024.Idx => ((outR (re (m ((c.tc : Thread nD τ).loc main_arg1))) (re (m ((c.tc : Thread nD τ).loc main_arg0))) (j 0) (j 2) : ℝ) : EReal)) :=
  (dats m 0 c).arrAt_eq_of_cover 2 _ (fun t hf => flushed2_eq m c h0 h1 t hf) cover2

/-- The second output array after the launch: the first result with a unit axis. -/
theorem final3 : (dats m 0 c).arrAt 3 cfg0.N
    = (fun j : S32x1x2048.Idx => ((visR (re (m ((c.tc : Thread nD τ).loc main_arg1))) (re (m ((c.tc : Thread nD τ).loc main_arg0))) (j 0) (j 2) : ℝ) : EReal)) :=
  (dats m 0 c).arrAt_eq_of_cover 3 _ (fun t hf => flushed3_eq m c h0 h1 t hf) cover3

end

/-! ## The reshapes after the region -/

/-- An [a, 1, b] array cast to [a, b] reads, at (i, j), the operand at (i, 0, j). -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

section
variable (c : Dev nD) (h0 : IsReal (m ((c.tc : Thread nD τ).loc main_arg0)))
  (h1 : IsReal (m ((c.tc : Thread nD τ).loc main_arg1)))
include h0 h1

/-- The first result: the second output array with its unit axis dropped. -/
theorem tail_v1 : Pipeline.afterTail₀ cfgs (dats m) 0 (V0 m) [hostOps1] c main_v1
    = Gvis (m ((c.tc : Thread nD τ).loc main_arg1)) (m ((c.tc : Thread nD τ).loc main_arg0)) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0_1)
      = (fun j : S32x1x2048.Idx => ((visR (re (m ((c.tc : Thread nD τ).loc main_arg1))) (re (m ((c.tc : Thread nD τ).loc main_arg0))) (j 0) (j 2) : ℝ) : EReal)) :=
    (Pipeline.withArrays_arr spec0 launch0.win.arr_inj c _ _ 3).trans (final3 m c h0 h1)
  rw [hw]
  funext i
  exact (congrArg _ (eq_ix2 i)).trans
    (shapeCast_a1b_ab_apply (a := 32) (b := 2048) _ shapeCasts_S32x1x2048_S32x2048 (i 0) (i 1))

/-- The second result: the first output array with its unit axis dropped. -/
theorem tail_v2 : Pipeline.afterTail₀ cfgs (dats m) 0 (V0 m) [hostOps1] c main_v2
    = Gout (m ((c.tc : Thread nD τ).loc main_arg1)) (m ((c.tc : Thread nD τ).loc main_arg0)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v0_0)
      = (fun j : S32x1x1024.Idx => ((outR (re (m ((c.tc : Thread nD τ).loc main_arg1))) (re (m ((c.tc : Thread nD τ).loc main_arg0))) (j 0) (j 2) : ℝ) : EReal)) :=
    (Pipeline.withArrays_arr spec0 launch0.win.arr_inj c _ _ 2).trans (final2 m c h0 h1)
  rw [hw]
  funext i
  exact (congrArg _ (eq_ix2 i)).trans
    (shapeCast_a1b_ab_apply (a := 32) (b := 1024) _ shapeCasts_S32x1x1024_S32x1024 (i 0) (i 1))

end

/-- Under the precondition the program runs, its first result is the mean over the query rows of the scaled scores,
    its second the mean over the query rows of the softmax-weighted value rows, and its arguments are unchanged. -/
theorem kernel_run (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v1) = Gvis (m ((c.tc : Thread nD τ).loc main_arg1)) (m ((c.tc : Thread nD τ).loc main_arg0))
      ∧ r.2.mem ((c.tc : Thread nD τ).loc main_v2) = Gout (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main m ρ)
  obtain ⟨h0, h1⟩ := Cert.Finite.isReal_of_fn _ _ (hpre c)
  refine ⟨?_, ?_, ?_, ?_⟩
  · exact ((h c).2 main_v1 (Pipeline.mem_restRefs_of main_v1 rfl (by decide))).trans (tail_v1 m c h0 h1)
  · exact ((h c).2 main_v2 (Pipeline.mem_restRefs_of main_v2 rfl (by decide))).trans (tail_v2 m c h0 h1)
  · exact ((h c).1 1).trans (((dats m 0 c).arrAt_in 1 rfl _).trans ((A_eq m c 1).trans (V_main_arg0 m c)))
  · exact ((h c).1 0).trans (((dats m 0 c).arrAt_in 0 rfl _).trans ((A_eq m c 0).trans (V_main_arg1 m c)))

end Cert.KernelIdeal.Attn

end
-- ==== Proof.RefValue.lean ====
/-
  What the reference computes, entry by entry, on arrays that hold real numbers: its first result is the mean over
  the query rows of the scaled scores, its second the mean over the query rows of the softmax-weighted sums of the
  value rows. The reference divides the scores by √1024 = 32 and takes the softmax with the row maximum subtracted
  first; over the reals the maximum cancels between numerator and denominator.
-/
import proofs.«406335_j42030549959205_3_alg».proof.Proof.Gen.ReferenceIdeal.Read
import proofs.«406335_j42030549959205_3_alg».proof.Proof.Spec
import proofs.«406335_j42030549959205_3_alg».proof.Proof.CoeReal

noncomputable section

open scoped BigOperators

namespace Cert.ReferenceIdeal.RefValue

open Idealize.ShloMosaic Idealize.ShloMosaic.ValueIdx Cert.ReferenceIdeal Cert.ReferenceIdeal.Gen Cert.ReferenceIdeal.Read Cert.Spec
  Cert.CoeReal

/-! ## The scale and the scores -/

/-- The scale is √1024 = 32. -/
theorem v0_eq (i : S_.Idx) : val_main_v0 (F := Ideal) i = ((32 : ℝ) : EReal) := by
  rw [val_main_v0_apply, val_main_cst_apply]
  show Ideal.sqrt (Ideal.ofBits .f32 0x44800000#32) = _
  rw [ofBits_1024, sqrt_1024]

section
variable (x0 x1 : (⟨S32x2048x1024, .f32⟩ : BufTy).Contents (Elt Ideal)) (h0 : IsReal x0) (h1 : IsReal x1)
include h0 h1

/-- The product of a query row and a key row. -/
theorem v1_eq (b : Fin 32) (r k : Fin 2048) :
    val_main_v1 (F := Ideal) x0 x1 (ix3 b r k)
      = ((∑ d : Fin 1024, re x1 (ix3 b r d) * re x0 (ix3 b k d) : ℝ) : EReal) := by
  rw [val_main_v1_apply]
  refine sum_eq_coe _ _ _ fun d _ => ?_
  have el : lidx_main_v1 (ix3 b r k) d = ix3 b r d := funext fun a => by
    match a with | ⟨0, _⟩ => rfl | ⟨1, _⟩ => rfl | ⟨2, _⟩ => rfl
  have er : ridx_main_v1 (ix3 b r k) d = ix3 b k d := funext fun a => by
    match a with | ⟨0, _⟩ => rfl | ⟨1, _⟩ => rfl | ⟨2, _⟩ => rfl
  rw [el, er, h1 (ix3 b r d), h0 (ix3 b k d)]
  exact (EReal.coe_mul _ _).symm

/-- The scaled score. -/
theorem v3_eq (b : Fin 32) (r k : Fin 2048) :
    val_main_v3 (F := Ideal) x0 x1 (ix3 b r k) = ((score (re x1) (re x0) b r k : ℝ) : EReal) := by
  rw [val_main_v3_apply, v1_eq x0 x1 h0 h1, val_main_v2_apply, v0_eq]
  exact hostDivf_coe _ (by norm_num)

/-- The scaled score at any index. -/
theorem v3_coe (i : S32x2048x2048.Idx) :
    val_main_v3 (F := Ideal) x0 x1 i = ((score (re x1) (re x0) (i 0) (i 1) (i 2) : ℝ) : EReal) :=
  (congrArg (val_main_v3 (F := Ideal) x0 x1) (eq_ix3 i)).trans (v3_eq x0 x1 h0 h1 (i 0) (i 1) (i 2))

/-! ## The first result -/

theorem v15_eq (b : Fin 32) (k : Fin 2048) :
    val_main_v15 (F := Ideal) x0 x1 (ix2 b k) = ((∑ r : Fin 2048, score (re x1) (re x0) b r k : ℝ) : EReal) := by
  rw [val_main_v15_apply, val_main_cst_3_apply]
  show Ideal.ofBits .f32 0x00000000#32 + _ = _
  rw [Ideal.ofBits_zero_f32, zero_add]
  refine sum_eq_coe _ _ _ fun r _ => ?_
  have e : idx_main_v15 (ix2 b k) r = ix3 b r k := funext fun a => by
    match a with | ⟨0, _⟩ => rfl | ⟨1, _⟩ => rfl | ⟨2, _⟩ => rfl
  rw [e]
  exact v3_eq x0 x1 h0 h1 b r k

omit h0 h1 in
theorem v16_eq (i : S32x2048.Idx) : val_main_v16 (F := Ideal) i = ((2048 : ℝ) : EReal) := by
  rw [val_main_v16_apply, val_main_cst_4_apply]
  exact ofBits_2048

theorem v17_eq (b : Fin 32) (k : Fin 2048) :
    val_main_v17 (F := Ideal) x0 x1 (ix2 b k) = ((visR (re x1) (re x0) b k : ℝ) : EReal) := by
  rw [val_main_v17_apply, v15_eq x0 x1 h0 h1, v16_eq]
  exact hostDivf_coe _ (by norm_num)

/-! ## The second result -/

/-- The maximum of a row of scores, joined with -∞, is a real number. -/
theorem v6_real (j : S32x2048.Idx) : ∃ M : ℝ, val_main_v6 (F := Ideal) x0 x1 j = (M : EReal) := by
  have hR : S32x2048x2048.Reduces [2] S32x2048 := by decide
  obtain ⟨M, hM⟩ := fold_max_bot_coe (Finset.univ : Finset (Fin 2048)) ⟨⟨0, by decide⟩, Finset.mem_univ _⟩
    (fun k => score (re x1) (re x0) (hR.lift j k 0) (hR.lift j k 1) (hR.lift j k 2))
  refine ⟨M, ?_⟩
  rw [val_main_v6_apply, val_main_v5_apply, val_main_cst_1_apply]
  unfold val_main_v4
  rw [Host.reduce_eq_fold_single (FloatOps.maximumf (F := Ideal) (φ := .f32)) _ _
    reducesTo_S32x2048x2048_S32x2048_d2 hR h_S_ j]
  have hf : (val_main_v3 (F := Ideal) x0 x1 ∘ hR.lift j)
      = fun k => ((score (re x1) (re x0) (hR.lift j k 0) (hR.lift j k 1) (hR.lift j k 2) : ℝ) : EReal) :=
    funext fun k => v3_coe x0 x1 h0 h1 (hR.lift j k)
  rw [hf, val_main_cst_0_apply]
  show max (Ideal.ofBits .f32 0xFF800000#32) (Finset.fold max (Ideal.ofBits .f32 0xFF800000#32) _ _) = _
  rw [ofBits_neg_inf, max_bot_left]
  exact hM

variable (m : S32x2048.Idx → ℝ) (hm : ∀ j, val_main_v6 (F := Ideal) x0 x1 j = ((m j : ℝ) : EReal))
include hm

omit h0 h1 in
/-- The subtracted row maximum, broadcast along the row. -/
theorem v8_eq (b : Fin 32) (r k : Fin 2048) :
    val_main_v8 (F := Ideal) x0 x1 (ix3 b r k) = ((m (ix2 b r) : ℝ) : EReal) := by
  rw [val_main_v8_apply, val_main_v7_apply]
  have e : idx_main_v7 (idx_main_v8 (ix3 b r k)) = ix2 b r := funext fun a => by
    match a with | ⟨0, _⟩ => rfl | ⟨1, _⟩ => rfl
  rw [e, hm]

/-- The exponential of a score less its row's maximum. -/
theorem v10_eq (b : Fin 32) (r k : Fin 2048) :
    val_main_v10 (F := Ideal) x0 x1 (ix3 b r k)
      = ((Real.exp (score (re x1) (re x0) b r k - m (ix2 b r)) : ℝ) : EReal) := by
  rw [val_main_v10_apply, val_main_v9_apply, v3_eq x0 x1 h0 h1, v8_eq x0 x1 m hm]
  show Ideal.exp (((score (re x1) (re x0) b r k : ℝ) : EReal) - ((m (ix2 b r) : ℝ) : EReal)) = _
  rw [← EReal.coe_sub, Ideal.exp_coe]

/-- The row's normaliser. -/
theorem v11_eq (b : Fin 32) (r : Fin 2048) :
    val_main_v11 (F := Ideal) x0 x1 (ix2 b r)
      = ((∑ k : Fin 2048, Real.exp (score (re x1) (re x0) b r k - m (ix2 b r)) : ℝ) : EReal) := by
  rw [val_main_v11_apply, val_main_cst_2_apply]
  show Ideal.ofBits .f32 0x00000000#32 + _ = _
  rw [Ideal.ofBits_zero_f32, zero_add]
  refine sum_eq_coe _ _ _ fun k _ => ?_
  have e : idx_main_v11 (ix2 b r) k = ix3 b r k := funext fun a => by
    match a with | ⟨0, _⟩ => rfl | ⟨1, _⟩ => rfl | ⟨2, _⟩ => rfl
  rw [e]
  exact v10_eq x0 x1 h0 h1 m hm b r k

theorem v13_eq (b : Fin 32) (r k : Fin 2048) :
    val_main_v13 (F := Ideal) x0 x1 (ix3 b r k)
      = ((∑ k' : Fin 2048, Real.exp (score (re x1) (re x0) b r k' - m (ix2 b r)) : ℝ) : EReal) := by
  rw [val_main_v13_apply, val_main_v12_apply]
  have e : idx_main_v12 (idx_main_v13 (ix3 b r k)) = ix2 b r := funext fun a => by
    match a with | ⟨0, _⟩ => rfl | ⟨1, _⟩ => rfl
  rw [e]
  exact v11_eq x0 x1 h0 h1 m hm b r

/-- The softmax weight: the subtracted maximum cancels. -/
theorem v14_eq (b : Fin 32) (r k : Fin 2048) :
    val_main_v14 (F := Ideal) x0 x1 (ix3 b r k) = ((wt (re x1) (re x0) b r k : ℝ) : EReal) := by
  rw [val_main_v14_apply, v10_eq x0 x1 h0 h1 m hm, v13_eq x0 x1 h0 h1 m hm]
  have hpos : 0 < ∑ k' : Fin 2048, Real.exp (score (re x1) (re x0) b r k' - m (ix2 b r)) :=
    Finset.sum_pos (fun _ _ => Real.exp_pos _) ⟨⟨0, by decide⟩, Finset.mem_univ _⟩
  refine (hostDivf_coe _ hpos.ne').trans (congrArg _ ?_)
  unfold wt
  simp only [Real.exp_sub]
  rw [← Finset.sum_div, div_div_div_cancel_right₀ (Real.exp_pos _).ne']

/-- The weighted sum of the value rows, for one query row. -/
theorem v18_eq (b : Fin 32) (r : Fin 2048) (d : Fin 1024) :
    val_main_v18 (F := Ideal) x0 x1 (ix3 b r d)
      = ((∑ k : Fin 2048, wt (re x1) (re x0) b r k * re x0 (ix3 b k d) : ℝ) : EReal) := by
  rw [val_main_v18_apply]
  refine sum_eq_coe _ _ _ fun k _ => ?_
  have el : lidx_main_v18 (ix3 b r d) k = ix3 b r k := funext fun a => by
    match a with | ⟨0, _⟩ => rfl | ⟨1, _⟩ => rfl | ⟨2, _⟩ => rfl
  have er : ridx_main_v18 (ix3 b r d) k = ix3 b k d := funext fun a => by
    match a with | ⟨0, _⟩ => rfl | ⟨1, _⟩ => rfl | ⟨2, _⟩ => rfl
  rw [el, er, v14_eq x0 x1 h0 h1 m hm, h0 (ix3 b k d)]
  exact (EReal.coe_mul _ _).symm

theorem v19_eq (b : Fin 32) (d : Fin 1024) :
    val_main_v19 (F := Ideal) x0 x1 (ix2 b d)
      = ((∑ r : Fin 2048, ∑ k : Fin 2048, wt (re x1) (re x0) b r k * re x0 (ix3 b k d) : ℝ) : EReal) := by
  rw [val_main_v19_apply, val_main_cst_5_apply]
  show Ideal.ofBits .f32 0x00000000#32 + _ = _
  rw [Ideal.ofBits_zero_f32, zero_add]
  refine sum_eq_coe _ _ _ fun r _ => ?_
  have e : idx_main_v19 (ix2 b d) r = ix3 b r d := funext fun a => by
    match a with | ⟨0, _⟩ => rfl | ⟨1, _⟩ => rfl | ⟨2, _⟩ => rfl
  rw [e]
  exact v18_eq x0 x1 h0 h1 m hm b r d

omit h0 h1 hm in
theorem v20_eq (i : S32x1024.Idx) : val_main_v20 (F := Ideal) i = ((2048 : ℝ) : EReal) := by
  rw [val_main_v20_apply, val_main_cst_6_apply]
  exact ofBits_2048

theorem v21_eq (b : Fin 32) (d : Fin 1024) :
    val_main_v21 (F := Ideal) x0 x1 (ix2 b d) = ((outR (re x1) (re x0) b d : ℝ) : EReal) := by
  rw [val_main_v21_apply, v19_eq x0 x1 h0 h1 m hm, v20_eq]
  exact hostDivf_coe _ (by norm_num)

end

/-- The reference's first result, for key array `x0` (the program's first argument) and query array `x1` (its
    second) holding real numbers. -/
theorem ref_vis (x0 x1 : (⟨S32x2048x1024, .f32⟩ : BufTy).Contents (Elt Ideal)) (h0 : IsReal x0) (h1 : IsReal x1) :
    val_main_v17 (F := Ideal) x0 x1 = Gvis x1 x0 := by
  funext i
  exact (congrArg (val_main_v17 (F := Ideal) x0 x1) (eq_ix2 i)).trans (v17_eq x0 x1 h0 h1 (i 0) (i 1))

/-- The reference's second result. -/
theorem ref_out (x0 x1 : (⟨S32x2048x1024, .f32⟩ : BufTy).Contents (Elt Ideal)) (h0 : IsReal x0) (h1 : IsReal x1) :
    val_main_v21 (F := Ideal) x0 x1 = Gout x1 x0 := by
  funext i
  exact (congrArg (val_main_v21 (F := Ideal) x0 x1) (eq_ix2 i)).trans
    (v21_eq x0 x1 h0 h1 (fun j => (v6_real x0 x1 h0 h1 j).choose) (fun j => (v6_real x0 x1 h0 h1 j).choose_spec) (i 0) (i 1))

end Cert.ReferenceIdeal.RefValue

end
-- ==== Proof.lean ====
/-
  The certificate of the attention-mean kernel. On a key-and-value array x and a query array y, both of shape
  32 × 2048 × 1024, with score b r k = (∑ d, y[b,r,d] · x[b,k,d]) / 32, the kernel returns
      [b,k] ↦ (∑ r, score b r k) / 2048      and      [b,d] ↦ (∑ r, ∑ k, softmax_k(score b r ·) k · x[b,k,d]) / 2048,
  which it computes in a stream: 256 grid points (32 batches × 2 query tiles × 4 key tiles), a running row maximum,
  normaliser and weighted sum rescaled whenever the maximum moves, and running column sums. The claim: whenever every
  entry of both arrays is a real number, the kernel and the reference both run, keep their arguments, and — read over
  the extended reals with exact operations — end with equal results.

  The conjuncts and where each is proved:
    frame_Kernel           the word-level program runs and keeps its arguments (Proof/KBBody.lean);
    frame_KernelIdeal      the same program over the extended reals (Proof/KIBody.lean);
    frame_ReferenceIdeal   the reference's run (Proof/Gen/ReferenceIdeal/Run.lean) with the results dropped;
    preserves              no operation was rewritten between the two readings of the kernel: the claim is True;
    algebraic              the kernel's two results are the functions Gvis, Gout (Proof/Spec.lean) of its arguments
                           (Proof/KIFinal.lean, by the streamed-softmax invariant of Proof/RealInv.lean), and so are the
                           reference's (Proof/RefValue.lean), both arrays holding real numbers under the precondition
                           (Proof/Finite.lean).
-/
import proofs.«406335_j42030549959205_3_alg».proof.Defs
import proofs.«406335_j42030549959205_3_alg».proof.Proof.Gen.Kernel
import proofs.«406335_j42030549959205_3_alg».proof.Proof.Gen.Kernel.Skeleton
import proofs.«406335_j42030549959205_3_alg».proof.Proof.Gen.Kernel.Launch
import proofs.«406335_j42030549959205_3_alg».proof.Proof.Gen.Kernel.Points
import proofs.«406335_j42030549959205_3_alg».proof.Proof.Gen.Kernel.Frame
import proofs.«406335_j42030549959205_3_alg».proof.Proof.Gen.KernelIdeal
import proofs.«406335_j42030549959205_3_alg».proof.Proof.Gen.KernelIdeal.Skeleton
import proofs.«406335_j42030549959205_3_alg».proof.Proof.Gen.KernelIdeal.Launch
import proofs.«406335_j42030549959205_3_alg».proof.Proof.Gen.KernelIdeal.Points
import proofs.«406335_j42030549959205_3_alg».proof.Proof.Gen.KernelIdeal.Frame
import proofs.«406335_j42030549959205_3_alg».proof.Proof.Gen.ReferenceIdeal
import proofs.«406335_j42030549959205_3_alg».proof.Proof.Gen.Pre_finite_inputs
import proofs.«406335_j42030549959205_3_alg».proof.Proof.Gen.ReferenceIdeal.Run
import proofs.«406335_j42030549959205_3_alg».proof.Proof.Gen.ReferenceIdeal.Read
import proofs.«406335_j42030549959205_3_alg».proof.Proof.KBBody
import proofs.«406335_j42030549959205_3_alg».proof.Proof.KIBody
import proofs.«406335_j42030549959205_3_alg».proof.Proof.KIFinal
import proofs.«406335_j42030549959205_3_alg».proof.Proof.RefValue
import proofs.«406335_j42030549959205_3_alg».proof.Proof.Finite
import proofs.«406335_j42030549959205_3_alg».proof.Proof.Spec
import Idealize.ShloMosaic.Adequacy
import Idealize.ShloMosaic.Init

noncomputable section

namespace Cert.Proof

open Idealize.ShloMosaic Idealize.SL.Sem Cert.Spec

/-- The word-level program runs and keeps its two arguments. -/
theorem frame_k : Cert.frame_Kernel := fun m ρ _ => Cert.Kernel.Attn.frame (F := Bits) m ρ

/-- The program over the extended reals runs and keeps its two arguments. -/
theorem frame_ki : Cert.frame_KernelIdeal := fun m ρ _ => Cert.KernelIdeal.Attn.frame (F := Ideal) m ρ

/-- The reference runs and keeps its two arguments: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The kernel over the extended reals is the kernel's own text: nothing was rewritten. -/
theorem preserves : Cert.preserves_Kernel_KernelIdeal := trivial

/-- On arrays of real numbers the kernel ends with the mean of the scaled scores and the mean of the softmax-weighted
    value rows of its arguments, and the reference, from the same arguments, with the same two arrays. -/
theorem algebraic : Cert.algebraic_KernelIdeal_ReferenceIdeal := by
  intro m ρ m' ρ' hpre hagree
  refine ⟨fun c => Gvis (m ((c.tc : Thread Cert.KernelIdeal.nD Cert.KernelIdeal.τ).loc Cert.KernelIdeal.main_arg1))
      (m ((c.tc : Thread Cert.KernelIdeal.nD Cert.KernelIdeal.τ).loc Cert.KernelIdeal.main_arg0)),
    fun c => Gout (m ((c.tc : Thread Cert.KernelIdeal.nD Cert.KernelIdeal.τ).loc Cert.KernelIdeal.main_arg1))
      (m ((c.tc : Thread Cert.KernelIdeal.nD Cert.KernelIdeal.τ).loc Cert.KernelIdeal.main_arg0)),
    Cert.KernelIdeal.Attn.kernel_run m ρ hpre, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · have hr := Cert.Finite.isReal_of_fn _ _ (hpre c)
    rw [(hagree c).1, (hagree c).2]
    exact (Cert.ReferenceIdeal.Read.val_main_v17_eq _ _).trans (Cert.ReferenceIdeal.RefValue.ref_vis _ _ hr.1 hr.2)
  · have hr := Cert.Finite.isReal_of_fn _ _ (hpre c)
    rw [(hagree c).1, (hagree c).2]
    exact (Cert.ReferenceIdeal.Read.val_main_v21_eq _ _).trans (Cert.ReferenceIdeal.RefValue.ref_out _ _ hr.1 hr.2)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
